-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x4096 : Shape := ⟨2, ![4, 4096]⟩
abbrev S4x512 : Shape := ⟨2, ![4, 512]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_arg4 : FVec F S4x512 .f32) (main_arg5 : FVec F S4x512 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4x512 .f32 := Host.absf main_arg4
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512 .f32 := Host.absf main_arg5
  let main_cst_8 : FVec F S_ .f32 := constant S_ .f32 0x7F800000#32
  let main_v25 : FVec F S4x512 .f32 := broadcastInDim S4x512 ![] bcast_S_S4x512 main_cst_8
  let main_v26 : IVec S4x512 1 := cmpf .olt main_v24 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v23 main_v27
  main_v28

def fn {F : FTy → Type} [FloatOps F] (main_arg0 : FVec F S4x4096x3 .f32) (main_arg1 : FVec F S4x4096 .f32) (main_arg2 : FVec F S4x4096x3 .f32) (main_arg3 : FVec F S4x4096 .f32) (main_arg4 : FVec F S4x512 .f32) (main_arg5 : FVec F S4x512 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  let main_v9 : FVec F S4x4096x3 .f32 := Host.absf main_arg2
  let main_cst_2 : FVec F S_ .f32 := constant S_ .f32 0x7F800000#32
  let main_v10 : FVec F S4x4096x3 .f32 := broadcastInDim S4x4096x3 ![] bcast_S_S4x4096x3 main_cst_2
  let main_v11 : IVec S4x4096x3 1 := cmpf .olt main_v9 main_v10
  let main_c_3 : IVec S_ 1 := constantI S_ 1 1#1
  let main_v12 : IVec S_ 1 := (fun x v => Host.reduce IntOp.andi x v reducesTo_S4x4096x3_S_d0_1_2 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_v13 main_v16
-- ==== Kernel.lean ====
abbrev S4x4096x3 : Shape := ⟨3, ![4, 4096, 3]⟩
abbrev S4x4096 : Shape := ⟨2, ![4, 4096]⟩
abbrev S4x512 : Shape := ⟨2, ![4, 512]⟩
abbrev S4x128x3 : Shape := ⟨3, ![4, 128, 3]⟩
abbrev S4x128 : Shape := ⟨2, ![4, 128]⟩
abbrev S4x128x4096 : Shape := ⟨3, ![4, 128, 4096]⟩
abbrev S4x128x1 : Shape := ⟨3, ![4, 128, 1]⟩
abbrev S4x1x4096 : Shape := ⟨3, ![4, 1, 4096]⟩
abbrev S128x4096 : Shape := ⟨2, ![128, 4096]⟩
abbrev S1x128x4096 : Shape := ⟨3, ![1, 128, 4096]⟩
abbrev S_ : Shape := ⟨0, ![]⟩
abbrev S4 : Shape := ⟨1, ![4]⟩
abbrev S4x1 : Shape := ⟨2, ![4, 1]⟩

abbrev nBuf : Space → Nat
  | .hbm => 80
  | .vmem => 15
  | .smem => 0
  | _ => 0

abbrev bufTy : (tb : Table) → Fin (tcTables nBuf tb) → BufTy
  | .hbm, ⟨0, _⟩ => ⟨S4x4096x3, .f32⟩
  | .hbm, ⟨1, _⟩ => ⟨S4x4096, .f32⟩
  | .hbm, ⟨2, _⟩ => ⟨S4x4096x3, .f32⟩
  | .hbm, ⟨3, _⟩ => ⟨S4x4096, .f32⟩
  | .hbm, ⟨4, _⟩ => ⟨S4x512, .f32⟩
  | .hbm, ⟨5, _⟩ => ⟨S4x512, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x512, .f32⟩
  | .hbm, ⟨26, _⟩ => ⟨S4x512, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i32⟩
  | .hbm, ⟨38, _⟩ => ⟨S_, .f32⟩
  | .hbm, ⟨39, _⟩ => ⟨S4, .f32⟩
  | .hbm, ⟨40, _⟩ => ⟨S4x1, .f32⟩
  | .hbm, ⟨41, _⟩ => ⟨S_, .f32⟩
  | .hbm, ⟨42, _⟩ => ⟨S4x1, .f32⟩
  | .hbm, ⟨43, _⟩ => ⟨S4x1, .f32⟩
  | .hbm, ⟨44, _⟩ => ⟨S4x4096, .f32⟩
  | .hbm, ⟨45, _⟩ => ⟨S4x4096, .f32⟩
  | .hbm, ⟨46, _⟩ => ⟨S4x4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4x4096, .f32⟩
  | .hbm, ⟨66, _⟩ => ⟨S4x4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .local _ .vmem, ⟨0, _⟩ => ⟨S4x128x3, .f32⟩
  | .local _ .vmem, ⟨1, _⟩ => ⟨S4x128x3, .f32⟩
  | .local _ .vmem, ⟨2, _⟩ => ⟨S4x4096x3, .f32⟩
  | .local _ .vmem, ⟨3, _⟩ => ⟨S4x128, .f32⟩
  | .local _ .vmem, ⟨4, _⟩ => ⟨S4x128, .f32⟩
  | .local _ .vmem, ⟨5, _⟩ => ⟨S4x128x3, .f32⟩
  | .local _ .vmem, ⟨6, _⟩ => ⟨S4x128x3, .f32⟩
  | .local _ .vmem, ⟨7, _⟩ => ⟨S4x4096x3, .f32⟩
  | .local _ .vmem, ⟨8, _⟩ => ⟨S4x128, .f32⟩
  | .local _ .vmem, ⟨9, _⟩ => ⟨S4x128, .f32⟩
  | .local _ .vmem, ⟨10, _⟩ => ⟨S4x128x3, .f32⟩
  | .local _ .vmem, ⟨11, _⟩ => ⟨S4x128x3, .f32⟩
  | .local _ .vmem, ⟨12, _⟩ => ⟨S4x4096x3, .f32⟩
  | .local _ .vmem, ⟨13, _⟩ => ⟨S4x128, .f32⟩
  | .local _ .vmem, ⟨14, _⟩ => ⟨S4x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_cst_8 : Ref sig .tc := ⟨.hbm, 35, rfl⟩
abbrev main_v20 : Ref sig .tc := ⟨.hbm, 36, rfl⟩
abbrev main_c : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_cst_0 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_cst_1 : Ref sig .tc := ⟨.hbm, 48, rfl⟩
abbrev main_call0_call0_v8 : Ref sig .tc := ⟨.hbm, 49, rfl⟩
abbrev main_call0_call0_cst_2 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_cst_3 : Ref sig .tc := ⟨.hbm, 54, rfl⟩
abbrev main_call0_call0_v12 : Ref sig .tc := ⟨.hbm, 55, rfl⟩
abbrev main_call0_call0_cst_4 : Ref sig .tc := ⟨.hbm, 56, rfl⟩
abbrev main_call0_call0_call0_v0 : Ref sig .tc := ⟨.hbm, 57, rfl⟩
abbrev main_call0_call0_call0_v1 : Ref sig .tc := ⟨.hbm, 58, rfl⟩
abbrev main_call0_v0 : Ref sig .tc := ⟨.hbm, 59, rfl⟩
abbrev main_v21 : Ref sig .tc := ⟨.hbm, 60, rfl⟩
abbrev main_cst_9 : Ref sig .tc := ⟨.hbm, 61, rfl⟩
abbrev main_v22 : Ref sig .tc := ⟨.hbm, 62, rfl⟩
abbrev main_cst_10 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_11 : Ref sig .tc := ⟨.hbm, 67, rfl⟩
abbrev main_v26 : Ref sig .tc := ⟨.hbm, 68, rfl⟩
abbrev main_cst_12 : Ref sig .tc := ⟨.hbm, 69, rfl⟩
abbrev main_v27 : Ref sig .tc := ⟨.hbm, 70, rfl⟩
abbrev main_cst_13 : Ref sig .tc := ⟨.hbm, 71, rfl⟩
abbrev main_v28 : Ref sig .tc := ⟨.hbm, 72, rfl⟩
abbrev main_v29 : Ref sig .tc := ⟨.hbm, 73, rfl⟩
abbrev main_cst_14 : Ref sig .tc := ⟨.hbm, 74, rfl⟩
abbrev main_v30 : Ref sig .tc := ⟨.hbm, 75, rfl⟩
abbrev main_v31 : Ref sig .tc := ⟨.hbm, 76, rfl⟩
abbrev main_cst_15 : Ref sig .tc := ⟨.hbm, 77, rfl⟩
abbrev main_v32 : Ref sig .tc := ⟨.hbm, 78, rfl⟩
abbrev main_v33 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x128x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x4096x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4x128x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4096x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S4x128x3_S4x128x3_0_0_0 : ∀ a, (![0, 0, 0] : Fin 3 → Nat) a + S4x128x3.size a ≤ S4x128x3.size a
  h_S4x128x3 : 0 < S4x128x3.numel
  inb_S4x4096x3_S4x4096x3_0_0_0 : ∀ a, (![0, 0, 0] : Fin 3 → Nat) a + S4x4096x3.size a ≤ S4x4096x3.size a
  h_S4x4096x3 : 0 < S4x4096x3.numel
  reduces_S4x128x3_S4x128 : S4x128x3.Reduces [2] S4x128
  reduces_S4x4096x3_S4x4096 : S4x4096x3.Reduces [2] S4x4096
  bitsLt_bf16_f32 : FTy.bits .bf16 < FTy.bits .f32
  shapeCasts_S4x128_S4x128x1 : S4x128.ShapeCasts S4x128x1
  shapeCasts_S4x4096_S4x1x4096 : S4x4096.ShapeCasts S4x1x4096
  broadcasts_S4x128x1_S4x128x4096 : S4x128x1.Broadcasts S4x128x4096
  broadcasts_S4x1x4096_S4x128x4096 : S4x1x4096.Broadcasts S4x128x4096
  reduces_S4x128x4096_S4x128 : S4x128x4096.Reduces [2] S4x128
  inb_S4x128_S4x128_0_0 : ∀ a, (![0, 0] : Fin 2 → Nat) a + S4x128.size a ≤ S4x128.size a
  h_S4x128 : 0 < S4x128.numel
  iota_S128x4096_d0_w32 : S128x4096.Iotas .tc 32 [0]
  iota_S128x4096_d1_w32 : S128x4096.Iotas .tc 32 [1]
  shapeCasts_S128x4096_S1x128x4096 : S128x4096.ShapeCasts S1x128x4096
  broadcasts_S1x128x4096_S4x128x4096 : S1x128x4096.Broadcasts S4x128x4096
  reducesTo_S4x4096_S4_d1 : S4x4096.ReducesTo [1] S4
  h_S_ : 0 < S_.numel
  bcast_S_S4 : S_.BroadcastsInDim S4 (![] : Fin 0 → Fin S4.rank)
  reducesTo_S4_S_d0 : S4.ReducesTo [0] S_
  bcast_S_S4x512 : S_.BroadcastsInDim S4x512 (![] : Fin 0 → Fin S4x512.rank)
  reducesTo_S4x512_S_d0_1 : S4x512.ReducesTo [0, 1] S_
  bcast_S4_S4x1_0 : S4.BroadcastsInDim S4x1 (![0] : Fin 1 → Fin S4x1.rank)
  bcast_S_S4x1 : S_.BroadcastsInDim S4x1 (![] : Fin 0 → Fin S4x1.rank)
  bcast_S4x1_S4x4096_0_1 : S4x1.BroadcastsInDim S4x4096 (![0, 1] : Fin 2 → Fin S4x4096.rank)
  reducesTo_S4x4096_S_d0_1 : S4x4096.ReducesTo [0, 1] S_
  dot_S4x128x3_S4x4096x3_S4x128x4096_2_2_1_1_0_0_wf : DotDims.WF S4x128x3 S4x4096x3 S4x128x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x3.size a ≤ S4x4096x3.size a
  hwx0_0 : ∀ i : grid0.Coords, EltTy.bits .f32 = 32 ∨ (Rect.block (s := S4x4096x3) S4x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096x3.size a ≤ S4x4096x3.size a
  hwx0_1 : ∀ i : grid0.Coords, EltTy.bits .f32 = 32 ∨ (Rect.block (s := S4x4096x3) S4x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x4096.size a
  hwx0_2 : ∀ i : grid0.Coords, EltTy.bits .f32 = 32 ∨ (Rect.block (s := S4x4096) S4x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x128x3.size a ≤ S4x4096x3.size a
  hwx1_0 : ∀ i : grid1.Coords, EltTy.bits .f32 = 32 ∨ (Rect.block (s := S4x4096x3) S4x128x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4096x3.size a ≤ S4x4096x3.size a
  hwx1_1 : ∀ i : grid1.Coords, EltTy.bits .f32 = 32 ∨ (Rect.block (s := S4x4096x3) S4x4096x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x128.size a ≤ S4x4096.size a
  hwx1_2 : ∀ i : grid1.Coords, EltTy.bits .f32 = 32 ∨ (Rect.block (s := S4x4096) S4x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x128x3.size a ≤ S4x4096x3.size a
  hwx2_0 : ∀ i : grid2.Coords, EltTy.bits .f32 = 32 ∨ (Rect.block (s := S4x4096x3) S4x128x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4096x3.size a ≤ S4x4096x3.size a
  hwx2_1 : ∀ i : grid2.Coords, EltTy.bits .f32 = 32 ∨ (Rect.block (s := S4x4096x3) S4x4096x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x128.size a ≤ S4x4096.size a
  hwx2_2 : ∀ i : grid2.Coords, EltTy.bits .f32 = 32 ∨ (Rect.block (s := S4x4096) S4x128.size (cc2_transform_2 i) (hinb2_2 i)).WholeWords (EltTy.packing .f32)

variable [Facts₀]

def dot_S4x128x3_S4x4096x3_S4x128x4096_2_2_1_1_0_0 : DotDims S4x128x3 S4x4096x3 S4x128x4096 where
  lhsContracting := [2]
  rhsContracting := [2]
  lhsNonContracting := [1]
  rhsNonContracting := [1]
  lhsBatch := [0]
  rhsBatch := [0]
  wf := dot_S4x128x3_S4x4096x3_S4x128x4096_2_2_1_1_0_0_wf

abbrev win0_0 : Pipeline.Window sig grid0 :=
  Pipeline.Window.ofSpec (Memref.whole main_arg0) S4x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S4x128x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x4096x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S4x128x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4x4096x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S4x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x4096x3 : Shape := ⟨3, ![4, 4096, 3]⟩
abbrev S4x4096 : Shape := ⟨2, ![4, 4096]⟩
abbrev S4x512 : Shape := ⟨2, ![4, 512]⟩
abbrev S_ : Shape := ⟨0, ![]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩
abbrev S4096x4096 : Shape := ⟨2, ![4096, 4096]⟩
abbrev S1x4096x4096 : Shape := ⟨3, ![1, 4096, 4096]⟩
abbrev S4x1 : Shape := ⟨2, ![4, 1]⟩

abbrev nBuf : Space → Nat
  | .hbm => 128
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096, .f32⟩
  | .hbm, ⟨2, _⟩ => ⟨S4x4096x3, .f32⟩
  | .hbm, ⟨3, _⟩ => ⟨S4x4096, .f32⟩
  | .hbm, ⟨4, _⟩ => ⟨S4x512, .f32⟩
  | .hbm, ⟨5, _⟩ => ⟨S4x512, .f32⟩
  | .hbm, ⟨6, _⟩ => ⟨S4x4096x3, .f32⟩
  | .hbm, ⟨7, _⟩ => ⟨S_, .f32⟩
  | .hbm, ⟨8, _⟩ => ⟨S4x4096, .f32⟩
  | .hbm, ⟨9, _⟩ => ⟨S4x4096x3, .f32⟩
  | .hbm, ⟨10, _⟩ => ⟨S_, .f32⟩
  | .hbm, ⟨11, _⟩ => ⟨S4x4096, .f32⟩
  | .hbm, ⟨12, _⟩ => ⟨S4x4096x4096, .f32⟩
  | .hbm, ⟨13, _⟩ => ⟨S4x4096x1, .f32⟩
  | .hbm, ⟨14, _⟩ => ⟨S4x1x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x512, .f32⟩
  | .hbm, ⟨43, _⟩ => ⟨S4x512, .f32⟩
  | .hbm, ⟨44, _⟩ => ⟨S4x512, .f32⟩
  | .hbm, ⟨45, _⟩ => ⟨S4x512, .f32⟩
  | .hbm, ⟨46, _⟩ => ⟨S4x512, .f32⟩
  | .hbm, ⟨47, _⟩ => ⟨S4x512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4x4096x3, .f32⟩
  | .hbm, ⟨55, _⟩ => ⟨S_, .f32⟩
  | .hbm, ⟨56, _⟩ => ⟨S4x4096, .f32⟩
  | .hbm, ⟨57, _⟩ => ⟨S4x4096x3, .f32⟩
  | .hbm, ⟨58, _⟩ => ⟨S_, .f32⟩
  | .hbm, ⟨59, _⟩ => ⟨S4x4096, .f32⟩
  | .hbm, ⟨60, _⟩ => ⟨S4x4096x4096, .f32⟩
  | .hbm, ⟨61, _⟩ => ⟨S4x4096x1, .f32⟩
  | .hbm, ⟨62, _⟩ => ⟨S4x1x4096, .f32⟩
  | .hbm, ⟨63, _⟩ => ⟨S4x4096x4096, .f32⟩
  | .hbm, ⟨64, _⟩ => ⟨S4x4096x4096, .f32⟩
  | .hbm, ⟨65, _⟩ => ⟨S4x4096x4096, .f32⟩
  | .hbm, ⟨66, _⟩ => ⟨S_, .f32⟩
  | .hbm, ⟨67, _⟩ => ⟨S4x4096x4096, .f32⟩
  | .hbm, ⟨68, _⟩ => ⟨S4x4096x4096, .f32⟩
  | .hbm, ⟨69, _⟩ => ⟨S4x4096x4096, .f32⟩
  | .hbm, ⟨70, _⟩ => ⟨S4096x4096, .i32⟩
  | .hbm, ⟨71, _⟩ => ⟨S4096x4096, .i32⟩
  | .hbm, ⟨72, _⟩ => ⟨S_, .i32⟩
  | .hbm, ⟨73, _⟩ => ⟨S4096x4096, .i32⟩
  | .hbm, ⟨74, _⟩ => ⟨S4096x4096, .i32⟩
  | .hbm, ⟨75, _⟩ => ⟨S4096x4096, .i1⟩
  | .hbm, ⟨76, _⟩ => ⟨S4096x4096, .f32⟩
  | .hbm, ⟨77, _⟩ => ⟨S1x4096x4096, .f32⟩
  | .hbm, ⟨78, _⟩ => ⟨S_, .f32⟩
  | .hbm, ⟨79, _⟩ => ⟨S1x4096x4096, .f32⟩
  | .hbm, ⟨80, _⟩ => ⟨S1x4096x4096, .f32⟩
  | .hbm, ⟨81, _⟩ => ⟨S4x4096x4096, .f32⟩
  | .hbm, ⟨82, _⟩ => ⟨S4x4096x4096, .f32⟩
  | .hbm, ⟨83, _⟩ => ⟨S_, .f32⟩
  | .hbm, ⟨84, _⟩ => ⟨S4x4096, .f32⟩
  | .hbm, ⟨85, _⟩ => ⟨S_, .i32⟩
  | .hbm, ⟨86, _⟩ => ⟨S_, .f32⟩
  | .hbm, ⟨87, _⟩ => ⟨S4, .f32⟩
  | .hbm, ⟨88, _⟩ => ⟨S4x1, .f32⟩
  | .hbm, ⟨89, _⟩ => ⟨S_, .f32⟩
  | .hbm, ⟨90, _⟩ => ⟨S4x1, .f32⟩
  | .hbm, ⟨91, _⟩ => ⟨S4x1, .f32⟩
  | .hbm, ⟨92, _⟩ => ⟨S4x4096, .f32⟩
  | .hbm, ⟨93, _⟩ => ⟨S4x4096, .f32⟩
  | .hbm, ⟨94, _⟩ => ⟨S4x4096, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S4, .f32⟩
  | .hbm, ⟨100, _⟩ => ⟨S4, .f32⟩
  | .hbm, ⟨101, _⟩ => ⟨S4, .f32⟩
  | .hbm, ⟨102, _⟩ => ⟨S_, .f32⟩
  | .hbm, ⟨103, _⟩ => ⟨S_, .i1⟩
  | .hbm, ⟨104, _⟩ => ⟨S_, .f32⟩
  | .hbm, ⟨105, _⟩ => ⟨S_, .f32⟩
  | .hbm, ⟨106, _⟩ => ⟨S4, .f32⟩
  | .hbm, ⟨107, _⟩ => ⟨S4, .f32⟩
  | .hbm, ⟨108, _⟩ => ⟨S4, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S4x4096, .f32⟩
  | .hbm, ⟨114, _⟩ => ⟨S4x4096, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev main_cst_9 : Ref sig .tc := ⟨.hbm, 39, rfl⟩
abbrev main_v23 : Ref sig .tc := ⟨.hbm, 40, rfl⟩
abbrev main_cst_10 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_11 : Ref sig .tc := ⟨.hbm, 48, rfl⟩
abbrev main_v30 : Ref sig .tc := ⟨.hbm, 49, rfl⟩
abbrev main_cst_12 : Ref sig .tc := ⟨.hbm, 50, rfl⟩
abbrev main_v31 : Ref sig .tc := ⟨.hbm, 51, rfl⟩
abbrev main_cst_13 : Ref sig .tc := ⟨.hbm, 52, rfl⟩
abbrev main_v32 : Ref sig .tc := ⟨.hbm, 53, rfl⟩
abbrev main_v33 : Ref sig .tc := ⟨.hbm, 54, rfl⟩
abbrev main_cst_14 : Ref sig .tc := ⟨.hbm, 55, rfl⟩
abbrev main_v34 : Ref sig .tc := ⟨.hbm, 56, rfl⟩
abbrev main_v35 : Ref sig .tc := ⟨.hbm, 57, rfl⟩
abbrev main_cst_15 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_16 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_c_19 : Ref sig .tc := ⟨.hbm, 85, rfl⟩
abbrev main_call0_call0_cst : Ref sig .tc := ⟨.hbm, 86, rfl⟩
abbrev main_call0_call0_v0 : Ref sig .tc := ⟨.hbm, 87, rfl⟩
abbrev main_call0_call0_v1 : Ref sig .tc := ⟨.hbm, 88, rfl⟩
abbrev main_call0_call0_cst_0 : Ref sig .tc := ⟨.hbm, 89, rfl⟩
abbrev main_call0_call0_v2 : Ref sig .tc := ⟨.hbm, 90, rfl⟩
abbrev main_call0_call0_v3 : Ref sig .tc := ⟨.hbm, 91, rfl⟩
abbrev main_call0_call0_v4 : Ref sig .tc := ⟨.hbm, 92, rfl⟩
abbrev main_call0_call0_v5 : Ref sig .tc := ⟨.hbm, 93, rfl⟩
abbrev main_call0_call0_v6 : Ref sig .tc := ⟨.hbm, 94, rfl⟩
abbrev main_call0_call0_v7 : Ref sig .tc := ⟨.hbm, 95, rfl⟩
abbrev main_call0_call0_cst_1 : Ref sig .tc := ⟨.hbm, 96, rfl⟩
abbrev main_call0_call0_v8 : Ref sig .tc := ⟨.hbm, 97, rfl⟩
abbrev main_call0_call0_cst_2 : Ref sig .tc := ⟨.hbm, 98, rfl⟩
abbrev main_call0_call0_v9 : Ref sig .tc := ⟨.hbm, 99, rfl⟩
abbrev main_call0_call0_v10 : Ref sig .tc := ⟨.hbm, 100, rfl⟩
abbrev main_call0_call0_v11 : Ref sig .tc := ⟨.hbm, 101, rfl⟩
abbrev main_call0_call0_cst_3 : Ref sig .tc := ⟨.hbm, 102, rfl⟩
abbrev main_call0_call0_v12 : Ref sig .tc := ⟨.hbm, 103, rfl⟩
abbrev main_call0_call0_cst_4 : Ref sig .tc := ⟨.hbm, 104, rfl⟩
abbrev main_call0_call0_call0_v0 : Ref sig .tc := ⟨.hbm, 105, rfl⟩
abbrev main_call0_call0_call0_v1 : Ref sig .tc := ⟨.hbm, 106, rfl⟩
abbrev main_call0_v0 : Ref sig .tc := ⟨.hbm, 107, rfl⟩
abbrev main_v58 : Ref sig .tc := ⟨.hbm, 108, rfl⟩
abbrev main_cst_20 : Ref sig .tc := ⟨.hbm, 109, rfl⟩
abbrev main_v59 : Ref sig .tc := ⟨.hbm, 110, rfl⟩
abbrev main_cst_21 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_22 : Ref sig .tc := ⟨.hbm, 115, rfl⟩
abbrev main_v63 : Ref sig .tc := ⟨.hbm, 116, rfl⟩
abbrev main_cst_23 : Ref sig .tc := ⟨.hbm, 117, rfl⟩
abbrev main_v64 : Ref sig .tc := ⟨.hbm, 118, rfl⟩
abbrev main_cst_24 : Ref sig .tc := ⟨.hbm, 119, rfl⟩
abbrev main_v65 : Ref sig .tc := ⟨.hbm, 120, rfl⟩
abbrev main_v66 : Ref sig .tc := ⟨.hbm, 121, rfl⟩
abbrev main_cst_25 : Ref sig .tc := ⟨.hbm, 122, rfl⟩
abbrev main_v67 : Ref sig .tc := ⟨.hbm, 123, rfl⟩
abbrev main_v68 : Ref sig .tc := ⟨.hbm, 124, rfl⟩
abbrev main_cst_26 : Ref sig .tc := ⟨.hbm, 125, rfl⟩
abbrev main_v69 : Ref sig .tc := ⟨.hbm, 126, rfl⟩
abbrev main_v70 : Ref sig .tc := ⟨.hbm, 127, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S4_d1 : S4x4096.ReducesTo [1] S4
  bcast_S_S4 : S_.BroadcastsInDim S4 (![] : Fin 0 → Fin S4.rank)
  reducesTo_S4x4096x4096_S4x4096_d1 : S4x4096x4096.ReducesTo [1] S4x4096
  reducesTo_S4_S_d0 : S4.ReducesTo [0] S_
  bcast_S_S4x512 : S_.BroadcastsInDim S4x512 (![] : Fin 0 → Fin S4x512.rank)
  reducesTo_S4x512_S_d0_1 : S4x512.ReducesTo [0, 1] S_
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S_S1x4096x4096 : S_.BroadcastsInDim S1x4096x4096 (![] : Fin 0 → Fin S1x4096x4096.rank)
  bcast_S1x4096x4096_S4x4096x4096_0_1_2 : S1x4096x4096.BroadcastsInDim S4x4096x4096 (![0, 1, 2] : Fin 3 → Fin S4x4096x4096.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x4096_0_1 : S4x1.BroadcastsInDim S4x4096 (![0, 1] : Fin 2 → Fin S4x4096.rank)
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.K.Region0.lean ====
/-
  Region 0 (the pred → target nearest-neighbour kernel): the windows' blocks, what the body leaves in the output
  window's buffer, the body's triple, the pipeline's proof data and the body obligation, at any float instance
  and at any contents `V` of the TensorCore's buffers when the region is entered.

  The body reads its two input blocks whole (a 4×128×3 block of the row operand, the whole 4×4096×3 column operand),
  reads the output buffer (a value it never uses) and stores ONE value over the whole 4×128 output block: for each
  batch b and row n of the block, the minimum over all 4096 columns m of |x_n|² + |y_m|² − 2·⟨x_n, y_m⟩.
-/
import proofs.«172589_j55319178772943_1_alg».proof.Proof.Gen.Kernel.Launch
import proofs.«172589_j55319178772943_1_alg».proof.Proof.Gen.Kernel.Skeleton
import proofs.«172589_j55319178772943_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The column operand's single staging buffer holds the whole array at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 4×128 output block, as the one rectangle the body stores through. -/
abbrev r0_out : Rect S4x128 := Rect.unit (s := S4x128) ![0, 0] S4x128.size inb_S4x128_S4x128_0_0
abbrev r0_x : Rect S4x128x3 := Rect.unit (s := S4x128x3) ![0, 0, 0] S4x128x3.size inb_S4x128x3_S4x128x3_0_0_0
abbrev r0_y : Rect S4x4096x3 := Rect.unit (s := S4x4096x3) ![0, 0, 0] S4x4096x3.size inb_S4x4096x3_S4x4096x3_0_0_0

/-- What the body leaves in the output window's buffer, from the two input blocks: its one store. -/
def out0_2 (x0 : Vec F S4x128x3 .f32) (x1 : Vec F S4x4096x3 .f32) : Vec F S4x128 .f32 :=
  View.canon [⟨r0_out, k0_pay1 (View.ld x0 r0_x) (View.ld x1 r0_y)⟩]

theorem cover0_2 (p0 : Vec F S4x128 .f32) (y : S4x128.Idx) :
    ∃ pc ∈ ([⟨r0_out, p0⟩] : List (View.Piece (Elt F) S4x128 .f32)), y ∈ pc.1.set :=
  View.cover_of_tiled [⟨r0_out, p0⟩] S4x128.size (by rfl) y

set_option maxHeartbeats 1000000 in
/-- The body on whole staging memrefs, the inputs' at contents `x0`, `x1` and the output's at anything, runs to
    the continuation holding the inputs' as they were and the output's at `out0_2 x0 x1`. -/
theorem sound_kernel0 (c : Dev nD) (E : Set ℕ) (i : grid0.Coords) (arg1 : Memref sig .tc .vmem S4x128x3 .f32) (harg1 : arg1.IsWhole)
    (arg2 : Memref sig .tc .vmem S4x4096x3 .f32) (harg2 : arg2.IsWhole) (arg3 : Memref sig .tc .vmem S4x128 .f32) (harg3 : arg3.IsWhole)
    (x0 : Vec F S4x128x3 .f32) (x1 : Vec F S4x4096x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__directional_min_kernel i arg1 harg1 arg2 harg2 arg3 harg3) K := by
  simp only [cc0__directional_min_kernel_eq_skeleton]; unfold cc0__directional_min_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 (the target → pred nearest-neighbour kernel): the windows' blocks, what the body leaves in the output
  window's buffer, the body's triple, the pipeline's proof data and the body obligation, at any float instance
  and at any contents `V` of the TensorCore's buffers when the region is entered.

  The body reads its two input blocks whole (a 4×128×3 block of the row operand, the whole 4×4096×3 column operand),
  reads the output buffer (a value it never uses) and stores ONE value over the whole 4×128 output block: for each
  batch b and row n of the block, the minimum over all 4096 columns m of |x_n|² + |y_m|² − 2·⟨x_n, y_m⟩.
-/
import proofs.«172589_j55319178772943_1_alg».proof.Proof.Gen.Kernel.Launch
import proofs.«172589_j55319178772943_1_alg».proof.Proof.Gen.Kernel.Skeleton
import proofs.«172589_j55319178772943_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row operand's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column operand's single staging buffer holds the whole array at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 4×128 output block, as the one rectangle the body stores through. -/
abbrev r1_out : Rect S4x128 := Rect.unit (s := S4x128) ![0, 0] S4x128.size inb_S4x128_S4x128_0_0
abbrev r1_x : Rect S4x128x3 := Rect.unit (s := S4x128x3) ![0, 0, 0] S4x128x3.size inb_S4x128x3_S4x128x3_0_0_0
abbrev r1_y : Rect S4x4096x3 := Rect.unit (s := S4x4096x3) ![0, 0, 0] S4x4096x3.size inb_S4x4096x3_S4x4096x3_0_0_0

/-- What the body leaves in the output window's buffer, from the two input blocks: its one store. -/
def out1_2 (x0 : Vec F S4x128x3 .f32) (x1 : Vec F S4x4096x3 .f32) : Vec F S4x128 .f32 :=
  View.canon [⟨r1_out, k1_pay1 (View.ld x0 r1_x) (View.ld x1 r1_y)⟩]

theorem cover1_2 (p0 : Vec F S4x128 .f32) (y : S4x128.Idx) :
    ∃ pc ∈ ([⟨r1_out, p0⟩] : List (View.Piece (Elt F) S4x128 .f32)), y ∈ pc.1.set :=
  View.cover_of_tiled [⟨r1_out, p0⟩] S4x128.size (by rfl) y

set_option maxHeartbeats 1000000 in
/-- The body on whole staging memrefs, the inputs' at contents `x0`, `x1` and the output's at anything, runs to
    the continuation holding the inputs' as they were and the output's at `out1_2 x0 x1`. -/
theorem sound_kernel1 (c : Dev nD) (E : Set ℕ) (i : grid1.Coords) (arg1 : Memref sig .tc .vmem S4x128x3 .f32) (harg1 : arg1.IsWhole)
    (arg2 : Memref sig .tc .vmem S4x4096x3 .f32) (harg2 : arg2.IsWhole) (arg3 : Memref sig .tc .vmem S4x128 .f32) (harg3 : arg3.IsWhole)
    (x0 : Vec F S4x128x3 .f32) (x1 : Vec F S4x4096x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__directional_min_kernel i arg1 harg1 arg2 harg2 arg3 harg3) K := by
  simp only [cc1__directional_min_kernel_eq_skeleton]; unfold cc1__directional_min_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 0 on core `c`: the arrays as the region finds them; after the body at point `t`
    each input's buffer at its block and the output's at `out1_2` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 (the pred → pred nearest-neighbour kernel, the diagonal pushed away): the windows' blocks, what the body leaves in the output
  window's buffer, the body's triple, the pipeline's proof data and the body obligation, at any float instance
  and at any contents `V` of the TensorCore's buffers when the region is entered.

  The body reads its two input blocks whole (a 4×128×3 block of the row operand, the whole 4×4096×3 column operand),
  reads the output buffer (a value it never uses) and stores ONE value over the whole 4×128 output block: for each
  batch b and row n of the block, the minimum over all 4096 columns m of |x_n|² + |y_m|² − 2·⟨x_n, y_m⟩ plus 10⁶ where
  the column is the row's own position in the array (block index × 128 + n = m). Both input windows read ONE array
  (the cloud against itself), so the array is held half and half by the two windows.
-/
import proofs.«172589_j55319178772943_1_alg».proof.Proof.Gen.Kernel.Launch
import proofs.«172589_j55319178772943_1_alg».proof.Proof.Gen.Kernel.Skeleton
import proofs.«172589_j55319178772943_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column operand's single staging buffer holds the whole array at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 4×128 output block, as the one rectangle the body stores through. -/
abbrev r2_out : Rect S4x128 := Rect.unit (s := S4x128) ![0, 0] S4x128.size inb_S4x128_S4x128_0_0
abbrev r2_x : Rect S4x128x3 := Rect.unit (s := S4x128x3) ![0, 0, 0] S4x128x3.size inb_S4x128x3_S4x128x3_0_0_0
abbrev r2_y : Rect S4x4096x3 := Rect.unit (s := S4x4096x3) ![0, 0, 0] S4x4096x3.size inb_S4x4096x3_S4x4096x3_0_0_0

/-- What the body leaves in the output window's buffer, from the two input blocks: its one store. -/
def out2_2 (i : grid2.Coords) (x0 : Vec F S4x128x3 .f32) (x1 : Vec F S4x4096x3 .f32) : Vec F S4x128 .f32 :=
  View.canon [⟨r2_out, k2_pay1 i (View.ld x0 r2_x) (View.ld x1 r2_y)⟩]

theorem cover2_2 (p0 : Vec F S4x128 .f32) (y : S4x128.Idx) :
    ∃ pc ∈ ([⟨r2_out, p0⟩] : List (View.Piece (Elt F) S4x128 .f32)), y ∈ pc.1.set :=
  View.cover_of_tiled [⟨r2_out, p0⟩] S4x128.size (by rfl) y

set_option maxHeartbeats 1000000 in
/-- The body on whole staging memrefs, the inputs' at contents `x0`, `x1` and the output's at anything, runs to
    the continuation holding the inputs' as they were and the output's at `out2_2 x0 x1`. -/
theorem sound_kernel2 (c : Dev nD) (E : Set ℕ) (i : grid2.Coords) (arg1 : Memref sig .tc .vmem S4x128x3 .f32) (harg1 : arg1.IsWhole)
    (arg2 : Memref sig .tc .vmem S4x4096x3 .f32) (harg2 : arg2.IsWhole) (arg3 : Memref sig .tc .vmem S4x128 .f32) (harg3 : arg3.IsWhole)
    (x0 : Vec F S4x128x3 .f32) (x1 : Vec F S4x4096x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 i x0 x1)) -∗ K ⟨⟩))
      ⊢ wp frame (wpE (defs₀ (F := F)) Variants.none c none) E (cc2__directional_min_kernel i arg1 harg1 arg2 harg2 arg3 harg3) K := by
  simp only [cc2__directional_min_kernel_eq_skeleton]; unfold cc2__directional_min_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 0 on core `c`: the arrays as the region finds them; after the body at point `t`
    each input's buffer at its block and the output's at `out2_2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (grid2.coords t) (iblk2 V c 0 t) (iblk2 V c 1 t) := by dsimp only [dat2]
theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole program at any float instance: @main is three kernel regions followed by three stretches of
  host operations. The contents of the TensorCore's buffers are followed from the launch through the six items —
  a region changes only its output array, to what its 32 write-backs leave (`Dat.arrAt … 32`); a stretch of host
  operations changes the buffers it writes, to the operations' fold — and every weakly fair execution terminates
  with every unscoped buffer at the last of these contents. From that: the argument arrays end as launched (no item
  writes one), and the result buffer ends at the loss `tailFn` of the three regions' output arrays.

  The third region reads ONE array through both input windows (the cloud against itself): the array's full share is
  split in two halves at the region's entry, one per window, and joined again at its exit.
-/
import proofs.«172589_j55319178772943_1_alg».proof.Proof.K.Region0
import proofs.«172589_j55319178772943_1_alg».proof.Proof.K.Region1
import proofs.«172589_j55319178772943_1_alg».proof.Proof.K.Region2
import proofs.«172589_j55319178772943_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its output array `main_v0` at what the write-backs leave. -/
def W1 (c : Dev nD) : Valuation τ sig (Elt F) :=
  Function.update (W0 m ρ c) main_v0 ((dat0 (V0 m ρ) c).arrAt 2 cfg0.N)
abbrev V1 : (c : Dev nD) → (b : Ref sig .tc) → Buf (Elt F) ((c : Thread nD τ).loc b) := fun c b => W1 m ρ c b
/-- After region 1: `main_v1`. -/
def W2 (c : Dev nD) : Valuation τ sig (Elt F) :=
  Function.update (W1 m ρ c) main_v1 ((dat1 (V1 m ρ) c).arrAt 2 cfg1.N)
abbrev V2 : (c : Dev nD) → (b : Ref sig .tc) → Buf (Elt F) ((c : Thread nD τ).loc b) := fun c b => W2 m ρ c b
/-- After region 2: `main_v2`. -/
def W3 (c : Dev nD) : Valuation τ sig (Elt F) :=
  Function.update (W2 m ρ c) main_v2 ((dat2 (V2 m ρ) c).arrAt 2 cfg2.N)
abbrev V3 : (c : Dev nD) → (b : Ref sig .tc) → Buf (Elt F) ((c : Thread nD τ).loc b) := fun c b => W3 m ρ c b
/-- After each of the three stretches of host operations. -/
abbrev W4 : Dev nD → Valuation τ sig (Elt F) := fun c => StableHlo.after hostOps3 (W3 m ρ c)
abbrev W5 : Dev nD → Valuation τ sig (Elt F) := fun c => StableHlo.after hostOps3_1 (W4 m ρ c)
abbrev W6 : Dev nD → Valuation τ sig (Elt F) := fun c => StableHlo.after hostOps3_2 (W5 m ρ c)

theorem W1_out (c : Dev nD) : W1 m ρ c main_v0 = (dat0 (V0 m ρ) c).arrAt 2 cfg0.N := by
  unfold W1; exact Function.update_self ..
theorem W1_of_ne (c : Dev nD) (b : Ref sig .tc) (hb : b ≠ main_v0) : W1 m ρ c b = W0 m ρ c b := by
  unfold W1; exact Function.update_of_ne (StableHlo.devRef_ne_of_ne hb) ..
theorem W2_out (c : Dev nD) : W2 m ρ c main_v1 = (dat1 (V1 m ρ) c).arrAt 2 cfg1.N := by
  unfold W2; exact Function.update_self ..
theorem W2_of_ne (c : Dev nD) (b : Ref sig .tc) (hb : b ≠ main_v1) : W2 m ρ c b = W1 m ρ c b := by
  unfold W2; exact Function.update_of_ne (StableHlo.devRef_ne_of_ne hb) ..
theorem W3_out (c : Dev nD) : W3 m ρ c main_v2 = (dat2 (V2 m ρ) c).arrAt 2 cfg2.N := by
  unfold W3; exact Function.update_self ..
theorem W3_of_ne (c : Dev nD) (b : Ref sig .tc) (hb : b ≠ main_v2) : W3 m ρ c b = W2 m ρ c b := by
  unfold W3; exact Function.update_of_ne (StableHlo.devRef_ne_of_ne hb) ..

/-- At a region's exit each of its arrays holds what the pipeline leaves — an input array what it held, the output
    array the write-backs' fold — and every other buffer what it held at entry. -/
theorem hF0 (c : Dev nD) (w : Fin cfg0.W) : (dat0 (V0 m ρ) c).arrAt w cfg0.N = V1 m ρ c (Pipeline.arrRef spec0 w) :=
  match w with
  | ⟨0, _⟩ => (((dat0 (V0 m ρ) c).arrAt_in 0 rfl _).trans (A_eq0 (V0 m ρ) c 0)).trans (W1_of_ne m ρ c main_arg0 (by decide)).symm
  | ⟨1, _⟩ => (((dat0 (V0 m ρ) c).arrAt_in 1 rfl _).trans (A_eq0 (V0 m ρ) c 1)).trans (W1_of_ne m ρ c main_arg2 (by decide)).symm
  | ⟨2, _⟩ => (W1_out m ρ c).symm
theorem hrest0 (c : Dev nD) : ∀ b, b ∉ Finset.univ.image (Pipeline.arrRef spec0) → V1 m ρ c b = V0 m ρ c b :=
  fun b hb => W1_of_ne m ρ c b fun e => hb (Finset.mem_image.mpr ⟨2, Finset.mem_univ _, e.symm⟩)
theorem hF1 (c : Dev nD) (w : Fin cfg1.W) : (dat1 (V1 m ρ) c).arrAt w cfg1.N = V2 m ρ c (Pipeline.arrRef spec1 w) :=
  match w with
  | ⟨0, _⟩ => (((dat1 (V1 m ρ) c).arrAt_in 0 rfl _).trans (A_eq1 (V1 m ρ) c 0)).trans (W2_of_ne m ρ c main_arg2 (by decide)).symm
  | ⟨1, _⟩ => (((dat1 (V1 m ρ) c).arrAt_in 1 rfl _).trans (A_eq1 (V1 m ρ) c 1)).trans (W2_of_ne m ρ c main_arg0 (by decide)).symm
  | ⟨2, _⟩ => (W2_out m ρ c).symm
theorem hrest1 (c : Dev nD) : ∀ b, b ∉ Finset.univ.image (Pipeline.arrRef spec1) → V2 m ρ c b = V1 m ρ c b :=
  fun b hb => W2_of_ne m ρ c b fun e => hb (Finset.mem_image.mpr ⟨2, Finset.mem_univ _, e.symm⟩)
theorem hF2 (c : Dev nD) (w : Fin cfg2.W) : (dat2 (V2 m ρ) c).arrAt w cfg2.N = V3 m ρ c (Pipeline.arrRef spec2 w) :=
  match w with
  | ⟨0, _⟩ => (((dat2 (V2 m ρ) c).arrAt_in 0 rfl _).trans (A_eq2 (V2 m ρ) c 0)).trans (W3_of_ne m ρ c main_arg0 (by decide)).symm
  | ⟨1, _⟩ => (((dat2 (V2 m ρ) c).arrAt_in 1 rfl _).trans (A_eq2 (V2 m ρ) c 1)).trans (W3_of_ne m ρ c main_arg0 (by decide)).symm
  | ⟨2, _⟩ => (W3_out m ρ c).symm
theorem hrest2 (c : Dev nD) : ∀ b, b ∉ Finset.univ.image (Pipeline.arrRef spec2) → V3 m ρ c b = V2 m ρ c b :=
  fun b hb => W3_of_ne m ρ c b fun e => hb (Finset.mem_image.mpr ⟨2, Finset.mem_univ _, e.symm⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## Region 2's arrays: one array read through two windows -/

/-- The buffers behind region 2's arrays are the cloud `main_arg0` (both input windows) and the output `main_v2`. -/
theorem arrRefs2 : (Finset.univ.image (Pipeline.arrRef spec2) : Finset (Ref sig .tc)) = {main_arg0, main_v2} := by decide

/-- Those two buffers held whole at the full share ARE the region's arrays when the two input windows hold the cloud
    at the two halves of its share and all three windows' contents are read off the same valuation: the cloud's full
    share splits into the halves, and back. -/
theorem arrays2_iff (c : Dev nD) (dat : Dat τ (Elt F) Unit ℕ (UR sig nD τ) ℕ cfg2 c)
    (hq0 : dat.q 0 = fullShare.left) (hq1 : dat.q 1 = fullShare.right)
    (V : (b : Ref sig .tc) → Buf (Elt F) ((c : Thread nD τ).loc b))
    (Fn : (w : Fin cfg2.W) → Buf (Elt F) ((cfg2.win w).arr.view.loc (c : Thread nD τ)))
    (h0 : Fn 0 = V main_arg0) (h1 : Fn 1 = V main_arg0) (h2 : Fn 2 = V main_v2) :
    (Pipeline.arrBufs (Ix := Unit) (Name := ℕ) (U := UR sig nD τ) (Lvl := ℕ) spec2 c V : sProp 𝕄) ⊣⊢ dat.arrays Fn := by
  have hsh : ((c : Thread nD τ).loc main_arg0 ↦{fullShare} V main_arg0 : sProp 𝕄)
      ⊣⊢ iprop(((c : Thread nD τ).loc main_arg0 ↦{fullShare.left} V main_arg0) ∗ (c : Thread nD τ).loc main_arg0 ↦{fullShare.right} V main_arg0) :=
    pointsTo_share (PosShare.mem_left_op_right fullShare)
  have hL : (Pipeline.arrBufs (Ix := Unit) (Name := ℕ) (U := UR sig nD τ) (Lvl := ℕ) spec2 c V : sProp 𝕄)
      = iprop(((c : Thread nD τ).loc main_arg0 ↦{fullShare} V main_arg0) ∗ (c : Thread nD τ).loc main_v2 ↦{fullShare} V main_v2) := by
    unfold Pipeline.arrBufs
    rw [arrRefs2, bigSep_insert (by decide), BI.bigSep_singleton]
    rfl
  have hR : (dat.arrays Fn : sProp 𝕄)
      = iprop(((c : Thread nD τ).loc main_arg0 ↦{fullShare.left} V main_arg0) ∗ ((c : Thread nD τ).loc main_arg0 ↦{fullShare.right} V main_arg0)
          ∗ (c : Thread nD τ).loc main_v2 ↦{fullShare} V main_v2) := by
    unfold Dat.arrays
    rw [bigSep_W2, (arr_whole2 0).set_eq_univ, (arr_whole2 2).set_eq_univ, h0, h1, h2,
      show dat.share 0 = fullShare.left from hq0, show dat.share 1 = fullShare.right from hq1, show dat.share 2 = fullShare from rfl]
  rw [hL, hR]
  constructor
  · iintro ⟨Ha, Hv⟩
    have hs1 := hsh.1
    ihave H := hs1 $$ Ha
    icases H with ⟨Hl, Hr⟩
    isplitl [Hl]; · iexact Hl
    isplitl [Hr]; · iexact Hr
    iexact Hv
  · iintro ⟨Hl, Hr, Hv⟩
    isplitl [Hl Hr]
    · have hs2 := hsh.2
      iapply hs2; isplitl [Hl] <;> iassumption
    iexact Hv

/-! ## The regions as items -/

-- a library lemma stated over the pinned configuration unifies with the printed one only when unification may unfold
-- plain definitions in a metavariable's type
set_option backward.isDefEq.respectTransparency.types false in
/-- Region 0 over the thread state: entered from every unscoped buffer at `W0`, left at `W1`. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W1`, left at `W2`. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option maxHeartbeats 1000000 in
set_option backward.isDefEq.respectTransparency.types false in
/-- Region 2 over the thread state: entered from every unscoped buffer at `W2`, left at `W3`. Its arrays are
    split out of the unscoped buffers and put back at the exit contents; the generator register goes into the
    region's invariant and comes out; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit : (unscopedBufs c (V2 m ρ c) : sProp 𝕄)
        ⊢ iprop((pdats m ρ 2 c).arrays ((pdats m ρ 2 c).arrAt · 0) ∗ Pipeline.unscopedRest (Ix := Unit) (Name := ℕ) (U := UR sig nD τ) (Lvl := ℕ) spec2 c (V2 m ρ c)) := by
      rw [Pipeline.unscopedBufs_split₀ (Pipeline.pin (pcfgs (F := F)) adm) 2 winFacts₀2.arr_unscoped c (V2 m ρ c)]
      exact sep_mono (arrays2_iff c (pdats m ρ 2 c) (q2_0 (V2 m ρ) c) (q2_1 (V2 m ρ) c) (V2 m ρ c) ((pdats m ρ 2 c).arrAt · 0) rfl rfl rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (V2 m ρ c))
        ⊢ (unscopedBufs c (V3 m ρ c) : sProp 𝕄) := by
      rw [Pipeline.unscopedBufs_split₀ (Pipeline.pin (pcfgs (F := F)) adm) 2 winFacts₀2.arr_unscoped c (V3 m ρ c)]
      refine sep_mono (arrays2_iff c (pdats m ρ 2 c) (q2_0 (V2 m ρ) c) (q2_1 (V2 m ρ) c) (V3 m ρ c) ((pdats m ρ 2 c).arrAt · cfg2.N)
        (hF2 m ρ c 0) (hF2 m ρ c 1) (hF2 m ρ c 2)).2 (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its six items, and the launch -/

abbrev segs : List (Pipeline.Seg (pcfgs (F := F)) adm (pdats m ρ) () defs₀ 𝒱₀ L lv) :=
  [ .region (reg0 m ρ), .region (reg1 m ρ), .region (reg2 m ρ),
    .host (hseg hostOps3 hostOps3_sub hostOps3_fresh (W3 m ρ)),
    .host (hseg hostOps3_1 hostOps3_1_sub hostOps3_1_fresh (W4 m ρ)),
    .host (hseg hostOps3_2 hostOps3_2_sub hostOps3_2_fresh (W5 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3_2 (W5 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.K.FrameRun.lean ====
/-
  The frame: no region's output and no host operation is an argument array, so every weakly fair execution ends
  with the six argument arrays as launched.
-/
import proofs.«172589_j55319178772943_1_alg».proof.Proof.K.Run

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ) (ρ : Dev nD → PrngReg)

/-- A buffer that no region's output and no host operation writes holds at the end what it held at launch. -/
theorem W6_kept (c : Dev nD) (r : Ref sig .tc) (h3 : r ∉ hostOps3_W) (h4 : r ∉ hostOps3_1_W) (h5 : r ∉ hostOps3_2_W)
    (h0 : r ≠ main_v0) (h1 : r ≠ main_v1) (h2 : r ≠ main_v2) : W6 m ρ c r = m ((c : Thread nD τ).loc r) :=
  (StableHlo.after_of_writes_sub hostOps3_2 _ hostOps3_2_writes h5).trans <|
    (StableHlo.after_of_writes_sub hostOps3_1 _ hostOps3_1_writes h4).trans <|
    (StableHlo.after_of_writes_sub hostOps3 _ hostOps3_writes h3).trans <|
    (W3_of_ne m ρ c r h2).trans <| (W2_of_ne m ρ c r h1).trans <| (W1_of_ne m ρ c r h0).trans rfl

/-- THE FRAME at any float instance: every weakly fair execution terminates, nothing faulting, and the six argument
    arrays end as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_kept m ρ c main_arg0 (by decide) (by decide) (by decide) (by decide) (by decide) (by decide)),
     (h c _ (mem_uc main_arg1 (by decide))).trans (W6_kept m ρ c main_arg1 (by decide) (by decide) (by decide) (by decide) (by decide) (by decide)),
     (h c _ (mem_uc main_arg2 (by decide))).trans (W6_kept m ρ c main_arg2 (by decide) (by decide) (by decide) (by decide) (by decide) (by decide)),
     (h c _ (mem_uc main_arg3 (by decide))).trans (W6_kept m ρ c main_arg3 (by decide) (by decide) (by decide) (by decide) (by decide) (by decide)),
     (h c _ (mem_uc main_arg4 (by decide))).trans (W6_kept m ρ c main_arg4 (by decide) (by decide) (by decide) (by decide) (by decide) (by decide)),
     (h c _ (mem_uc main_arg5 (by decide))).trans (W6_kept m ρ c main_arg5 (by decide) (by decide) (by decide) (by decide) (by decide) (by decide))⟩)
    (run_all m ρ)

end Cert.Kernel.Hand

end
-- ==== Proof.KI.Region0.lean ====
/-
  Region 0 (the pred → target nearest-neighbour kernel): the windows' blocks, what the body leaves in the output
  window's buffer, the body's triple, the pipeline's proof data and the body obligation, at any float instance
  and at any contents `V` of the TensorCore's buffers when the region is entered.

  The body reads its two input blocks whole (a 4×128×3 block of the row operand, the whole 4×4096×3 column operand),
  reads the output buffer (a value it never uses) and stores ONE value over the whole 4×128 output block: for each
  batch b and row n of the block, the minimum over all 4096 columns m of |x_n|² + |y_m|² − 2·⟨x_n, y_m⟩.
-/
import proofs.«172589_j55319178772943_1_alg».proof.Proof.Gen.KernelIdeal.Launch
import proofs.«172589_j55319178772943_1_alg».proof.Proof.Gen.KernelIdeal.Skeleton
import proofs.«172589_j55319178772943_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The column operand's single staging buffer holds the whole array at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 4×128 output block, as the one rectangle the body stores through. -/
abbrev r0_out : Rect S4x128 := Rect.unit (s := S4x128) ![0, 0] S4x128.size inb_S4x128_S4x128_0_0
abbrev r0_x : Rect S4x128x3 := Rect.unit (s := S4x128x3) ![0, 0, 0] S4x128x3.size inb_S4x128x3_S4x128x3_0_0_0
abbrev r0_y : Rect S4x4096x3 := Rect.unit (s := S4x4096x3) ![0, 0, 0] S4x4096x3.size inb_S4x4096x3_S4x4096x3_0_0_0

/-- What the body leaves in the output window's buffer, from the two input blocks: its one store. -/
def out0_2 (x0 : Vec F S4x128x3 .f32) (x1 : Vec F S4x4096x3 .f32) : Vec F S4x128 .f32 :=
  View.canon [⟨r0_out, k0_pay1 (View.ld x0 r0_x) (View.ld x1 r0_y)⟩]

theorem cover0_2 (p0 : Vec F S4x128 .f32) (y : S4x128.Idx) :
    ∃ pc ∈ ([⟨r0_out, p0⟩] : List (View.Piece (Elt F) S4x128 .f32)), y ∈ pc.1.set :=
  View.cover_of_tiled [⟨r0_out, p0⟩] S4x128.size (by rfl) y

set_option maxHeartbeats 1000000 in
/-- The body on whole staging memrefs, the inputs' at contents `x0`, `x1` and the output's at anything, runs to
    the continuation holding the inputs' as they were and the output's at `out0_2 x0 x1`. -/
theorem sound_kernel0 (c : Dev nD) (E : Set ℕ) (i : grid0.Coords) (arg1 : Memref sig .tc .vmem S4x128x3 .f32) (harg1 : arg1.IsWhole)
    (arg2 : Memref sig .tc .vmem S4x4096x3 .f32) (harg2 : arg2.IsWhole) (arg3 : Memref sig .tc .vmem S4x128 .f32) (harg3 : arg3.IsWhole)
    (x0 : Vec F S4x128x3 .f32) (x1 : Vec F S4x4096x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__directional_min_kernel i arg1 harg1 arg2 harg2 arg3 harg3) K := by
  simp only [cc0__directional_min_kernel_eq_skeleton]; unfold cc0__directional_min_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 (the target → pred nearest-neighbour kernel): the windows' blocks, what the body leaves in the output
  window's buffer, the body's triple, the pipeline's proof data and the body obligation, at any float instance
  and at any contents `V` of the TensorCore's buffers when the region is entered.

  The body reads its two input blocks whole (a 4×128×3 block of the row operand, the whole 4×4096×3 column operand),
  reads the output buffer (a value it never uses) and stores ONE value over the whole 4×128 output block: for each
  batch b and row n of the block, the minimum over all 4096 columns m of |x_n|² + |y_m|² − 2·⟨x_n, y_m⟩.
-/
import proofs.«172589_j55319178772943_1_alg».proof.Proof.Gen.KernelIdeal.Launch
import proofs.«172589_j55319178772943_1_alg».proof.Proof.Gen.KernelIdeal.Skeleton
import proofs.«172589_j55319178772943_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row operand's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column operand's single staging buffer holds the whole array at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 4×128 output block, as the one rectangle the body stores through. -/
abbrev r1_out : Rect S4x128 := Rect.unit (s := S4x128) ![0, 0] S4x128.size inb_S4x128_S4x128_0_0
abbrev r1_x : Rect S4x128x3 := Rect.unit (s := S4x128x3) ![0, 0, 0] S4x128x3.size inb_S4x128x3_S4x128x3_0_0_0
abbrev r1_y : Rect S4x4096x3 := Rect.unit (s := S4x4096x3) ![0, 0, 0] S4x4096x3.size inb_S4x4096x3_S4x4096x3_0_0_0

/-- What the body leaves in the output window's buffer, from the two input blocks: its one store. -/
def out1_2 (x0 : Vec F S4x128x3 .f32) (x1 : Vec F S4x4096x3 .f32) : Vec F S4x128 .f32 :=
  View.canon [⟨r1_out, k1_pay1 (View.ld x0 r1_x) (View.ld x1 r1_y)⟩]

theorem cover1_2 (p0 : Vec F S4x128 .f32) (y : S4x128.Idx) :
    ∃ pc ∈ ([⟨r1_out, p0⟩] : List (View.Piece (Elt F) S4x128 .f32)), y ∈ pc.1.set :=
  View.cover_of_tiled [⟨r1_out, p0⟩] S4x128.size (by rfl) y

set_option maxHeartbeats 1000000 in
/-- The body on whole staging memrefs, the inputs' at contents `x0`, `x1` and the output's at anything, runs to
    the continuation holding the inputs' as they were and the output's at `out1_2 x0 x1`. -/
theorem sound_kernel1 (c : Dev nD) (E : Set ℕ) (i : grid1.Coords) (arg1 : Memref sig .tc .vmem S4x128x3 .f32) (harg1 : arg1.IsWhole)
    (arg2 : Memref sig .tc .vmem S4x4096x3 .f32) (harg2 : arg2.IsWhole) (arg3 : Memref sig .tc .vmem S4x128 .f32) (harg3 : arg3.IsWhole)
    (x0 : Vec F S4x128x3 .f32) (x1 : Vec F S4x4096x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__directional_min_kernel i arg1 harg1 arg2 harg2 arg3 harg3) K := by
  simp only [cc1__directional_min_kernel_eq_skeleton]; unfold cc1__directional_min_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 0 on core `c`: the arrays as the region finds them; after the body at point `t`
    each input's buffer at its block and the output's at `out1_2` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 (the pred → pred nearest-neighbour kernel, the diagonal pushed away): the windows' blocks, what the body leaves in the output
  window's buffer, the body's triple, the pipeline's proof data and the body obligation, at any float instance
  and at any contents `V` of the TensorCore's buffers when the region is entered.

  The body reads its two input blocks whole (a 4×128×3 block of the row operand, the whole 4×4096×3 column operand),
  reads the output buffer (a value it never uses) and stores ONE value over the whole 4×128 output block: for each
  batch b and row n of the block, the minimum over all 4096 columns m of |x_n|² + |y_m|² − 2·⟨x_n, y_m⟩ plus 10⁶ where
  the column is the row's own position in the array (block index × 128 + n = m). Both input windows read ONE array
  (the cloud against itself), so the array is held half and half by the two windows.
-/
import proofs.«172589_j55319178772943_1_alg».proof.Proof.Gen.KernelIdeal.Launch
import proofs.«172589_j55319178772943_1_alg».proof.Proof.Gen.KernelIdeal.Skeleton
import proofs.«172589_j55319178772943_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column operand's single staging buffer holds the whole array at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 4×128 output block, as the one rectangle the body stores through. -/
abbrev r2_out : Rect S4x128 := Rect.unit (s := S4x128) ![0, 0] S4x128.size inb_S4x128_S4x128_0_0
abbrev r2_x : Rect S4x128x3 := Rect.unit (s := S4x128x3) ![0, 0, 0] S4x128x3.size inb_S4x128x3_S4x128x3_0_0_0
abbrev r2_y : Rect S4x4096x3 := Rect.unit (s := S4x4096x3) ![0, 0, 0] S4x4096x3.size inb_S4x4096x3_S4x4096x3_0_0_0

/-- What the body leaves in the output window's buffer, from the two input blocks: its one store. -/
def out2_2 (i : grid2.Coords) (x0 : Vec F S4x128x3 .f32) (x1 : Vec F S4x4096x3 .f32) : Vec F S4x128 .f32 :=
  View.canon [⟨r2_out, k2_pay1 i (View.ld x0 r2_x) (View.ld x1 r2_y)⟩]

theorem cover2_2 (p0 : Vec F S4x128 .f32) (y : S4x128.Idx) :
    ∃ pc ∈ ([⟨r2_out, p0⟩] : List (View.Piece (Elt F) S4x128 .f32)), y ∈ pc.1.set :=
  View.cover_of_tiled [⟨r2_out, p0⟩] S4x128.size (by rfl) y

set_option maxHeartbeats 1000000 in
/-- The body on whole staging memrefs, the inputs' at contents `x0`, `x1` and the output's at anything, runs to
    the continuation holding the inputs' as they were and the output's at `out2_2 x0 x1`. -/
theorem sound_kernel2 (c : Dev nD) (E : Set ℕ) (i : grid2.Coords) (arg1 : Memref sig .tc .vmem S4x128x3 .f32) (harg1 : arg1.IsWhole)
    (arg2 : Memref sig .tc .vmem S4x4096x3 .f32) (harg2 : arg2.IsWhole) (arg3 : Memref sig .tc .vmem S4x128 .f32) (harg3 : arg3.IsWhole)
    (x0 : Vec F S4x128x3 .f32) (x1 : Vec F S4x4096x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 i x0 x1)) -∗ K ⟨⟩))
      ⊢ wp frame (wpE (defs₀ (F := F)) Variants.none c none) E (cc2__directional_min_kernel i arg1 harg1 arg2 harg2 arg3 harg3) K := by
  simp only [cc2__directional_min_kernel_eq_skeleton]; unfold cc2__directional_min_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 0 on core `c`: the arrays as the region finds them; after the body at point `t`
    each input's buffer at its block and the output's at `out2_2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (grid2.coords t) (iblk2 V c 0 t) (iblk2 V c 1 t) := by dsimp only [dat2]
theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program at any float instance: @main is three kernel regions followed by three stretches of
  host operations. The contents of the TensorCore's buffers are followed from the launch through the six items —
  a region changes only its output array, to what its 32 write-backs leave (`Dat.arrAt … 32`); a stretch of host
  operations changes the buffers it writes, to the operations' fold — and every weakly fair execution terminates
  with every unscoped buffer at the last of these contents. From that: the argument arrays end as launched (no item
  writes one), and the result buffer ends at the loss `tailFn` of the three regions' output arrays.

  The third region reads ONE array through both input windows (the cloud against itself): the array's full share is
  split in two halves at the region's entry, one per window, and joined again at its exit.
-/
import proofs.«172589_j55319178772943_1_alg».proof.Proof.KI.Region0
import proofs.«172589_j55319178772943_1_alg».proof.Proof.KI.Region1
import proofs.«172589_j55319178772943_1_alg».proof.Proof.KI.Region2
import proofs.«172589_j55319178772943_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its output array `main_v0` at what the write-backs leave. -/
def W1 (c : Dev nD) : Valuation τ sig (Elt F) :=
  Function.update (W0 m ρ c) main_v0 ((dat0 (V0 m ρ) c).arrAt 2 cfg0.N)
abbrev V1 : (c : Dev nD) → (b : Ref sig .tc) → Buf (Elt F) ((c : Thread nD τ).loc b) := fun c b => W1 m ρ c b
/-- After region 1: `main_v1`. -/
def W2 (c : Dev nD) : Valuation τ sig (Elt F) :=
  Function.update (W1 m ρ c) main_v1 ((dat1 (V1 m ρ) c).arrAt 2 cfg1.N)
abbrev V2 : (c : Dev nD) → (b : Ref sig .tc) → Buf (Elt F) ((c : Thread nD τ).loc b) := fun c b => W2 m ρ c b
/-- After region 2: `main_v2`. -/
def W3 (c : Dev nD) : Valuation τ sig (Elt F) :=
  Function.update (W2 m ρ c) main_v2 ((dat2 (V2 m ρ) c).arrAt 2 cfg2.N)
abbrev V3 : (c : Dev nD) → (b : Ref sig .tc) → Buf (Elt F) ((c : Thread nD τ).loc b) := fun c b => W3 m ρ c b
/-- After each of the three stretches of host operations. -/
abbrev W4 : Dev nD → Valuation τ sig (Elt F) := fun c => StableHlo.after hostOps3 (W3 m ρ c)
abbrev W5 : Dev nD → Valuation τ sig (Elt F) := fun c => StableHlo.after hostOps3_1 (W4 m ρ c)
abbrev W6 : Dev nD → Valuation τ sig (Elt F) := fun c => StableHlo.after hostOps3_2 (W5 m ρ c)

theorem W1_out (c : Dev nD) : W1 m ρ c main_v0 = (dat0 (V0 m ρ) c).arrAt 2 cfg0.N := by
  unfold W1; exact Function.update_self ..
theorem W1_of_ne (c : Dev nD) (b : Ref sig .tc) (hb : b ≠ main_v0) : W1 m ρ c b = W0 m ρ c b := by
  unfold W1; exact Function.update_of_ne (StableHlo.devRef_ne_of_ne hb) ..
theorem W2_out (c : Dev nD) : W2 m ρ c main_v1 = (dat1 (V1 m ρ) c).arrAt 2 cfg1.N := by
  unfold W2; exact Function.update_self ..
theorem W2_of_ne (c : Dev nD) (b : Ref sig .tc) (hb : b ≠ main_v1) : W2 m ρ c b = W1 m ρ c b := by
  unfold W2; exact Function.update_of_ne (StableHlo.devRef_ne_of_ne hb) ..
theorem W3_out (c : Dev nD) : W3 m ρ c main_v2 = (dat2 (V2 m ρ) c).arrAt 2 cfg2.N := by
  unfold W3; exact Function.update_self ..
theorem W3_of_ne (c : Dev nD) (b : Ref sig .tc) (hb : b ≠ main_v2) : W3 m ρ c b = W2 m ρ c b := by
  unfold W3; exact Function.update_of_ne (StableHlo.devRef_ne_of_ne hb) ..

/-- At a region's exit each of its arrays holds what the pipeline leaves — an input array what it held, the output
    array the write-backs' fold — and every other buffer what it held at entry. -/
theorem hF0 (c : Dev nD) (w : Fin cfg0.W) : (dat0 (V0 m ρ) c).arrAt w cfg0.N = V1 m ρ c (Pipeline.arrRef spec0 w) :=
  match w with
  | ⟨0, _⟩ => (((dat0 (V0 m ρ) c).arrAt_in 0 rfl _).trans (A_eq0 (V0 m ρ) c 0)).trans (W1_of_ne m ρ c main_arg0 (by decide)).symm
  | ⟨1, _⟩ => (((dat0 (V0 m ρ) c).arrAt_in 1 rfl _).trans (A_eq0 (V0 m ρ) c 1)).trans (W1_of_ne m ρ c main_arg2 (by decide)).symm
  | ⟨2, _⟩ => (W1_out m ρ c).symm
theorem hrest0 (c : Dev nD) : ∀ b, b ∉ Finset.univ.image (Pipeline.arrRef spec0) → V1 m ρ c b = V0 m ρ c b :=
  fun b hb => W1_of_ne m ρ c b fun e => hb (Finset.mem_image.mpr ⟨2, Finset.mem_univ _, e.symm⟩)
theorem hF1 (c : Dev nD) (w : Fin cfg1.W) : (dat1 (V1 m ρ) c).arrAt w cfg1.N = V2 m ρ c (Pipeline.arrRef spec1 w) :=
  match w with
  | ⟨0, _⟩ => (((dat1 (V1 m ρ) c).arrAt_in 0 rfl _).trans (A_eq1 (V1 m ρ) c 0)).trans (W2_of_ne m ρ c main_arg2 (by decide)).symm
  | ⟨1, _⟩ => (((dat1 (V1 m ρ) c).arrAt_in 1 rfl _).trans (A_eq1 (V1 m ρ) c 1)).trans (W2_of_ne m ρ c main_arg0 (by decide)).symm
  | ⟨2, _⟩ => (W2_out m ρ c).symm
theorem hrest1 (c : Dev nD) : ∀ b, b ∉ Finset.univ.image (Pipeline.arrRef spec1) → V2 m ρ c b = V1 m ρ c b :=
  fun b hb => W2_of_ne m ρ c b fun e => hb (Finset.mem_image.mpr ⟨2, Finset.mem_univ _, e.symm⟩)
theorem hF2 (c : Dev nD) (w : Fin cfg2.W) : (dat2 (V2 m ρ) c).arrAt w cfg2.N = V3 m ρ c (Pipeline.arrRef spec2 w) :=
  match w with
  | ⟨0, _⟩ => (((dat2 (V2 m ρ) c).arrAt_in 0 rfl _).trans (A_eq2 (V2 m ρ) c 0)).trans (W3_of_ne m ρ c main_arg0 (by decide)).symm
  | ⟨1, _⟩ => (((dat2 (V2 m ρ) c).arrAt_in 1 rfl _).trans (A_eq2 (V2 m ρ) c 1)).trans (W3_of_ne m ρ c main_arg0 (by decide)).symm
  | ⟨2, _⟩ => (W3_out m ρ c).symm
theorem hrest2 (c : Dev nD) : ∀ b, b ∉ Finset.univ.image (Pipeline.arrRef spec2) → V3 m ρ c b = V2 m ρ c b :=
  fun b hb => W3_of_ne m ρ c b fun e => hb (Finset.mem_image.mpr ⟨2, Finset.mem_univ _, e.symm⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## Region 2's arrays: one array read through two windows -/

/-- The buffers behind region 2's arrays are the cloud `main_arg0` (both input windows) and the output `main_v2`. -/
theorem arrRefs2 : (Finset.univ.image (Pipeline.arrRef spec2) : Finset (Ref sig .tc)) = {main_arg0, main_v2} := by decide

/-- Those two buffers held whole at the full share ARE the region's arrays when the two input windows hold the cloud
    at the two halves of its share and all three windows' contents are read off the same valuation: the cloud's full
    share splits into the halves, and back. -/
theorem arrays2_iff (c : Dev nD) (dat : Dat τ (Elt F) Unit ℕ (UR sig nD τ) ℕ cfg2 c)
    (hq0 : dat.q 0 = fullShare.left) (hq1 : dat.q 1 = fullShare.right)
    (V : (b : Ref sig .tc) → Buf (Elt F) ((c : Thread nD τ).loc b))
    (Fn : (w : Fin cfg2.W) → Buf (Elt F) ((cfg2.win w).arr.view.loc (c : Thread nD τ)))
    (h0 : Fn 0 = V main_arg0) (h1 : Fn 1 = V main_arg0) (h2 : Fn 2 = V main_v2) :
    (Pipeline.arrBufs (Ix := Unit) (Name := ℕ) (U := UR sig nD τ) (Lvl := ℕ) spec2 c V : sProp 𝕄) ⊣⊢ dat.arrays Fn := by
  have hsh : ((c : Thread nD τ).loc main_arg0 ↦{fullShare} V main_arg0 : sProp 𝕄)
      ⊣⊢ iprop(((c : Thread nD τ).loc main_arg0 ↦{fullShare.left} V main_arg0) ∗ (c : Thread nD τ).loc main_arg0 ↦{fullShare.right} V main_arg0) :=
    pointsTo_share (PosShare.mem_left_op_right fullShare)
  have hL : (Pipeline.arrBufs (Ix := Unit) (Name := ℕ) (U := UR sig nD τ) (Lvl := ℕ) spec2 c V : sProp 𝕄)
      = iprop(((c : Thread nD τ).loc main_arg0 ↦{fullShare} V main_arg0) ∗ (c : Thread nD τ).loc main_v2 ↦{fullShare} V main_v2) := by
    unfold Pipeline.arrBufs
    rw [arrRefs2, bigSep_insert (by decide), BI.bigSep_singleton]
    rfl
  have hR : (dat.arrays Fn : sProp 𝕄)
      = iprop(((c : Thread nD τ).loc main_arg0 ↦{fullShare.left} V main_arg0) ∗ ((c : Thread nD τ).loc main_arg0 ↦{fullShare.right} V main_arg0)
          ∗ (c : Thread nD τ).loc main_v2 ↦{fullShare} V main_v2) := by
    unfold Dat.arrays
    rw [bigSep_W2, (arr_whole2 0).set_eq_univ, (arr_whole2 2).set_eq_univ, h0, h1, h2,
      show dat.share 0 = fullShare.left from hq0, show dat.share 1 = fullShare.right from hq1, show dat.share 2 = fullShare from rfl]
  rw [hL, hR]
  constructor
  · iintro ⟨Ha, Hv⟩
    have hs1 := hsh.1
    ihave H := hs1 $$ Ha
    icases H with ⟨Hl, Hr⟩
    isplitl [Hl]; · iexact Hl
    isplitl [Hr]; · iexact Hr
    iexact Hv
  · iintro ⟨Hl, Hr, Hv⟩
    isplitl [Hl Hr]
    · have hs2 := hsh.2
      iapply hs2; isplitl [Hl] <;> iassumption
    iexact Hv

/-! ## The regions as items -/

-- a library lemma stated over the pinned configuration unifies with the printed one only when unification may unfold
-- plain definitions in a metavariable's type
set_option backward.isDefEq.respectTransparency.types false in
/-- Region 0 over the thread state: entered from every unscoped buffer at `W0`, left at `W1`. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W1`, left at `W2`. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option maxHeartbeats 1000000 in
set_option backward.isDefEq.respectTransparency.types false in
/-- Region 2 over the thread state: entered from every unscoped buffer at `W2`, left at `W3`. Its arrays are
    split out of the unscoped buffers and put back at the exit contents; the generator register goes into the
    region's invariant and comes out; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit : (unscopedBufs c (V2 m ρ c) : sProp 𝕄)
        ⊢ iprop((pdats m ρ 2 c).arrays ((pdats m ρ 2 c).arrAt · 0) ∗ Pipeline.unscopedRest (Ix := Unit) (Name := ℕ) (U := UR sig nD τ) (Lvl := ℕ) spec2 c (V2 m ρ c)) := by
      rw [Pipeline.unscopedBufs_split₀ (Pipeline.pin (pcfgs (F := F)) adm) 2 winFacts₀2.arr_unscoped c (V2 m ρ c)]
      exact sep_mono (arrays2_iff c (pdats m ρ 2 c) (q2_0 (V2 m ρ) c) (q2_1 (V2 m ρ) c) (V2 m ρ c) ((pdats m ρ 2 c).arrAt · 0) rfl rfl rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (V2 m ρ c))
        ⊢ (unscopedBufs c (V3 m ρ c) : sProp 𝕄) := by
      rw [Pipeline.unscopedBufs_split₀ (Pipeline.pin (pcfgs (F := F)) adm) 2 winFacts₀2.arr_unscoped c (V3 m ρ c)]
      refine sep_mono (arrays2_iff c (pdats m ρ 2 c) (q2_0 (V2 m ρ) c) (q2_1 (V2 m ρ) c) (V3 m ρ c) ((pdats m ρ 2 c).arrAt · cfg2.N)
        (hF2 m ρ c 0) (hF2 m ρ c 1) (hF2 m ρ c 2)).2 (Entails.of_eq ?_)
      unfold Pipeline.unscopedRest
      exact bigSep_congr fun b hb => by rw [hrest2 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its six items, and the launch -/

abbrev segs : List (Pipeline.Seg (pcfgs (F := F)) adm (pdats m ρ) () defs₀ 𝒱₀ L lv) :=
  [ .region (reg0 m ρ), .region (reg1 m ρ), .region (reg2 m ρ),
    .host (hseg hostOps3 hostOps3_sub hostOps3_fresh (W3 m ρ)),
    .host (hseg hostOps3_1 hostOps3_1_sub hostOps3_1_fresh (W4 m ρ)),
    .host (hseg hostOps3_2 hostOps3_2_sub hostOps3_2_fresh (W5 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3_2 (W5 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI.FrameRun.lean ====
/-
  The frame: no region's output and no host operation is an argument array, so every weakly fair execution ends
  with the six argument arrays as launched.
-/
import proofs.«172589_j55319178772943_1_alg».proof.Proof.KI.Run

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- A buffer that no region's output and no host operation writes holds at the end what it held at launch. -/
theorem W6_kept (c : Dev nD) (r : Ref sig .tc) (h3 : r ∉ hostOps3_W) (h4 : r ∉ hostOps3_1_W) (h5 : r ∉ hostOps3_2_W)
    (h0 : r ≠ main_v0) (h1 : r ≠ main_v1) (h2 : r ≠ main_v2) : W6 m ρ c r = m ((c : Thread nD τ).loc r) :=
  (StableHlo.after_of_writes_sub hostOps3_2 _ hostOps3_2_writes h5).trans <|
    (StableHlo.after_of_writes_sub hostOps3_1 _ hostOps3_1_writes h4).trans <|
    (StableHlo.after_of_writes_sub hostOps3 _ hostOps3_writes h3).trans <|
    (W3_of_ne m ρ c r h2).trans <| (W2_of_ne m ρ c r h1).trans <| (W1_of_ne m ρ c r h0).trans rfl

/-- THE FRAME at any float instance: every weakly fair execution terminates, nothing faulting, and the six argument
    arrays end as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_kept m ρ c main_arg0 (by decide) (by decide) (by decide) (by decide) (by decide) (by decide)),
     (h c _ (mem_uc main_arg1 (by decide))).trans (W6_kept m ρ c main_arg1 (by decide) (by decide) (by decide) (by decide) (by decide) (by decide)),
     (h c _ (mem_uc main_arg2 (by decide))).trans (W6_kept m ρ c main_arg2 (by decide) (by decide) (by decide) (by decide) (by decide) (by decide)),
     (h c _ (mem_uc main_arg3 (by decide))).trans (W6_kept m ρ c main_arg3 (by decide) (by decide) (by decide) (by decide) (by decide) (by decide)),
     (h c _ (mem_uc main_arg4 (by decide))).trans (W6_kept m ρ c main_arg4 (by decide) (by decide) (by decide) (by decide) (by decide) (by decide)),
     (h c _ (mem_uc main_arg5 (by decide))).trans (W6_kept m ρ c main_arg5 (by decide) (by decide) (by decide) (by decide) (by decide) (by decide))⟩)
    (run_all m ρ)

end Cert.KernelIdeal.Hand

end
-- ==== Proof.TailFn.lean ====
/-
  The scalar loss as one function of the three nearest-neighbour arrays and the four small inputs: the arithmetic
  both programs apply, in the same order, once the three [4, 4096] arrays of nearest squared distances are known —
  the two chamfer means, the KL term, the standard deviation (ddof = 1) of the self distances, the sizing error and
  the weighted sum. Stated at any float instance; nothing here is ever opened by the proofs that use it.
-/
import proofs.«172589_j55319178772943_1_alg».proof.Proof.Gen.KernelIdeal

noncomputable section

namespace Cert.KernelIdeal.Hand

open Idealize.ShloMosaic Idealize.SL.Sem
open Cert.KernelIdeal Cert.KernelIdeal.Facts₀

variable {F : FTy → Type} [FloatOps F]

/-- The loss from the nearest-distance arrays `d0` (pred → target), `d1` (target → pred), `d2` (pred → pred, the
    diagonal pushed away), the sizing arrays `a1`, `a3` and the latent statistics `a4` (mu), `a5` (logvar). -/
def tailFn (d0 d1 d2 a1 a3 : FVec F S4x4096 .f32) (a4 a5 : FVec F S4x512 .f32) : FVec F S_ .f32 :=
  -- the chamfer term: the mean over the batch of the two directions' row means
  let v3 : FVec F S4 .f32 := Host.reduceAdd d0 (constant (F := F) S_ .f32 0x00000000#32) reducesTo_S4x4096_S4_d1 h_S_
  let v4 : FVec F S4 .f32 := broadcastInDim S4 ![] bcast_S_S4 (constant (F := F) S_ .f32 0x45800000#32)
  let v5 : FVec F S4 .f32 := Host.divf v3 v4
  let v6 : FVec F S4 .f32 := Host.reduceAdd d1 (constant (F := F) S_ .f32 0x00000000#32) reducesTo_S4x4096_S4_d1 h_S_
  let v7 : FVec F S4 .f32 := broadcastInDim S4 ![] bcast_S_S4 (constant (F := F) S_ .f32 0x45800000#32)
  let v8 : FVec F S4 .f32 := Host.divf v6 v7
  let v9 : FVec F S4 .f32 := addf v5 v8
  let v10 : FVec F S_ .f32 := Host.reduceAdd v9 (constant (F := F) S_ .f32 0x00000000#32) reducesTo_S4_S_d0 h_S_
  let v11 : FVec F S_ .f32 := Host.divf v10 (constant (F := F) S_ .f32 0x40800000#32)
  -- the KL term
  let v12 : FVec F S4x512 .f32 := broadcastInDim S4x512 ![] bcast_S_S4x512 (constant (F := F) S_ .f32 0x3F800000#32)
  let v13 : FVec F S4x512 .f32 := addf v12 a5
  let v14 : FVec F S4x512 .f32 := mulf a4 a4
  let v15 : FVec F S4x512 .f32 := subf v13 v14
  let v16 : FVec F S4x512 .f32 := Host.exp a5
  let v17 : FVec F S4x512 .f32 := subf v15 v16
  let v18 : FVec F S_ .f32 := Host.reduceAdd v17 (constant (F := F) S_ .f32 0x00000000#32) reducesTo_S4x512_S_d0_1 h_S_
  let v19 : FVec F S_ .f32 := Host.divf v18 (constant (F := F) S_ .f32 0x45000000#32)
  let v20 : FVec F S_ .f32 := mulf (constant (F := F) S_ .f32 0xBF000000#32) v19
  let c : IVec S_ 32 := constantI S_ 32 1#32
  -- the density term: the batch mean of the rows' standard deviations (ddof = 1)
  let k0 : FVec F S4 .f32 := Host.reduceAdd d2 (constant (F := F) S_ .f32 0x00000000#32) reducesTo_S4x4096_S4_d1 h_S_
  let k1 : FVec F S4x1 .f32 := broadcastInDim S4x1 ![0] bcast_S4_S4x1_0 k0
  let k2 : FVec F S4x1 .f32 := broadcastInDim S4x1 ![] bcast_S_S4x1 (constant (F := F) S_ .f32 0x45800000#32)
  let k3 : FVec F S4x1 .f32 := Host.divf k1 k2
  let k4 : FVec F S4x4096 .f32 := broadcastInDim S4x4096 ![0, 1] bcast_S4x1_S4x4096_0_1 k3
  let k5 : FVec F S4x4096 .f32 := subf d2 k4
  let k6 : FVec F S4x4096 .f32 := mulf k5 k5
  let k7 : FVec F S_ .f32 := sitofp .f32 c
  let k8 : FVec F S_ .f32 := subf (constant (F := F) S_ .f32 0x45800000#32) k7
  let k9 : FVec F S4 .f32 := Host.reduceAdd k6 (constant (F := F) S_ .f32 0x00000000#32) reducesTo_S4x4096_S4_d1 h_S_
  let k10 : FVec F S4 .f32 := broadcastInDim S4 ![] bcast_S_S4 k8
  let k11 : FVec F S4 .f32 := Host.divf k9 k10
  let k12 : IVec S_ 1 := cmpf .ogt k8 (constant (F := F) S_ .f32 0x00000000#32)
  let w0 : FVec F S_ .f32 := id (constant (F := F) S_ .f32 0x7FC00000#32)
  let w1 : FVec F S4 .f32 := broadcastInDim S4 ![] bcast_S_S4 w0
  let w2 : FVec F S4 .f32 := select (broadcastInDim S4 ![] bcast_S_S4 k12) k11 w1
  let v21 : FVec F S4 .f32 := Host.sqrt w2
  let v22 : FVec F S_ .f32 := Host.reduceAdd v21 (constant (F := F) S_ .f32 0x00000000#32) reducesTo_S4_S_d0 h_S_
  let v23 : FVec F S_ .f32 := Host.divf v22 (constant (F := F) S_ .f32 0x40800000#32)
  -- the sizing term
  let v24 : FVec F S4x4096 .f32 := subf a1 a3
  let v25 : FVec F S4x4096 .f32 := mulf v24 v24
  let v26 : FVec F S_ .f32 := Host.reduceAdd v25 (constant (F := F) S_ .f32 0x00000000#32) reducesTo_S4x4096_S_d0_1 h_S_
  let v27 : FVec F S_ .f32 := Host.divf v26 (constant (F := F) S_ .f32 0x46800000#32)
  -- the weighted sum
  let v28 : FVec F S_ .f32 := mulf (constant (F := F) S_ .f32 0x3A83126F#32) v20
  let v29 : FVec F S_ .f32 := addf v11 v28
  let v30 : FVec F S_ .f32 := mulf (constant (F := F) S_ .f32 0x3DCCCCCD#32) v23
  let v31 : FVec F S_ .f32 := addf v29 v30
  let v32 : FVec F S_ .f32 := mulf (constant (F := F) S_ .f32 0x3D4CCCCD#32) v27
  addf v31 v32

end Cert.KernelIdeal.Hand

end
-- ==== Proof.KI.Tail.lean ====
/-
  The host operations after the three regions, as one function of the buffers they read.
-/
import proofs.«172589_j55319178772943_1_alg».proof.Proof.Gen.KernelIdeal.Launch
import proofs.«172589_j55319178772943_1_alg».proof.Proof.TailFn
import Idealize.ShloMosaic.Lib.StableHlo.Run

noncomputable section

namespace Cert.KernelIdeal.Hand

open Idealize.ShloMosaic Idealize.ShloMosaic.TcCoe Idealize.ShloMosaic.StableHlo
open Idealize.SL Idealize.SL.Sem
open Cert.KernelIdeal Cert.KernelIdeal.Gen

variable {F : FTy → Type} [FloatOps F]

-- The reductions, the quotients, the transcendental maps, the broadcasts, the selection, the comparison and the
-- conversion stay closed below: the equation is between two spellings of ONE composition of them, and it never looks
-- inside any of them.
attribute [local irreducible] Host.reduceAdd Host.divf Host.exp Host.sqrt broadcastInDim select cmpf sitofp in
set_option maxRecDepth 8192 in
/-- The three stretches of host operations leave in the result buffer the loss `tailFn` of what the three
    regions' output arrays, the sizing arrays and the latent statistics held before them.

    Each operation rewrites the one buffer it writes to its function's value at the buffers it reads and leaves every
    other buffer as it was; so the fold of the seventy-one operations, read at the result buffer, is the composition
    of the operations' functions along the data flow: the buffer read by an operation is looked up in the nearest
    earlier operation that writes it, and in `W` when none does (the three arrays of nearest distances, the sizing
    arrays and the latent statistics). The stretch in the middle, a function's body laid out at its call, carries
    its values at the types the function states them at; at these buffers the transport between the two is the
    identity. `tailFn` is that composition written as a chain of definitions, one per operation, in the operations'
    order, so the two sides agree by unfolding the fold and the chain. -/
theorem tail_out (W : Valuation τ sig (Elt F)) :
    StableHlo.after hostOps3_2 (StableHlo.after hostOps3_1 (StableHlo.after hostOps3 W)) (main_v33 : DevRef τ sig)
      = tailFn (W (main_v0 : DevRef τ sig)) (W (main_v1 : DevRef τ sig)) (W (main_v2 : DevRef τ sig))
          (W (main_arg1 : DevRef τ sig)) (W (main_arg3 : DevRef τ sig)) (W (main_arg4 : DevRef τ sig)) (W (main_arg5 : DevRef τ sig)) := by
  simp only [after_cons, after_nil]
  rfl

end Cert.KernelIdeal.Hand

end
-- ==== Proof.KI.Out.lean ====
/-
  The result buffer at the end of the run, at any float instance: the loss `tailFn` of the three regions' output
  arrays and the launched small inputs — the three stretches of host operations read exactly those buffers.
-/
import proofs.«172589_j55319178772943_1_alg».proof.Proof.KI.Run
import proofs.«172589_j55319178772943_1_alg».proof.Proof.KI.Tail

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The result buffer at the end: the loss of the three regions' output arrays and the launched small inputs. -/
theorem W6_out (c : Dev nD) :
    W6 m ρ c main_v33
      = tailFn ((dat0 (V0 m ρ) c).arrAt 2 cfg0.N) ((dat1 (V1 m ρ) c).arrAt 2 cfg1.N) ((dat2 (V2 m ρ) c).arrAt 2 cfg2.N)
          (m ((c : Thread nD τ).loc main_arg1)) (m ((c : Thread nD τ).loc main_arg3))
          (m ((c : Thread nD τ).loc main_arg4)) (m ((c : Thread nD τ).loc main_arg5)) := by
  have e0 : W3 m ρ c main_v0 = (dat0 (V0 m ρ) c).arrAt 2 cfg0.N :=
    (W3_of_ne m ρ c main_v0 (by decide)).trans <| (W2_of_ne m ρ c main_v0 (by decide)).trans (W1_out m ρ c)
  have e1 : W3 m ρ c main_v1 = (dat1 (V1 m ρ) c).arrAt 2 cfg1.N :=
    (W3_of_ne m ρ c main_v1 (by decide)).trans (W2_out m ρ c)
  have e2 : W3 m ρ c main_v2 = (dat2 (V2 m ρ) c).arrAt 2 cfg2.N := W3_out m ρ c
  have k (r : Ref sig .tc) (h0 : r ≠ main_v0) (h1 : r ≠ main_v1) (h2 : r ≠ main_v2) : W3 m ρ c r = m ((c : Thread nD τ).loc r) :=
    (W3_of_ne m ρ c r h2).trans <| (W2_of_ne m ρ c r h1).trans <| (W1_of_ne m ρ c r h0).trans rfl
  refine (tail_out (W3 m ρ c)).trans ?_
  rw [e0, e1, e2, k main_arg1 (by decide) (by decide) (by decide), k main_arg3 (by decide) (by decide) (by decide),
    k main_arg4 (by decide) (by decide) (by decide), k main_arg5 (by decide) (by decide) (by decide)]

end Cert.KernelIdeal.Hand

end
-- ==== Proof.Spec.lean ====
/-
  The three nearest-neighbour arrays, stated once over the extended reals, index by index.

  For point clouds x, y : [4, 4096, 3] the squared distance between row n of x and row m of y in batch b is written
  the way both programs compute it, |x_n|² + |y_m|² − 2·⟨x_n, y_m⟩ (three-term sums over the coordinate axis), and
  `nearest x y` at (b, n) is its minimum over all m, a fold of `min` from +∞. `nearestSelf x` is the same for
  y = x with 10⁶ added on the diagonal n = m, so that a point is never its own nearest neighbour.
-/
import Idealize.ShloMosaic.PureOps.Ideal
import Idealize.ShloMosaic.Lib.ValueIdx

noncomputable section

namespace Cert.Spec

open Idealize.ShloMosaic Idealize.ShloMosaic.ValueIdx

abbrev Pts : Shape := ⟨3, ![4, 4096, 3]⟩
abbrev Rows : Shape := ⟨2, ![4, 4096]⟩

/-- The literals both programs use, as their exact binary values: 2, 10⁶, 0 and +∞. -/
def two : EReal := Ideal.ofBits .f32 0x40000000#32
def big : EReal := Ideal.ofBits .f32 0x49742400#32
def zero : EReal := Ideal.ofBits .f32 0x00000000#32
def top : EReal := Ideal.ofBits .f32 0x7F800000#32

/-- |x_n|² in batch b. -/
def sqn (x : Pts.Idx → EReal) (b : Fin 4) (n : Fin 4096) : EReal := ∑ d : Fin 3, x (ix3 b n d) * x (ix3 b n d)

/-- ⟨x_n, y_m⟩ in batch b. -/
def dotp (x y : Pts.Idx → EReal) (b : Fin 4) (n m : Fin 4096) : EReal := ∑ d : Fin 3, x (ix3 b n d) * y (ix3 b m d)

/-- The squared distance as both programs spell it. -/
def pd (x y : Pts.Idx → EReal) (b : Fin 4) (n m : Fin 4096) : EReal := (sqn x b n + sqn y b m) - two * dotp x y b n m

/-- The nearest squared distance from row n of x to the rows of y. -/
def nearestAt (x y : Pts.Idx → EReal) (b : Fin 4) (n : Fin 4096) : EReal :=
  (Finset.univ : Finset (Fin 4096)).fold min top (fun m => pd x y b n m)

/-- The same within one cloud, the diagonal pushed away by 10⁶. -/
def nearestSelfAt (x : Pts.Idx → EReal) (b : Fin 4) (n : Fin 4096) : EReal :=
  (Finset.univ : Finset (Fin 4096)).fold min top (fun m => pd x x b n m + (if n.val = m.val then big else zero))

def nearest (x y : Pts.Idx → EReal) : Rows.Idx → EReal := fun i => nearestAt x y (i 0) (i 1)
def nearestSelf (x : Pts.Idx → EReal) : Rows.Idx → EReal := fun i => nearestSelfAt x (i 0) (i 1)

theorem nearest_ix2 (x y : Pts.Idx → EReal) (b : Fin 4) (n : Fin 4096) : nearest x y (ix2 b n) = nearestAt x y b n := rfl
theorem nearestSelf_ix2 (x : Pts.Idx → EReal) (b : Fin 4) (n : Fin 4096) : nearestSelf x (ix2 b n) = nearestSelfAt x b n := rfl

end Cert.Spec

end
-- ==== Proof.KI.Payload.lean ====
/-
  The three kernel bodies' stored values read at an index, over the extended reals.

  Each body forms the array D[b, r, m] = |x0_r|² + |x1_m|² − 2·⟨x0_r, x1_m⟩ (the two squared norms as three-term sums
  along the coordinate axis, spread along the columns and along the rows; the inner products as one batched matrix product
  into a zero accumulator) and stores its minimum over m from +∞. The third body first adds 10⁶ where the column m is the
  row's own position g·128 + r in the array, g the grid coordinate: the comparison is made on 32-bit words, and since
  g·128 + r < 4096 nothing wraps.
-/
import proofs.«172589_j55319178772943_1_alg».proof.Proof.Gen.KernelIdeal.Skeleton
import proofs.«172589_j55319178772943_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-! ## The matrix product at an index -/

/-- The matmul's left operand index at output index `j`: batch and row coordinates are `j`'s first two. -/
private theorem lhs_ax0 (j : S4x128x4096.Idx) (k : dot_S4x128x3_S4x4096x3_S4x128x4096_2_2_1_1_0_0.contr.Idx) :
    (dot_S4x128x3_S4x4096x3_S4x128x4096_2_2_1_1_0_0.lhsIdx j k 0 : ℕ) = j 0 := by
  simp [DotDims.lhsIdx, dot_S4x128x3_S4x4096x3_S4x128x4096_2_2_1_1_0_0]; rfl
private theorem lhs_ax1 (j : S4x128x4096.Idx) (k : dot_S4x128x3_S4x4096x3_S4x128x4096_2_2_1_1_0_0.contr.Idx) :
    (dot_S4x128x3_S4x4096x3_S4x128x4096_2_2_1_1_0_0.lhsIdx j k 1 : ℕ) = j 1 := by
  simp [DotDims.lhsIdx, dot_S4x128x3_S4x4096x3_S4x128x4096_2_2_1_1_0_0]; rfl
/-- The right operand index: the batch coordinate, and the output's column as its row. -/
private theorem rhs_ax0 (j : S4x128x4096.Idx) (k : dot_S4x128x3_S4x4096x3_S4x128x4096_2_2_1_1_0_0.contr.Idx) :
    (dot_S4x128x3_S4x4096x3_S4x128x4096_2_2_1_1_0_0.rhsIdx j k 0 : ℕ) = j 0 := by
  simp [DotDims.rhsIdx, dot_S4x128x3_S4x4096x3_S4x128x4096_2_2_1_1_0_0]; rfl
private theorem rhs_ax1 (j : S4x128x4096.Idx) (k : dot_S4x128x3_S4x4096x3_S4x128x4096_2_2_1_1_0_0.contr.Idx) :
    (dot_S4x128x3_S4x4096x3_S4x128x4096_2_2_1_1_0_0.rhsIdx j k 1 : ℕ) = j 2 := by
  simp [DotDims.rhsIdx, dot_S4x128x3_S4x4096x3_S4x128x4096_2_2_1_1_0_0]; rfl

/-- The matrix product into the zero accumulator at (b, r, m): the three-term sum of products of row r of the left
    block and row m of the right block, in batch b. -/
private theorem mm_apply (a : FVec Ideal S4x128x3 .bf16) (c : FVec Ideal S4x4096x3 .bf16) (b : Fin 4) (r : Fin 128) (m : Fin 4096) :
    matmul dot_S4x128x3_S4x4096x3_S4x128x4096_2_2_1_1_0_0 none a c (constant (F := Ideal) S4x128x4096 .f32 0x00000000#32) (ix3 b r m)
      = ∑ d : Fin 3, a (ix3 b r d) * c (ix3 b m d) := by
  refine (Ideal.matmul_constant_zero_apply _ none a c (ix3 b r m)).trans ?_
  rw [← Equiv.sum_comp (contrEquiv1 dot_S4x128x3_S4x4096x3_S4x128x4096_2_2_1_1_0_0 3 rfl rfl).symm]
  refine Finset.sum_congr rfl fun d _ => ?_
  have hk := contrEquiv1_symm_val dot_S4x128x3_S4x4096x3_S4x128x4096_2_2_1_1_0_0 3 rfl rfl d
  congr 2
  · funext ax; refine Fin.ext ?_
    match ax with
    | ⟨0, _⟩ => exact lhs_ax0 _ _
    | ⟨1, _⟩ => exact lhs_ax1 _ _
    | ⟨2, _⟩ => exact (DotDims.lhsIdx_val_of_single _ rfl _ _).trans hk
  · funext ax; refine Fin.ext ?_
    match ax with
    | ⟨0, _⟩ => exact rhs_ax0 _ _
    | ⟨1, _⟩ => exact rhs_ax1 _ _
    | ⟨2, _⟩ => exact (DotDims.rhsIdx_val_of_single _ rfl _ _).trans hk

/-! ## The reductions along the last axis at an index -/

/-- The index over (b, r) with coordinate d inserted on the last axis is (b, r, d). -/
private theorem lift3_last {n0 n1 n2 : Nat} (h : (⟨3, ![n0, n1, n2]⟩ : Shape).Reduces [2] ⟨2, ![n0, n1]⟩) (b : Fin n0) (r : Fin n1)
    (d : Fin n2) : h.lift (ix2 b r) d = ix3 b r d := by
  funext ax; refine Fin.ext ?_
  match ax with
  | ⟨0, _⟩ => rfl
  | ⟨1, _⟩ => rfl
  | ⟨2, _⟩ => rfl

/-- The sum of squares along the coordinate axis of the row block, at (b, r). -/
private theorem sumsq_rows (x : FVec Ideal S4x128x3 .f32) (b : Fin 4) (r : Fin 128) :
    multiReduction .add [2] S4x128 (mulf x x) 0x00000000#32 reduces_S4x128x3_S4x128 (.inl rfl) rfl (ix2 b r)
      = ∑ d : Fin 3, x (ix3 b r d) * x (ix3 b r d) := by
  refine (Ideal.multiReduction_add_single (mulf x x) 0x00000000#32 reduces_S4x128x3_S4x128 (.inl rfl) rfl (ix2 b r)).trans ?_
  refine Finset.sum_congr rfl fun d _ => ?_
  rw [lift3_last reduces_S4x128x3_S4x128 b r d]
  rfl

/-- The sum of squares along the coordinate axis of the column block, at (b, m). -/
private theorem sumsq_cols (x : FVec Ideal S4x4096x3 .f32) (b : Fin 4) (m : Fin 4096) :
    multiReduction .add [2] S4x4096 (mulf x x) 0x00000000#32 reduces_S4x4096x3_S4x4096 (.inl rfl) rfl (ix2 b m)
      = ∑ d : Fin 3, x (ix3 b m d) * x (ix3 b m d) := by
  refine (Ideal.multiReduction_add_single (mulf x x) 0x00000000#32 reduces_S4x4096x3_S4x4096 (.inl rfl) rfl (ix2 b m)).trans ?_
  refine Finset.sum_congr rfl fun d _ => ?_
  rw [lift3_last reduces_S4x4096x3_S4x4096 b m d]
  rfl

/-- The minimum along the last axis from +∞, at (b, r): the fold of `min` over the 4096 columns. -/
private theorem min_last (src : FVec Ideal S4x128x4096 .f32) (b : Fin 4) (r : Fin 128) :
    multiReduction .minimumf [2] S4x128 src 0x7F800000#32 reduces_S4x128x4096_S4x128 (.inl rfl) rfl (ix2 b r)
      = (Finset.univ : Finset (Fin 4096)).fold min Cert.Spec.top (fun m => src (ix3 b r m)) := by
  refine (multiReduction_minimumf_eq_fold src 0x7F800000#32 reduces_S4x128x4096_S4x128 (.inl rfl) rfl (ix2 b r)).trans ?_
  refine (reduces_S4x128x4096_S4x128.fold_filter_drop_single _ _ src (ix2 b r)).trans ?_
  have hf : (src ∘ reduces_S4x128x4096_S4x128.lift (ix2 b r)) = fun m : Fin 4096 => src (ix3 b r m) :=
    funext fun m => congrArg src (lift3_last reduces_S4x128x4096_S4x128 b r m)
  rw [hf]
  rfl

/-! ## The keep-dimension broadcasts at an index -/

section Layout
variable {α : Type}

/-- An [a, b] array viewed [a, b, 1] and broadcast to [a, b, c] reads, at (i, j, k), the operand at (i, j). -/
private theorem keepdims_row {a b c : ℕ} (v : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ v h1) h2 (ix3 i j k) = v (ix2 i j) := by
  refine (broadcastTo_apply _ h2 (ix3 i j k) (ix3 i j (0 : Fin 1)) fun ax => ?_).trans ?_
  · match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl
  · exact shapeCast_apply v h1 _ _ (by
      rw [Shape.rowMajor_val_three, Shape.rowMajor_val_two]
      show i.val * b + j.val = (i.val * b + j.val) * 1 + 0
      omega)

/-- An [a, c] array viewed [a, 1, c] and broadcast to [a, b, c] reads, at (i, j, k), the operand at (i, k). -/
private theorem keepdims_col {a b c : ℕ} (v : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ v h1) h2 (ix3 i j k) = v (ix2 i k) := by
  refine (broadcastTo_apply _ h2 (ix3 i j k) (ix3 i (0 : Fin 1) k) fun ax => ?_).trans ?_
  · match ax with
    | ⟨0, _⟩ =>
      show i.val = if a = 1 then 0 else i.val
      split
      · have := i.isLt; omega
      · rfl
    | ⟨1, _⟩ => rfl
    | ⟨2, _⟩ =>
      show k.val = if c = 1 then 0 else k.val
      split
      · have := k.isLt; omega
      · rfl
  · exact shapeCast_apply v h1 _ _ (by
      rw [Shape.rowMajor_val_three, Shape.rowMajor_val_two]
      show i.val * c + k.val = (i.val * 1 + 0) * c + k.val
      rw [Nat.mul_one, Nat.add_zero])

/-- A [b, c] array viewed [1, b, c] and broadcast to [a, b, c] reads, at (i, j, k), the operand at (j, k). -/
private theorem lead_bcast {a b c : ℕ} (v : (⟨2, ![b, c]⟩ : Shape).Idx → α)
    (h1 : (⟨2, ![b, c]⟩ : Shape).ShapeCasts ⟨3, ![1, b, c]⟩) (h2 : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ v h1) h2 (ix3 i j k) = v (ix2 j k) := by
  refine (broadcastTo_apply _ h2 (ix3 i j k) (ix3 (0 : Fin 1) j k) fun ax => ?_).trans ?_
  · match ax with
    | ⟨0, _⟩ => rfl
    | ⟨1, _⟩ =>
      show j.val = if b = 1 then 0 else j.val
      split
      · have := j.isLt; omega
      · rfl
    | ⟨2, _⟩ =>
      show k.val = if c = 1 then 0 else k.val
      split
      · have := k.isLt; omega
      · rfl
  · exact shapeCast_ab_1ab_apply v h1 (0 : Fin 1) j k

end Layout

/-! ## The distance array -/

/-- The squared-distance array of the two blocks, as the three bodies spell it: the row block's squared norms along the
    columns plus the column block's along the rows, minus twice the matrix product. -/
private def dist (x0 : Vec Ideal S4x128x3 .f32) (x1 : Vec Ideal S4x4096x3 .f32) : FVec Ideal S4x128x4096 .f32 :=
  subf
    (addf
      (broadcastTo S4x128x4096 (shapeCast S4x128x1
        (multiReduction .add [2] S4x128 (mulf x0 x0) 0x00000000#32 reduces_S4x128x3_S4x128 (.inl rfl) rfl)
        shapeCasts_S4x128_S4x128x1) broadcasts_S4x128x1_S4x128x4096)
      (broadcastTo S4x128x4096 (shapeCast S4x1x4096
        (multiReduction .add [2] S4x4096 (mulf x1 x1) 0x00000000#32 reduces_S4x4096x3_S4x4096 (.inl rfl) rfl)
        shapeCasts_S4x4096_S4x1x4096) broadcasts_S4x1x4096_S4x128x4096))
    (mulf (broadcast S4x128x4096 (Scalar.ofBits (F := Ideal) .f32 0x40000000#32))
      (matmul dot_S4x128x3_S4x4096x3_S4x128x4096_2_2_1_1_0_0 none (truncf .bf16 x0 bitsLt_bf16_f32) (truncf .bf16 x1 bitsLt_bf16_f32)
        (constant (F := Ideal) S4x128x4096 .f32 0x00000000#32)))

/-- Its entry at (b, r, m): |x0_r|² + |x1_m|² − 2·⟨x0_r, x1_m⟩ in batch b. -/
private theorem dist_apply (x0 : Vec Ideal S4x128x3 .f32) (x1 : Vec Ideal S4x4096x3 .f32) (b : Fin 4) (r : Fin 128) (m : Fin 4096) :
    dist x0 x1 (ix3 b r m)
      = ((∑ d : Fin 3, x0 (ix3 b r d) * x0 (ix3 b r d)) + (∑ d : Fin 3, x1 (ix3 b m d) * x1 (ix3 b m d)))
          - Cert.Spec.two * ∑ d : Fin 3, x0 (ix3 b r d) * x1 (ix3 b m d) := by
  unfold dist
  rw [subf_apply, addf_apply, mulf_apply, broadcast_apply]
  rw [keepdims_row _ shapeCasts_S4x128_S4x128x1 broadcasts_S4x128x1_S4x128x4096 b r m,
    keepdims_col _ shapeCasts_S4x4096_S4x1x4096 broadcasts_S4x1x4096_S4x128x4096 b r m,
    sumsq_rows x0 b r, sumsq_cols x1 b m, mm_apply _ _ b r m]
  rfl

/-- Regions 0 and 1 store the minimum of that array along its last axis. -/
private theorem k0_eq (x0 : Vec Ideal S4x128x3 .f32) (x1 : Vec Ideal S4x4096x3 .f32) :
    k0_pay1 (F := Ideal) x0 x1
      = multiReduction .minimumf [2] S4x128 (dist x0 x1) 0x7F800000#32 reduces_S4x128x4096_S4x128 (.inl rfl) rfl := rfl
private theorem k1_eq (x0 : Vec Ideal S4x128x3 .f32) (x1 : Vec Ideal S4x4096x3 .f32) :
    k1_pay1 (F := Ideal) x0 x1
      = multiReduction .minimumf [2] S4x128 (dist x0 x1) 0x7F800000#32 reduces_S4x128x4096_S4x128 (.inl rfl) rfl := rfl

/-! ## The diagonal term -/

/-- The 32-bit comparison of row position g·128 + r with column m, for a grid coordinate g below 32: nothing wraps, so it
    is the comparison of the naturals. -/
private theorem diag_word (g : Nat) (hg : g < 32) (r : Fin 128) (m : Fin 4096) :
    IntOp.cmpi .eq (IntOp.addi (Scalar.muli (BitVec.ofNat 32 g) 128#32) (BitVec.ofNat 32 r.val)) (BitVec.ofNat 32 m.val)
      = if g * 128 + r.val = m.val then 1#1 else 0#1 := by
  have hr := r.isLt
  have hm := m.isLt
  have e : IntOp.addi (Scalar.muli (BitVec.ofNat 32 g) 128#32) (BitVec.ofNat 32 r.val) = BitVec.ofNat 32 (g * 128 + r.val) := by
    apply BitVec.eq_of_toNat_eq
    show ((BitVec.ofNat 32 g * 128#32) + BitVec.ofNat 32 r.val).toNat = _
    rw [BitVec.toNat_add, BitVec.toNat_mul, BitVec.toNat_ofNat, BitVec.toNat_ofNat, BitVec.toNat_ofNat, BitVec.toNat_ofNat]
    omega
  rw [e]
  by_cases h : g * 128 + r.val = m.val
  · rw [if_pos h, h]
    show BitVec.ofBool (BitVec.ofNat 32 m.val == BitVec.ofNat 32 m.val) = 1#1
    rw [beq_self_eq_true]
    rfl
  · rw [if_neg h]
    have hne : BitVec.ofNat 32 (g * 128 + r.val) ≠ BitVec.ofNat 32 m.val := fun heq => h (by
      have := congrArg BitVec.toNat heq
      rw [BitVec.toNat_ofNat, BitVec.toNat_ofNat] at this
      omega)
    show BitVec.ofBool (BitVec.ofNat 32 (g * 128 + r.val) == BitVec.ofNat 32 m.val) = 0#1
    rw [beq_eq_false_iff_ne.mpr hne]
    rfl

/-- Region 2's diagonal term: 10⁶ where the column is the row's own position in the array, 0 elsewhere, the same in every
    batch. -/
private def diag (i : grid2.Coords) : FVec Ideal S4x128x4096 .f32 :=
  broadcastTo S4x128x4096 (shapeCast S1x128x4096
    (select
      (cmpi .eq
        (addi (broadcast S128x4096 (Scalar.muli (BitVec.ofNat 32 (i 0).val) 128#32)) (iota .tc S128x4096 32 [0] iota_S128x4096_d0_w32))
        (iota .tc S128x4096 32 [1] iota_S128x4096_d1_w32))
      (broadcast S128x4096 (Scalar.ofBits (F := Ideal) .f32 0x49742400#32))
      (broadcast S128x4096 (Scalar.ofBits (F := Ideal) .f32 0x00000000#32)))
    shapeCasts_S128x4096_S1x128x4096) broadcasts_S1x128x4096_S4x128x4096

private theorem diag_apply (i : grid2.Coords) (b : Fin 4) (r : Fin 128) (m : Fin 4096) :
    diag i (ix3 b r m) = if (i 0).val * 128 + r.val = m.val then Cert.Spec.big else Cert.Spec.zero := by
  have hi : (i 0).val < 32 := (i 0).isLt
  unfold diag
  rw [lead_bcast _ shapeCasts_S128x4096_S1x128x4096 broadcasts_S1x128x4096_S4x128x4096 b r m, select_apply, broadcast_apply,
    broadcast_apply]
  have hc : cmpi .eq
        (addi (broadcast S128x4096 (Scalar.muli (BitVec.ofNat 32 (i 0).val) 128#32)) (iota .tc S128x4096 32 [0] iota_S128x4096_d0_w32))
        (iota .tc S128x4096 32 [1] iota_S128x4096_d1_w32) (ix2 r m)
      = if (i 0).val * 128 + r.val = m.val then 1#1 else 0#1 := by
    show IntOp.cmpi .eq (IntOp.addi (Scalar.muli (BitVec.ofNat 32 (i 0).val) 128#32)
        (iota .tc S128x4096 32 [0] iota_S128x4096_d0_w32 (ix2 r m))) (iota .tc S128x4096 32 [1] iota_S128x4096_d1_w32 (ix2 r m)) = _
    rw [iota_single_apply, iota_single_apply]
    exact diag_word (i 0).val hi r m
  rw [hc]
  split
  · exact select_one _ _
  · exact select_zero _ _

/-- Region 2 stores the minimum along the last axis of the distance array plus the diagonal term. -/
private theorem k2_eq (i : grid2.Coords) (x0 : Vec Ideal S4x128x3 .f32) (x1 : Vec Ideal S4x4096x3 .f32) :
    k2_pay1 (F := Ideal) i x0 x1
      = multiReduction .minimumf [2] S4x128 (addf (dist x0 x1) (diag i)) 0x7F800000#32 reduces_S4x128x4096_S4x128 (.inl rfl) rfl := rfl

/-! ## The stored values -/

/-- Region 0's stored value at row `r` of batch `b` of the block: the minimum over the 4096 rows `m` of the column
    operand of |x0_r|² + |x1_m|² − 2·⟨x0_r, x1_m⟩. -/
theorem pay0_apply (x0 : Vec Ideal S4x128x3 .f32) (x1 : Vec Ideal S4x4096x3 .f32) (b : Fin 4) (r : Fin 128) :
    k0_pay1 (F := Ideal) x0 x1 (ix2 b r)
      = (Finset.univ : Finset (Fin 4096)).fold min Cert.Spec.top (fun m =>
          ((∑ d : Fin 3, x0 (ix3 b r d) * x0 (ix3 b r d)) + (∑ d : Fin 3, x1 (ix3 b m d) * x1 (ix3 b m d)))
            - Cert.Spec.two * ∑ d : Fin 3, x0 (ix3 b r d) * x1 (ix3 b m d)) := by
  rw [k0_eq]
  refine (min_last (dist x0 x1) b r).trans ?_
  exact congrArg (fun f => (Finset.univ : Finset (Fin 4096)).fold min Cert.Spec.top f) (funext fun m => dist_apply x0 x1 b r m)

/-- Region 1's stored value: the same function of its two blocks. -/
theorem pay1_apply (x0 : Vec Ideal S4x128x3 .f32) (x1 : Vec Ideal S4x4096x3 .f32) (b : Fin 4) (r : Fin 128) :
    k1_pay1 (F := Ideal) x0 x1 (ix2 b r)
      = (Finset.univ : Finset (Fin 4096)).fold min Cert.Spec.top (fun m =>
          ((∑ d : Fin 3, x0 (ix3 b r d) * x0 (ix3 b r d)) + (∑ d : Fin 3, x1 (ix3 b m d) * x1 (ix3 b m d)))
            - Cert.Spec.two * ∑ d : Fin 3, x0 (ix3 b r d) * x1 (ix3 b m d)) := by
  rw [k1_eq]
  refine (min_last (dist x0 x1) b r).trans ?_
  exact congrArg (fun f => (Finset.univ : Finset (Fin 4096)).fold min Cert.Spec.top f) (funext fun m => dist_apply x0 x1 b r m)

/-- Region 2's stored value at grid point `i`: the same, plus 10⁶ where the column `m` is the row's own position
    `i·128 + r` in the array. -/
theorem pay2_apply (i : grid2.Coords) (x0 : Vec Ideal S4x128x3 .f32) (x1 : Vec Ideal S4x4096x3 .f32) (b : Fin 4) (r : Fin 128) :
    k2_pay1 (F := Ideal) i x0 x1 (ix2 b r)
      = (Finset.univ : Finset (Fin 4096)).fold min Cert.Spec.top (fun m =>
          (((∑ d : Fin 3, x0 (ix3 b r d) * x0 (ix3 b r d)) + (∑ d : Fin 3, x1 (ix3 b m d) * x1 (ix3 b m d)))
            - Cert.Spec.two * ∑ d : Fin 3, x0 (ix3 b r d) * x1 (ix3 b m d))
          + (if (i 0).val * 128 + r.val = m.val then Cert.Spec.big else Cert.Spec.zero)) := by
  rw [k2_eq]
  refine (min_last (addf (dist x0 x1) (diag i)) b r).trans ?_
  refine congrArg (fun f => (Finset.univ : Finset (Fin 4096)).fold min Cert.Spec.top f) (funext fun m => ?_)
  rw [addf_apply, dist_apply x0 x1 b r m, diag_apply i b r m]

end Cert.KernelIdeal.Hand

end
-- ==== Proof.KI.Arrays.lean ====
/-
  From blocks to arrays: after each region's run its output array is the nearest-neighbour array of the
  argument arrays the region read, index by index.
-/
import proofs.«172589_j55319178772943_1_alg».proof.Proof.KI.Region0
import proofs.«172589_j55319178772943_1_alg».proof.Proof.KI.Region1
import proofs.«172589_j55319178772943_1_alg».proof.Proof.KI.Region2
import proofs.«172589_j55319178772943_1_alg».proof.Proof.KI.Payload
import Idealize.ShloMosaic.Lib.Pipeline.Value

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- Both spellings of the zero offsets of a whole-shape rectangle. -/
private theorem zeroOff2 : (![0, 0] : Fin 2 → Nat) = fun _ => 0 := funext fun a => by fin_cases a <;> rfl
/-- The same at rank 3. -/
private theorem zeroOff3 : (![0, 0, 0] : Fin 3 → Nat) = fun _ => 0 := funext fun a => by fin_cases a <;> rfl

/-- The minimum over the 4096 rows of the column operand, computed from a 128-row block of the row operand and the
    whole column operand, is the nearest squared distance at the array index `i` the block's row `r` sits at: the
    block's row is the array's row `i 1` of batch `i 0`, and the column operand is the array `Y` itself. -/
private theorem fold_eq_nearest (X Y : Cert.Spec.Pts.Idx → EReal) (x0 : S4x128x3.Idx → EReal) (x1 : S4x4096x3.Idx → EReal)
    (b : Fin 4) (r : Fin 128) (i : Cert.Spec.Rows.Idx)
    (h0 : ∀ d, x0 (ix3 b r d) = X (ix3 (i 0) (i 1) d)) (h1 : ∀ m d, x1 (ix3 b m d) = Y (ix3 (i 0) m d)) :
    (Finset.univ : Finset (Fin 4096)).fold min Cert.Spec.top (fun m =>
          ((∑ d : Fin 3, x0 (ix3 b r d) * x0 (ix3 b r d)) + (∑ d : Fin 3, x1 (ix3 b m d) * x1 (ix3 b m d)))
            - Cert.Spec.two * ∑ d : Fin 3, x0 (ix3 b r d) * x1 (ix3 b m d))
      = Cert.Spec.nearest X Y i := by
  unfold Cert.Spec.nearest Cert.Spec.nearestAt Cert.Spec.pd Cert.Spec.sqn Cert.Spec.dotp
  simp only [h0, h1]

/-- The same within one cloud: the 10⁶ sits on the column `k·128 + r`, the row's own position `i 1` in the array. -/
private theorem fold_eq_nearestSelf (X : Cert.Spec.Pts.Idx → EReal) (x0 : S4x128x3.Idx → EReal) (x1 : S4x4096x3.Idx → EReal)
    (b : Fin 4) (r : Fin 128) (k : Nat) (i : Cert.Spec.Rows.Idx)
    (h0 : ∀ d, x0 (ix3 b r d) = X (ix3 (i 0) (i 1) d)) (h1 : ∀ m d, x1 (ix3 b m d) = X (ix3 (i 0) m d))
    (hk : k * 128 + r.val = (i 1).val) :
    (Finset.univ : Finset (Fin 4096)).fold min Cert.Spec.top (fun m =>
          (((∑ d : Fin 3, x0 (ix3 b r d) * x0 (ix3 b r d)) + (∑ d : Fin 3, x1 (ix3 b m d) * x1 (ix3 b m d)))
            - Cert.Spec.two * ∑ d : Fin 3, x0 (ix3 b r d) * x1 (ix3 b m d))
          + (if k * 128 + r.val = m.val then Cert.Spec.big else Cert.Spec.zero))
      = Cert.Spec.nearestSelf X i := by
  unfold Cert.Spec.nearestSelf Cert.Spec.nearestSelfAt Cert.Spec.pd Cert.Spec.sqn Cert.Spec.dotp
  simp only [h0, h1, hk]

/-! ## Region 0: rows of arg0 against rows of arg2 -/

/-- The block indices over the grid: at point `t` the row operand's block is the `t`-th run of 128 rows, the column
    operand's block is the whole array, the output's block is the `t`-th run of 128 columns. -/
private theorem blockIdx0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- What point `t` writes back is block `t` of the nearest-neighbour array of the argument arrays as the region finds
    them: entry (b, r) of the stored block is the minimum over all 4096 columns for row 128·t + r of batch b. -/
private theorem written0_eq_nearest (c : Dev nD) (t : Fin cfg0.N) :
    (dat0 (F := Ideal) V c).flushed 2 t = ((cfg0.win 2).blk t).view.read (Elt Ideal) (Cert.Spec.nearest (V c main_arg0) (V c main_arg2)) := by
  show (cfg0.win 2).cut (grid0.coords t) ((dat0 V c).after 2 t) = _
  rw [after0_2]
  unfold out0_2
  rw [View.canon_unit_zero zeroOff2]
  simp only [View.ld_unit_zero (S := S4x128x3) zeroOff3, View.ld_unit_zero (S := S4x4096x3) zeroOff3]
  obtain ⟨e00, e01, e02, e10, e11, e12, e20, e21⟩ := blockIdx0 t
  refine funext fun (j : S4x128.Idx) => ?_
  obtain ⟨b, r, rfl⟩ : ∃ (b : Fin 4) (r : Fin 128), j = ix2 b r := ⟨j 0, j 1, eq_ix2 j⟩
  refine (pay0_apply _ _ b r).trans ?_
  refine fold_eq_nearest _ _ _ _ b r _ (fun d => ?_) (fun m d => ?_)
  · -- the row operand's block: batch b, row 128·t + r, coordinate d of its array
    show V c main_arg0 (((cfg0.win 0).blk t).view.emb (ix3 b r d)) = _
    congr 1
    funext a; apply Fin.ext
    match a with
    | ⟨0, _⟩ => show win0_0.index t (0 : Fin 3) * 4 + 1 * b.val = win0_2.index t (0 : Fin 2) * 4 + 1 * b.val; omega
    | ⟨1, _⟩ => show win0_0.index t (1 : Fin 3) * 128 + 1 * r.val = win0_2.index t (1 : Fin 2) * 128 + 1 * r.val; omega
    | ⟨2, _⟩ => show win0_0.index t (2 : Fin 3) * 3 + 1 * d.val = d.val; omega
  · -- the column operand's block is its whole array
    show V c main_arg2 (((cfg0.win 1).blk t).view.emb (ix3 b m d)) = _
    congr 1
    funext a; apply Fin.ext
    match a with
    | ⟨0, _⟩ => show win0_1.index t (0 : Fin 3) * 4 + 1 * b.val = win0_2.index t (0 : Fin 2) * 4 + 1 * b.val; omega
    | ⟨1, _⟩ => show win0_1.index t (1 : Fin 3) * 4096 + 1 * m.val = m.val; omega
    | ⟨2, _⟩ => show win0_1.index t (2 : Fin 3) * 3 + 1 * d.val = d.val; omega

/-- An index of the output array is in point `t`'s block iff each coordinate is in the block's range on its axis. -/
private theorem mem_cols0 (t : Fin cfg0.N) (i : S4x4096.Idx) :
    i ∈ ((cfg0.win 2).blk t).view.set ↔ ∀ a : Fin 2, win0_2.index t a * S4x128.size a ≤ (i a).val ∧ (i a).val < win0_2.index t a * S4x128.size a + S4x128.size a := by
  show i ∈ ((View.whole main_v0).slice (win0_2.rect t)).set ↔ _
  rw [View.set_slice_whole, Rect.mem_set_unit]
  exact Iff.rfl

/-- Every index (b, n) of the output array is in the block of the point n / 128, which writes back. -/
private theorem cols_cover0 (i : S4x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hN : grid0.N = 32 := N_0
  obtain ⟨t, ht⟩ : ∃ t : Fin cfg0.N, t.val = (i 1).val / 128 := ⟨⟨(i 1).val / 128, by show (i 1).val / 128 < grid0.N; omega⟩, rfl⟩
  obtain ⟨-, -, -, -, -, -, e20, e21⟩ := blockIdx0 t
  refine ⟨t, flush0_2 t, ?_⟩
  rw [mem_cols0]
  intro a
  match a with
  | ⟨0, _⟩ => show win0_2.index t (0 : Fin 2) * 4 ≤ (i 0).val ∧ (i 0).val < win0_2.index t (0 : Fin 2) * 4 + 4; omega
  | ⟨1, _⟩ => show win0_2.index t (1 : Fin 2) * 128 ≤ (i 1).val ∧ (i 1).val < win0_2.index t (1 : Fin 2) * 128 + 128; omega

/-! ## Region 1: rows of arg2 against rows of arg0 -/

/-- The block indices over the grid: at point `t` the row operand's block is the `t`-th run of 128 rows, the column
    operand's block is the whole array, the output's block is the `t`-th run of 128 columns. -/
private theorem blockIdx1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = t.val :=
  (by decide +kernel : ∀ t : Fin grid1.N, _)

/-- What point `t` writes back is block `t` of the nearest-neighbour array of the argument arrays as the region finds
    them: entry (b, r) of the stored block is the minimum over all 4096 columns for row 128·t + r of batch b. -/
private theorem written1_eq_nearest (c : Dev nD) (t : Fin cfg1.N) :
    (dat1 (F := Ideal) V c).flushed 2 t = ((cfg1.win 2).blk t).view.read (Elt Ideal) (Cert.Spec.nearest (V c main_arg2) (V c main_arg0)) := by
  show (cfg1.win 2).cut (grid1.coords t) ((dat1 V c).after 2 t) = _
  rw [after1_2]
  unfold out1_2
  rw [View.canon_unit_zero zeroOff2]
  simp only [View.ld_unit_zero (S := S4x128x3) zeroOff3, View.ld_unit_zero (S := S4x4096x3) zeroOff3]
  obtain ⟨e00, e01, e02, e10, e11, e12, e20, e21⟩ := blockIdx1 t
  refine funext fun (j : S4x128.Idx) => ?_
  obtain ⟨b, r, rfl⟩ : ∃ (b : Fin 4) (r : Fin 128), j = ix2 b r := ⟨j 0, j 1, eq_ix2 j⟩
  refine (pay1_apply _ _ b r).trans ?_
  refine fold_eq_nearest _ _ _ _ b r _ (fun d => ?_) (fun m d => ?_)
  · -- the row operand's block: batch b, row 128·t + r, coordinate d of its array
    show V c main_arg2 (((cfg1.win 0).blk t).view.emb (ix3 b r d)) = _
    congr 1
    funext a; apply Fin.ext
    match a with
    | ⟨0, _⟩ => show win1_0.index t (0 : Fin 3) * 4 + 1 * b.val = win1_2.index t (0 : Fin 2) * 4 + 1 * b.val; omega
    | ⟨1, _⟩ => show win1_0.index t (1 : Fin 3) * 128 + 1 * r.val = win1_2.index t (1 : Fin 2) * 128 + 1 * r.val; omega
    | ⟨2, _⟩ => show win1_0.index t (2 : Fin 3) * 3 + 1 * d.val = d.val; omega
  · -- the column operand's block is its whole array
    show V c main_arg0 (((cfg1.win 1).blk t).view.emb (ix3 b m d)) = _
    congr 1
    funext a; apply Fin.ext
    match a with
    | ⟨0, _⟩ => show win1_1.index t (0 : Fin 3) * 4 + 1 * b.val = win1_2.index t (0 : Fin 2) * 4 + 1 * b.val; omega
    | ⟨1, _⟩ => show win1_1.index t (1 : Fin 3) * 4096 + 1 * m.val = m.val; omega
    | ⟨2, _⟩ => show win1_1.index t (2 : Fin 3) * 3 + 1 * d.val = d.val; omega

/-- An index of the output array is in point `t`'s block iff each coordinate is in the block's range on its axis. -/
private theorem mem_cols1 (t : Fin cfg1.N) (i : S4x4096.Idx) :
    i ∈ ((cfg1.win 2).blk t).view.set ↔ ∀ a : Fin 2, win1_2.index t a * S4x128.size a ≤ (i a).val ∧ (i a).val < win1_2.index t a * S4x128.size a + S4x128.size a := by
  show i ∈ ((View.whole main_v1).slice (win1_2.rect t)).set ↔ _
  rw [View.set_slice_whole, Rect.mem_set_unit]
  exact Iff.rfl

/-- Every index (b, n) of the output array is in the block of the point n / 128, which writes back. -/
private theorem cols_cover1 (i : S4x4096.Idx) :
    ∃ t : Fin cfg1.N, (cfg1.win 2).flush t = true ∧ i ∈ ((cfg1.win 2).blk t).view.set := by
  have hi0 : (i 0).val < 4 := (i 0).isLt
  have hi1 : (i 1).val < 4096 := (i 1).isLt
  have hN : grid1.N = 32 := N_1
  obtain ⟨t, ht⟩ : ∃ t : Fin cfg1.N, t.val = (i 1).val / 128 := ⟨⟨(i 1).val / 128, by show (i 1).val / 128 < grid1.N; omega⟩, rfl⟩
  obtain ⟨-, -, -, -, -, -, e20, e21⟩ := blockIdx1 t
  refine ⟨t, flush1_2 t, ?_⟩
  rw [mem_cols1]
  intro a
  match a with
  | ⟨0, _⟩ => show win1_2.index t (0 : Fin 2) * 4 ≤ (i 0).val ∧ (i 0).val < win1_2.index t (0 : Fin 2) * 4 + 4; omega
  | ⟨1, _⟩ => show win1_2.index t (1 : Fin 2) * 128 ≤ (i 1).val ∧ (i 1).val < win1_2.index t (1 : Fin 2) * 128 + 128; omega

/-! ## Region 2: rows of arg0 against the other rows of arg0 -/

/-- The block indices over the grid: at point `t` the row operand's block is the `t`-th run of 128 rows, the column
    operand's block is the whole array, the output's block is the `t`-th run of 128 columns; and the grid's one
    coordinate at point `t` is `t`. -/
private theorem blockIdx2 : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = t.val
    ∧ (grid2.coords t (0 : Fin 1)).val = t.val :=
  (by decide +kernel : ∀ t : Fin grid2.N, _)

/-- What point `t` writes back is block `t` of the within-cloud nearest-neighbour array of arg0 as the region finds it:
    entry (b, r) of the stored block is the minimum over all 4096 columns for row 128·t + r of batch b, the column
    128·t + r itself pushed away by 10⁶. -/
private theorem written2_eq_nearestSelf (c : Dev nD) (t : Fin cfg2.N) :
    (dat2 (F := Ideal) V c).flushed 2 t = ((cfg2.win 2).blk t).view.read (Elt Ideal) (Cert.Spec.nearestSelf (V c main_arg0)) := by
  show (cfg2.win 2).cut (grid2.coords t) ((dat2 V c).after 2 t) = _
  rw [after2_2]
  unfold out2_2
  rw [View.canon_unit_zero zeroOff2]
  simp only [View.ld_unit_zero (S := S4x128x3) zeroOff3, View.ld_unit_zero (S := S4x4096x3) zeroOff3]
  obtain ⟨e00, e01, e02, e10, e11, e12, e20, e21, eg⟩ := blockIdx2 t
  refine funext fun (j : S4x128.Idx) => ?_
  obtain ⟨b, r, rfl⟩ : ∃ (b : Fin 4) (r : Fin 128), j = ix2 b r := ⟨j 0, j 1, eq_ix2 j⟩
  refine (pay2_apply (grid2.coords t) _ _ b r).trans ?_
  refine fold_eq_nearestSelf _ _ _ b r _ _ (fun d => ?_) (fun m d => ?_) ?_
  · -- the row operand's block: batch b, row 128·t + r, coordinate d of its array
    show V c main_arg0 (((cfg2.win 0).blk t).view.emb (ix3 b r d)) = _
    congr 1
    funext a; apply Fin.ext
    match a with
    | ⟨0, _⟩ => show win2_0.index t (0 : Fin 3) * 4 + 1 * b.val = win2_2.index t (0 : Fin 2) * 4 + 1 * b.val; omega
    | ⟨1, _⟩ => show win2_0.index t (1 : Fin 3) * 128 + 1 * r.val = win2_2.index t (1 : Fin 2) * 128 + 1 * r.val; omega
    | ⟨2, _⟩ => show win2_0.index t (2 : Fin 3) * 3 + 1 * d.val = d.val; omega
  · -- the column operand's block is its whole array
    show V c main_arg0 (((cfg2.win 1).blk t).view.emb (ix3 b m d)) = _
    congr 1
    funext a; apply Fin.ext
    match a with
    | ⟨0, _⟩ => show win2_1.index t (0 : Fin 3) * 4 + 1 * b.val = win2_2.index t (0 : Fin 2) * 4 + 1 * b.val; omega
    | ⟨1, _⟩ => show win2_1.index t (1 : Fin 3) * 4096 + 1 * m.val = m.val; omega
    | ⟨2, _⟩ => show win2_1.index t (2 : Fin 3) * 3 + 1 * d.val = d.val; omega
  · show (grid2.coords t (0 : Fin 1)).val * 128 + r.val = win2_2.index t (1 : Fin 2) * 128 + 1 * r.val
    omega

/-- An index of the output array is in point `t`'s block iff each coordinate is in the block's range on its axis. -/
private theorem mem_cols2 (t : Fin cfg2.N) (i : S4x4096.Idx) :
    i ∈ ((cfg2.win 2).blk t).view.set ↔ ∀ a : Fin 2, win2_2.index t a * S4x128.size a ≤ (i a).val ∧ (i a).val < win2_2.index t a * S4x128.size a + S4x128.size a := by
  show i ∈ ((View.whole main_v2).slice (win2_2.rect t)).set ↔ _
  rw [View.set_slice_whole, Rect.mem_set_unit]
  exact Iff.rfl

/-- Every index (b, n) of the output array is in the block of the point n / 128, which writes back. -/
private theorem cols_cover2 (i : S4x4096.Idx) :
    ∃ t : Fin cfg2.N, (cfg2.win 2).flush t = true ∧ i ∈ ((cfg2.win 2).blk t).view.set := by
  have hi0 : (i 0).val < 4 := (i 0).isLt
  have hi1 : (i 1).val < 4096 := (i 1).isLt
  have hN : grid2.N = 32 := N_2
  obtain ⟨t, ht⟩ : ∃ t : Fin cfg2.N, t.val = (i 1).val / 128 := ⟨⟨(i 1).val / 128, by show (i 1).val / 128 < grid2.N; omega⟩, rfl⟩
  obtain ⟨-, -, -, -, -, -, e20, e21, -⟩ := blockIdx2 t
  refine ⟨t, flush2_2 t, ?_⟩
  rw [mem_cols2]
  intro a
  match a with
  | ⟨0, _⟩ => show win2_2.index t (0 : Fin 2) * 4 ≤ (i 0).val ∧ (i 0).val < win2_2.index t (0 : Fin 2) * 4 + 4; omega
  | ⟨1, _⟩ => show win2_2.index t (1 : Fin 2) * 128 ≤ (i 1).val ∧ (i 1).val < win2_2.index t (1 : Fin 2) * 128 + 128; omega

/-! ## The arrays after the regions -/

/-- After region 0 (rows of arg0 against rows of arg2). -/
theorem arr0_eq (c : Dev nD) : (dat0 (F := Ideal) V c).arrAt 2 cfg0.N = Cert.Spec.nearest (V c main_arg0) (V c main_arg2) :=
  (dat0 (F := Ideal) V c).arrAt_eq_of_cover 2 _ (fun t _ => written0_eq_nearest V c t) cols_cover0

/-- After region 1 (rows of arg2 against rows of arg0). -/
theorem arr1_eq (c : Dev nD) : (dat1 (F := Ideal) V c).arrAt 2 cfg1.N = Cert.Spec.nearest (V c main_arg2) (V c main_arg0) :=
  (dat1 (F := Ideal) V c).arrAt_eq_of_cover 2 _ (fun t _ => written1_eq_nearest V c t) cols_cover1

/-- After region 2 (rows of arg0 against the other rows of arg0). -/
theorem arr2_eq (c : Dev nD) : (dat2 (F := Ideal) V c).arrAt 2 cfg2.N = Cert.Spec.nearestSelf (V c main_arg0) :=
  (dat2 (F := Ideal) V c).arrAt_eq_of_cover 2 _ (fun t _ => written2_eq_nearestSelf V c t) cols_cover2

end Cert.KernelIdeal.Hand

end
-- ==== Proof.KI.Value.lean ====
/-
  The idealized kernel's run, read over the extended reals: the result buffer ends at the loss of the three
  nearest-neighbour arrays of the launched clouds — each region's output array is its nearest-neighbour array of the
  arrays the region read, and no region changes an array a later region reads — and the arguments end as launched.
-/
import proofs.«172589_j55319178772943_1_alg».proof.Proof.KI.Out
import proofs.«172589_j55319178772943_1_alg».proof.Proof.KI.FrameRun
import proofs.«172589_j55319178772943_1_alg».proof.Proof.KI.Arrays

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- The loss the idealized kernel ends with, as a function of the launch memory. -/
def lossOf (c : Dev nD) : FVec Ideal S_ .f32 :=
  tailFn (F := Ideal)
    (Cert.Spec.nearest (m ((c.tc : Thread nD τ).loc main_arg0)) (m ((c.tc : Thread nD τ).loc main_arg2)))
    (Cert.Spec.nearest (m ((c.tc : Thread nD τ).loc main_arg2)) (m ((c.tc : Thread nD τ).loc main_arg0)))
    (Cert.Spec.nearestSelf (m ((c.tc : Thread nD τ).loc main_arg0)))
    (m ((c.tc : Thread nD τ).loc main_arg1)) (m ((c.tc : Thread nD τ).loc main_arg3))
    (m ((c.tc : Thread nD τ).loc main_arg4)) (m ((c.tc : Thread nD τ).loc main_arg5))

/-- The result buffer at the end is that loss. -/
theorem W6_loss (c : Dev nD) : W6 m ρ c main_v33 = lossOf m c := by
  have a1 (r : Ref sig .tc) (h0 : r ≠ main_v0) : V1 m ρ c r = m ((c : Thread nD τ).loc r) :=
    (W1_of_ne m ρ c r h0).trans rfl
  have a2 (r : Ref sig .tc) (h0 : r ≠ main_v0) (h1 : r ≠ main_v1) : V2 m ρ c r = m ((c : Thread nD τ).loc r) :=
    (W2_of_ne m ρ c r h1).trans (a1 r h0)
  rw [W6_out, arr0_eq, arr1_eq, arr2_eq, a1 main_arg2 (by decide), a1 main_arg0 (by decide), a2 main_arg0 (by decide) (by decide)]
  rfl

/-- THE VALUE RUN: every weakly fair execution of the idealized kernel terminates with the result buffer at the loss
    of the launched arrays and the six argument arrays as launched. -/
theorem value_run : θ_run defs (onTc (τ := τ) (main (F := Ideal))) ⟨m, fun _ => 0, ρ⟩ (fun r => ∀ c : Dev nD,
      r.2.mem ((c.tc : Thread nD τ).loc main_v33) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v33 (by decide))).trans (W6_loss m ρ c),
     (h c _ (mem_uc main_arg0 (by decide))).trans (W6_kept m ρ c main_arg0 (by decide) (by decide) (by decide) (by decide) (by decide) (by decide)),
     (h c _ (mem_uc main_arg1 (by decide))).trans (W6_kept m ρ c main_arg1 (by decide) (by decide) (by decide) (by decide) (by decide) (by decide)),
     (h c _ (mem_uc main_arg2 (by decide))).trans (W6_kept m ρ c main_arg2 (by decide) (by decide) (by decide) (by decide) (by decide) (by decide)),
     (h c _ (mem_uc main_arg3 (by decide))).trans (W6_kept m ρ c main_arg3 (by decide) (by decide) (by decide) (by decide) (by decide) (by decide)),
     (h c _ (mem_uc main_arg4 (by decide))).trans (W6_kept m ρ c main_arg4 (by decide) (by decide) (by decide) (by decide) (by decide) (by decide)),
     (h c _ (mem_uc main_arg5 (by decide))).trans (W6_kept m ρ c main_arg5 (by decide) (by decide) (by decide) (by decide) (by decide) (by decide))⟩)
    (run_all m ρ)

end Cert.KernelIdeal.Hand

end
-- ==== Proof.Ref.StageDefs.lean ====
/-
  The reference's three nearest-neighbour arrays as terms of its own host operations, at any float instance:
  the [4, 4096, 4096] array of squared distances |x_n|² + |y_m|² − 2·⟨x_n, y_m⟩ (`dist`), its minimum along the
  last axis (`stage13`: for each row of x the nearest row of y) and along the middle axis (`stage17`: for each
  row of y the nearest row of x), and, within one cloud, the minimum along the last axis after 10⁶ times the
  identity matrix is added (`stage57`).
-/
import proofs.«172589_j55319178772943_1_alg».proof.Proof.Gen.ReferenceIdeal

noncomputable section

namespace Cert.ReferenceIdeal.Hand

open Idealize.ShloMosaic Idealize.SL.Sem
open Cert.ReferenceIdeal Cert.ReferenceIdeal.Facts₀

variable {F : FTy → Type} [FloatOps F]

/-- The squared distances between the rows of `x` and the rows of `y`, batch by batch. -/
def dist (x y : FVec F S4x4096x3 .f32) : FVec F S4x4096x4096 .f32 :=
  let v0 : FVec F S4x4096x3 .f32 := mulf x x
  let v1 : FVec F S4x4096 .f32 := Host.reduceAdd v0 (constant (F := F) S_ .f32 0x00000000#32) reducesTo_S4x4096x3_S4x4096_d2 h_S_
  let v2 : FVec F S4x4096x3 .f32 := mulf y y
  let v3 : FVec F S4x4096 .f32 := Host.reduceAdd v2 (constant (F := F) S_ .f32 0x00000000#32) reducesTo_S4x4096x3_S4x4096_d2 h_S_
  let v4 : FVec F S4x4096x4096 .f32 := Host.dotGeneral dot_S4x4096x3_S4x4096x3_S4x4096x4096_2_2_1_1_0_0 none x y
  let v5 : FVec F S4x4096x1 .f32 := broadcastInDim S4x4096x1 ![0, 1] bcast_S4x4096_S4x4096x1_0_1 v1
  let v6 : FVec F S4x1x4096 .f32 := broadcastInDim S4x1x4096 ![0, 2] bcast_S4x4096_S4x1x4096_0_2 v3
  let v7 : FVec F S4x4096x4096 .f32 := broadcastInDim S4x4096x4096 ![0, 1, 2] bcast_S4x4096x1_S4x4096x4096_0_1_2 v5
  let v8 : FVec F S4x4096x4096 .f32 := broadcastInDim S4x4096x4096 ![0, 1, 2] bcast_S4x1x4096_S4x4096x4096_0_1_2 v6
  let v9 : FVec F S4x4096x4096 .f32 := addf v7 v8
  let v10 : FVec F S4x4096x4096 .f32 := broadcastInDim S4x4096x4096 ![] bcast_S_S4x4096x4096 (constant (F := F) S_ .f32 0x40000000#32)
  let v11 : FVec F S4x4096x4096 .f32 := mulf v10 v4
  subf v9 v11

/-- For each row of `x`, the nearest squared distance to a row of `y`. -/
def stage13 (x y : FVec F S4x4096x3 .f32) : FVec F S4x4096 .f32 :=
  Host.reduce FloatOps.minimumf (dist x y) (constant (F := F) S_ .f32 0x7F800000#32) reducesTo_S4x4096x4096_S4x4096_d2 h_S_

/-- For each row of `y`, the nearest squared distance to a row of `x`. -/
def stage17 (x y : FVec F S4x4096x3 .f32) : FVec F S4x4096 .f32 :=
  Host.reduce FloatOps.minimumf (dist x y) (constant (F := F) S_ .f32 0x7F800000#32) reducesTo_S4x4096x4096_S4x4096_d1 h_S_

/-- 10⁶ times the 4096 × 4096 identity matrix, repeated over the batch. -/
def eyeBig : FVec F S4x4096x4096 .f32 :=
  let v46 : IVec S4096x4096 32 := iotaInDim S4096x4096 32 0
  let v47 : IVec S4096x4096 32 := iotaInDim S4096x4096 32 1
  let v48 : IVec S4096x4096 32 := broadcastInDim S4096x4096 ![] bcast_S_S4096x4096 (constantI S_ 32 0#32)
  let v49 : IVec S4096x4096 32 := addi v46 v48
  let v50 : IVec S4096x4096 1 := cmpi .eq v49 v47
  let v51 : FVec F S4096x4096 .f32 := uitofp .f32 v50
  let v52 : FVec F S1x4096x4096 .f32 := broadcastInDim S1x4096x4096 ![1, 2] bcast_S4096x4096_S1x4096x4096_1_2 v51
  let v53 : FVec F S1x4096x4096 .f32 := broadcastInDim S1x4096x4096 ![] bcast_S_S1x4096x4096 (constant (F := F) S_ .f32 0x49742400#32)
  let v54 : FVec F S1x4096x4096 .f32 := mulf v52 v53
  broadcastInDim S4x4096x4096 ![0, 1, 2] bcast_S1x4096x4096_S4x4096x4096_0_1_2 v54

/-- For each row of `x`, the nearest squared distance to ANOTHER row of `x` (the diagonal pushed away). -/
def stage57 (x : FVec F S4x4096x3 .f32) : FVec F S4x4096 .f32 :=
  Host.reduce FloatOps.minimumf (addf (dist x x) (eyeBig (F := F))) (constant (F := F) S_ .f32 0x7F800000#32) reducesTo_S4x4096x4096_S4x4096_d2 h_S_

end Cert.ReferenceIdeal.Hand

end
-- ==== Proof.Ref.Run.lean ====
/-
  The reference's run: @main as one straight line of host operations (its three local functions unfolded at their
  calls), every weakly fair execution of it terminating with each buffer at the operations' fold over the launch
  contents, and that fold at the result buffer as the loss `tailFn` of the three nearest-neighbour stages.
-/
import proofs.«172589_j55319178772943_1_alg».proof.Proof.Ref.StageDefs
import proofs.«172589_j55319178772943_1_alg».proof.Proof.TailFn
import Idealize.ShloMosaic.Lib.StableHlo.Run

noncomputable section

namespace Cert.ReferenceIdeal.Hand

open Idealize.ShloMosaic Idealize.ShloMosaic.TcCoe Idealize.ShloMosaic.StableHlo
open Idealize.SL Idealize.SL.Sem
open Cert.ReferenceIdeal

variable {F : FTy → Type} [FloatOps F]

/-! ## @main as one line of operations

The 122 operations in order, the call unfolded, cut into five lists where few values cross. -/

section Line

open Cert.ReferenceIdeal.Facts₀

/-- Statements 1 … 48: the squared distances between the two clouds, their two minima, the chamfer mean (`main_v23`) and the KL term (`main_v32`). -/
abbrev opsA : List (HloOp τ sig (Elt F)) :=
  [ StableHlo.binary main_arg0 main_arg0 main_v0 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst (constant S_ .f32 0x00000000#32),
    StableHlo.binary main_v0 main_cst main_v1 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg2 main_arg2 main_v2 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_0 (constant S_ .f32 0x00000000#32),
    StableHlo.binary main_v2 main_cst_0 main_v3 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg0 main_arg2 main_v4 ((fun l r => Host.dotGeneral dot_S4x4096x3_S4x4096x3_S4x4096x4096_2_2_1_1_0_0 none l r) : (⟨S4x4096x3, .f32⟩ : BufTy).Contents (Elt F) → (⟨S4x4096x3, .f32⟩ : BufTy).Contents (Elt F) → (⟨S4x4096x4096, .f32⟩ : BufTy).Contents (Elt F)),
    StableHlo.unary main_v1 main_v5 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v3 main_v6 (broadcastInDim S4x1x4096 ![0, 2] bcast_S4x4096_S4x1x4096_0_2 : (⟨S4x4096, .f32⟩ : BufTy).Contents (Elt F) → (⟨S4x1x4096, .f32⟩ : BufTy).Contents (Elt F)),
    StableHlo.unary main_v5 main_v7 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.unary main_v6 main_v8 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    StableHlo.binary main_v7 main_v8 main_v9 (addf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_1 (constant S_ .f32 0x40000000#32),
    StableHlo.unary main_cst_1 main_v10 (broadcastInDim S4x4096x4096 ![] bcast_S_S4x4096x4096 : (⟨S_, .f32⟩ : BufTy).Contents (Elt F) → (⟨S4x4096x4096, .f32⟩ : BufTy).Contents (Elt F)),
    StableHlo.binary main_v10 main_v4 main_v11 (mulf : (⟨S4x4096x4096, .f32⟩ : BufTy).Contents (Elt F) → (⟨S4x4096x4096, .f32⟩ : BufTy).Contents (Elt F) → (⟨S4x4096x4096, .f32⟩ : BufTy).Contents (Elt F)),
    StableHlo.binary main_v9 main_v11 main_v12 (subf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_2 (constant S_ .f32 0x7F800000#32),
    StableHlo.binary main_v12 main_cst_2 main_v13 ((fun x v => Host.reduce FloatOps.minimumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.nullary main_cst_3 (constant S_ .f32 0x00000000#32),
    StableHlo.binary main_v13 main_cst_3 main_v14 ((fun x v => Host.reduceAdd x v reducesTo_S4x4096_S4_d1 h_S_) : (⟨S4x4096, .f32⟩ : BufTy).Contents (Elt F) → (⟨S_, .f32⟩ : BufTy).Contents (Elt F) → (⟨S4, .f32⟩ : BufTy).Contents (Elt F)),
    StableHlo.nullary main_cst_4 (constant S_ .f32 0x45800000#32),
    StableHlo.unary main_cst_4 main_v15 (broadcastInDim S4 ![] bcast_S_S4 : (⟨S_, .f32⟩ : BufTy).Contents (Elt F) → (⟨S4, .f32⟩ : BufTy).Contents (Elt F)),
    StableHlo.binary main_v14 main_v15 main_v16 (Host.divf : (⟨S4, .f32⟩ : BufTy).Contents (Elt F) → (⟨S4, .f32⟩ : BufTy).Contents (Elt F) → (⟨S4, .f32⟩ : BufTy).Contents (Elt F)),
    StableHlo.nullary main_cst_5 (constant S_ .f32 0x7F800000#32),
    StableHlo.binary main_v12 main_cst_5 main_v17 ((fun x v => Host.reduce FloatOps.minimumf x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F)),
    StableHlo.nullary main_cst_6 (constant S_ .f32 0x00000000#32),
    StableHlo.binary main_v17 main_cst_6 main_v18 ((fun x v => Host.reduceAdd x v reducesTo_S4x4096_S4_d1 h_S_) : (⟨S4x4096, .f32⟩ : BufTy).Contents (Elt F) → (⟨S_, .f32⟩ : BufTy).Contents (Elt F) → (⟨S4, .f32⟩ : BufTy).Contents (Elt F)),
    StableHlo.nullary main_cst_7 (constant S_ .f32 0x45800000#32),
    StableHlo.unary main_cst_7 main_v19 (broadcastInDim S4 ![] bcast_S_S4 : (⟨S_, .f32⟩ : BufTy).Contents (Elt F) → (⟨S4, .f32⟩ : BufTy).Contents (Elt F)),
    StableHlo.binary main_v18 main_v19 main_v20 (Host.divf : (⟨S4, .f32⟩ : BufTy).Contents (Elt F) → (⟨S4, .f32⟩ : BufTy).Contents (Elt F) → (⟨S4, .f32⟩ : BufTy).Contents (Elt F)),
    StableHlo.binary main_v16 main_v20 main_v21 (addf : (⟨S4, .f32⟩ : BufTy).Contents (Elt F) → (⟨S4, .f32⟩ : BufTy).Contents (Elt F) → (⟨S4, .f32⟩ : BufTy).Contents (Elt F)),
    StableHlo.nullary main_cst_8 (constant S_ .f32 0x00000000#32),
    StableHlo.binary main_v21 main_cst_8 main_v22 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_9 (constant S_ .f32 0x40800000#32),
    StableHlo.binary main_v22 main_cst_9 main_v23 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x3F800000#32),
    StableHlo.unary main_cst_10 main_v24 (broadcastInDim S4x512 ![] bcast_S_S4x512 : (⟨S_, .f32⟩ : BufTy).Contents (Elt F) → (⟨S4x512, .f32⟩ : BufTy).Contents (Elt F)),
    StableHlo.binary main_v24 main_arg5 main_v25 (addf : (⟨S4x512, .f32⟩ : BufTy).Contents (Elt F) → (⟨S4x512, .f32⟩ : BufTy).Contents (Elt F) → (⟨S4x512, .f32⟩ : BufTy).Contents (Elt F)),
    StableHlo.binary main_arg4 main_arg4 main_v26 (mulf : (⟨S4x512, .f32⟩ : BufTy).Contents (Elt F) → (⟨S4x512, .f32⟩ : BufTy).Contents (Elt F) → (⟨S4x512, .f32⟩ : BufTy).Contents (Elt F)),
    StableHlo.binary main_v25 main_v26 main_v27 (subf : (⟨S4x512, .f32⟩ : BufTy).Contents (Elt F) → (⟨S4x512, .f32⟩ : BufTy).Contents (Elt F) → (⟨S4x512, .f32⟩ : BufTy).Contents (Elt F)),
    StableHlo.unary main_arg5 main_v28 (Host.exp : (⟨S4x512, .f32⟩ : BufTy).Contents (Elt F) → (⟨S4x512, .f32⟩ : BufTy).Contents (Elt F)),
    StableHlo.binary main_v27 main_v28 main_v29 (subf : (⟨S4x512, .f32⟩ : BufTy).Contents (Elt F) → (⟨S4x512, .f32⟩ : BufTy).Contents (Elt F) → (⟨S4x512, .f32⟩ : BufTy).Contents (Elt F)),
    StableHlo.nullary main_cst_11 (constant S_ .f32 0x00000000#32),
    StableHlo.binary main_v29 main_cst_11 main_v30 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_12 (constant S_ .f32 0x45000000#32),
    StableHlo.binary main_v30 main_cst_12 main_v31 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0xBF000000#32),
    StableHlo.binary main_cst_13 main_v31 main_v32 (mulf : (⟨S_, .f32⟩ : BufTy).Contents (Elt F) → (⟨S_, .f32⟩ : BufTy).Contents (Elt F) → (⟨S_, .f32⟩ : BufTy).Contents (Elt F)) ]

/-- Statements 49 … 60: within the first cloud, the two norm arrays broadcast and added (`main_v42`) and the inner products (`main_v37`). -/
abbrev opsB : List (HloOp τ sig (Elt F)) :=
  [ StableHlo.binary main_arg0 main_arg0 main_v33 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_14 (constant S_ .f32 0x00000000#32),
    StableHlo.binary main_v33 main_cst_14 main_v34 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg0 main_arg0 main_v35 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_15 (constant S_ .f32 0x00000000#32),
    StableHlo.binary main_v35 main_cst_15 main_v36 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg0 main_arg0 main_v37 ((fun l r => Host.dotGeneral dot_S4x4096x3_S4x4096x3_S4x4096x4096_2_2_1_1_0_0 none l r) : (⟨S4x4096x3, .f32⟩ : BufTy).Contents (Elt F) → (⟨S4x4096x3, .f32⟩ : BufTy).Contents (Elt F) → (⟨S4x4096x4096, .f32⟩ : BufTy).Contents (Elt F)),
    StableHlo.unary main_v34 main_v38 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v36 main_v39 (broadcastInDim S4x1x4096 ![0, 2] bcast_S4x4096_S4x1x4096_0_2 : (⟨S4x4096, .f32⟩ : BufTy).Contents (Elt F) → (⟨S4x1x4096, .f32⟩ : BufTy).Contents (Elt F)),
    StableHlo.unary main_v38 main_v40 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.unary main_v39 main_v41 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    StableHlo.binary main_v40 main_v41 main_v42 (addf : (⟨S4x4096x4096, .f32⟩ : BufTy).Contents (Elt F) → (⟨S4x4096x4096, .f32⟩ : BufTy).Contents (Elt F) → (⟨S4x4096x4096, .f32⟩ : BufTy).Contents (Elt F)) ]

/-- Statements 61 … 80: the self distances, 10⁶ times the identity added, the minimum along the last axis (`main_v57`), and the integer one (`main_c_19`). -/
abbrev opsC : List (HloOp τ sig (Elt F)) :=
  [ StableHlo.nullary main_cst_16 (constant S_ .f32 0x40000000#32),
    StableHlo.unary main_cst_16 main_v43 (broadcastInDim S4x4096x4096 ![] bcast_S_S4x4096x4096 : (⟨S_, .f32⟩ : BufTy).Contents (Elt F) → (⟨S4x4096x4096, .f32⟩ : BufTy).Contents (Elt F)),
    StableHlo.binary main_v43 main_v37 main_v44 (mulf : (⟨S4x4096x4096, .f32⟩ : BufTy).Contents (Elt F) → (⟨S4x4096x4096, .f32⟩ : BufTy).Contents (Elt F) → (⟨S4x4096x4096, .f32⟩ : BufTy).Contents (Elt F)),
    StableHlo.binary main_v42 main_v44 main_v45 (subf : (⟨S4x4096x4096, .f32⟩ : BufTy).Contents (Elt F) → (⟨S4x4096x4096, .f32⟩ : BufTy).Contents (Elt F) → (⟨S4x4096x4096, .f32⟩ : BufTy).Contents (Elt F)),
    StableHlo.nullary main_v46 (iotaInDim S4096x4096 32 0),
    StableHlo.nullary main_v47 (iotaInDim S4096x4096 32 1),
    StableHlo.nullary main_c (constantI S_ 32 0#32),
    StableHlo.unary main_c main_v48 (broadcastInDim S4096x4096 ![] bcast_S_S4096x4096 : (⟨S_, .i32⟩ : BufTy).Contents (Elt F) → (⟨S4096x4096, .i32⟩ : BufTy).Contents (Elt F)),
    StableHlo.binary main_v46 main_v48 main_v49 (addi : (⟨S4096x4096, .i32⟩ : BufTy).Contents (Elt F) → (⟨S4096x4096, .i32⟩ : BufTy).Contents (Elt F) → (⟨S4096x4096, .i32⟩ : BufTy).Contents (Elt F)),
    StableHlo.binary main_v49 main_v47 main_v50 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v50 main_v51 (uitofp .f32 : (⟨S4096x4096, .i1⟩ : BufTy).Contents (Elt F) → (⟨S4096x4096, .f32⟩ : BufTy).Contents (Elt F)),
    StableHlo.unary main_v51 main_v52 (broadcastInDim S1x4096x4096 ![1, 2] bcast_S4096x4096_S1x4096x4096_1_2 : (⟨S4096x4096, .f32⟩ : BufTy).Contents (Elt F) → (⟨S1x4096x4096, .f32⟩ : BufTy).Contents (Elt F)),
    StableHlo.nullary main_cst_17 (constant S_ .f32 0x49742400#32),
    StableHlo.unary main_cst_17 main_v53 (broadcastInDim S1x4096x4096 ![] bcast_S_S1x4096x4096 : (⟨S_, .f32⟩ : BufTy).Contents (Elt F) → (⟨S1x4096x4096, .f32⟩ : BufTy).Contents (Elt F)),
    StableHlo.binary main_v52 main_v53 main_v54 (mulf : (⟨S1x4096x4096, .f32⟩ : BufTy).Contents (Elt F) → (⟨S1x4096x4096, .f32⟩ : BufTy).Contents (Elt F) → (⟨S1x4096x4096, .f32⟩ : BufTy).Contents (Elt F)),
    StableHlo.unary main_v54 main_v55 (broadcastInDim S4x4096x4096 ![0, 1, 2] bcast_S1x4096x4096_S4x4096x4096_0_1_2 : (⟨S1x4096x4096, .f32⟩ : BufTy).Contents (Elt F) → (⟨S4x4096x4096, .f32⟩ : BufTy).Contents (Elt F)),
    StableHlo.binary main_v45 main_v55 main_v56 (addf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_18 (constant S_ .f32 0x7F800000#32),
    StableHlo.binary main_v56 main_cst_18 main_v57 ((fun x v => Host.reduce FloatOps.minimumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.nullary main_c_19 (constantI S_ 32 1#32) ]

/-- Statement 81, the call of the standard deviation, unfolded: the variance's twenty-three operations (its own nineteen, the three of the selection it calls, the square root) over the call's buffers, reading `main_v57` and `main_c_19`, ending in `main_v58`. -/
abbrev opsD : List (HloOp τ sig (Elt F)) :=
  [ StableHlo.TRef.nullary (.of main_call0_call0_cst : StableHlo.TRef sig ⟨S_, .f32⟩) (constant S_ .f32 0x00000000#32),
    StableHlo.TRef.binary (.of main_v57 : StableHlo.TRef sig ⟨S4x4096, .f32⟩) (.of main_call0_call0_cst : StableHlo.TRef sig ⟨S_, .f32⟩) (.of main_call0_call0_v0 : StableHlo.TRef sig ⟨S4, .f32⟩) (fun x v => Host.reduceAdd x v reducesTo_S4x4096_S4_d1 h_S_),
    StableHlo.TRef.unary (.of main_call0_call0_v0 : StableHlo.TRef sig ⟨S4, .f32⟩) (.of main_call0_call0_v1 : StableHlo.TRef sig ⟨S4x1, .f32⟩) (broadcastInDim S4x1 ![0] bcast_S4_S4x1_0),
    StableHlo.TRef.nullary (.of main_call0_call0_cst_0 : StableHlo.TRef sig ⟨S_, .f32⟩) (constant S_ .f32 0x45800000#32),
    StableHlo.TRef.unary (.of main_call0_call0_cst_0 : StableHlo.TRef sig ⟨S_, .f32⟩) (.of main_call0_call0_v2 : StableHlo.TRef sig ⟨S4x1, .f32⟩) (broadcastInDim S4x1 ![] bcast_S_S4x1),
    StableHlo.TRef.binary (.of main_call0_call0_v1 : StableHlo.TRef sig ⟨S4x1, .f32⟩) (.of main_call0_call0_v2 : StableHlo.TRef sig ⟨S4x1, .f32⟩) (.of main_call0_call0_v3 : StableHlo.TRef sig ⟨S4x1, .f32⟩) Host.divf,
    StableHlo.TRef.unary (.of main_call0_call0_v3 : StableHlo.TRef sig ⟨S4x1, .f32⟩) (.of main_call0_call0_v4 : StableHlo.TRef sig ⟨S4x4096, .f32⟩) (broadcastInDim S4x4096 ![0, 1] bcast_S4x1_S4x4096_0_1),
    StableHlo.TRef.binary (.of main_v57 : StableHlo.TRef sig ⟨S4x4096, .f32⟩) (.of main_call0_call0_v4 : StableHlo.TRef sig ⟨S4x4096, .f32⟩) (.of main_call0_call0_v5 : StableHlo.TRef sig ⟨S4x4096, .f32⟩) subf,
    StableHlo.TRef.binary (.of main_call0_call0_v5 : StableHlo.TRef sig ⟨S4x4096, .f32⟩) (.of main_call0_call0_v5 : StableHlo.TRef sig ⟨S4x4096, .f32⟩) (.of main_call0_call0_v6 : StableHlo.TRef sig ⟨S4x4096, .f32⟩) mulf,
    StableHlo.TRef.unary (.of main_c_19 : StableHlo.TRef sig ⟨S_, .i32⟩) (.of main_call0_call0_v7 : StableHlo.TRef sig ⟨S_, .f32⟩) (sitofp .f32),
    StableHlo.TRef.nullary (.of main_call0_call0_cst_1 : StableHlo.TRef sig ⟨S_, .f32⟩) (constant S_ .f32 0x45800000#32),
    StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf,
    StableHlo.TRef.nullary (.of main_call0_call0_cst_2 : StableHlo.TRef sig ⟨S_, .f32⟩) (constant S_ .f32 0x00000000#32),
    StableHlo.TRef.binary (.of main_call0_call0_v6 : StableHlo.TRef sig ⟨S4x4096, .f32⟩) (.of main_call0_call0_cst_2 : StableHlo.TRef sig ⟨S_, .f32⟩) (.of main_call0_call0_v9 : StableHlo.TRef sig ⟨S4, .f32⟩) (fun x v => Host.reduceAdd x v reducesTo_S4x4096_S4_d1 h_S_),
    StableHlo.TRef.unary (.of main_call0_call0_v8 : StableHlo.TRef sig ⟨S_, .f32⟩) (.of main_call0_call0_v10 : StableHlo.TRef sig ⟨S4, .f32⟩) (broadcastInDim S4 ![] bcast_S_S4),
    StableHlo.TRef.binary (.of main_call0_call0_v9 : StableHlo.TRef sig ⟨S4, .f32⟩) (.of main_call0_call0_v10 : StableHlo.TRef sig ⟨S4, .f32⟩) (.of main_call0_call0_v11 : StableHlo.TRef sig ⟨S4, .f32⟩) Host.divf,
    StableHlo.TRef.nullary (.of main_call0_call0_cst_3 : StableHlo.TRef sig ⟨S_, .f32⟩) (constant S_ .f32 0x00000000#32),
    StableHlo.TRef.binary (.of main_call0_call0_v8 : StableHlo.TRef sig ⟨S_, .f32⟩) (.of main_call0_call0_cst_3 : StableHlo.TRef sig ⟨S_, .f32⟩) (.of main_call0_call0_v12 : StableHlo.TRef sig ⟨S_, .i1⟩) (cmpf .ogt),
    StableHlo.TRef.nullary (.of main_call0_call0_cst_4 : StableHlo.TRef sig ⟨S_, .f32⟩) (constant S_ .f32 0x7FC00000#32),
    StableHlo.TRef.unary (.of main_call0_call0_cst_4 : StableHlo.TRef sig ⟨S_, .f32⟩) (.of main_call0_call0_call0_v0 : StableHlo.TRef sig ⟨S_, .f32⟩) id,
    StableHlo.TRef.unary (.of main_call0_call0_call0_v0 : StableHlo.TRef sig ⟨S_, .f32⟩) (.of main_call0_call0_call0_v1 : StableHlo.TRef sig ⟨S4, .f32⟩) (broadcastInDim S4 ![] bcast_S_S4),
    StableHlo.TRef.ternary (.of main_call0_call0_v12 : StableHlo.TRef sig ⟨S_, .i1⟩) (.of main_call0_call0_v11 : StableHlo.TRef sig ⟨S4, .f32⟩) (.of main_call0_call0_call0_v1 : StableHlo.TRef sig ⟨S4, .f32⟩) (.of main_call0_v0 : StableHlo.TRef sig ⟨S4, .f32⟩) (fun p a b => select (broadcastInDim S4 ![] bcast_S_S4 p) a b),
    StableHlo.TRef.unary (.of main_call0_v0 : StableHlo.TRef sig ⟨S4, .f32⟩) (.of main_v58 : StableHlo.TRef sig ⟨S4, .f32⟩) Host.sqrt ]

/-- Statements 82 … 101: the density mean, the sizing error and the weighted sum (`main_v70`). -/
abbrev opsE : List (HloOp τ sig (Elt F)) :=
  [ StableHlo.nullary main_cst_20 (constant S_ .f32 0x00000000#32),
    StableHlo.binary main_v58 main_cst_20 main_v59 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_21 (constant S_ .f32 0x40800000#32),
    StableHlo.binary main_v59 main_cst_21 main_v60 (Host.divf : (⟨S_, .f32⟩ : BufTy).Contents (Elt F) → (⟨S_, .f32⟩ : BufTy).Contents (Elt F) → (⟨S_, .f32⟩ : BufTy).Contents (Elt F)),
    StableHlo.binary main_arg1 main_arg3 main_v61 (subf : (⟨S4x4096, .f32⟩ : BufTy).Contents (Elt F) → (⟨S4x4096, .f32⟩ : BufTy).Contents (Elt F) → (⟨S4x4096, .f32⟩ : BufTy).Contents (Elt F)),
    StableHlo.binary main_v61 main_v61 main_v62 (mulf : (⟨S4x4096, .f32⟩ : BufTy).Contents (Elt F) → (⟨S4x4096, .f32⟩ : BufTy).Contents (Elt F) → (⟨S4x4096, .f32⟩ : BufTy).Contents (Elt F)),
    StableHlo.nullary main_cst_22 (constant S_ .f32 0x00000000#32),
    StableHlo.binary main_v62 main_cst_22 main_v63 ((fun x v => Host.reduceAdd x v reducesTo_S4x4096_S_d0_1 h_S_) : (⟨S4x4096, .f32⟩ : BufTy).Contents (Elt F) → (⟨S_, .f32⟩ : BufTy).Contents (Elt F) → (⟨S_, .f32⟩ : BufTy).Contents (Elt F)),
    StableHlo.nullary main_cst_23 (constant S_ .f32 0x46800000#32),
    StableHlo.binary main_v63 main_cst_23 main_v64 (Host.divf : (⟨S_, .f32⟩ : BufTy).Contents (Elt F) → (⟨S_, .f32⟩ : BufTy).Contents (Elt F) → (⟨S_, .f32⟩ : BufTy).Contents (Elt F)),
    StableHlo.nullary main_cst_24 (constant S_ .f32 0x3A83126F#32),
    StableHlo.binary main_cst_24 main_v32 main_v65 (mulf : (⟨S_, .f32⟩ : BufTy).Contents (Elt F) → (⟨S_, .f32⟩ : BufTy).Contents (Elt F) → (⟨S_, .f32⟩ : BufTy).Contents (Elt F)),
    StableHlo.binary main_v23 main_v65 main_v66 (addf : (⟨S_, .f32⟩ : BufTy).Contents (Elt F) → (⟨S_, .f32⟩ : BufTy).Contents (Elt F) → (⟨S_, .f32⟩ : BufTy).Contents (Elt F)),
    StableHlo.nullary main_cst_25 (constant S_ .f32 0x3DCCCCCD#32),
    StableHlo.binary main_cst_25 main_v60 main_v67 (mulf : (⟨S_, .f32⟩ : BufTy).Contents (Elt F) → (⟨S_, .f32⟩ : BufTy).Contents (Elt F) → (⟨S_, .f32⟩ : BufTy).Contents (Elt F)),
    StableHlo.binary main_v66 main_v67 main_v68 (addf : (⟨S_, .f32⟩ : BufTy).Contents (Elt F) → (⟨S_, .f32⟩ : BufTy).Contents (Elt F) → (⟨S_, .f32⟩ : BufTy).Contents (Elt F)),
    StableHlo.nullary main_cst_26 (constant S_ .f32 0x3D4CCCCD#32),
    StableHlo.binary main_cst_26 main_v64 main_v69 (mulf : (⟨S_, .f32⟩ : BufTy).Contents (Elt F) → (⟨S_, .f32⟩ : BufTy).Contents (Elt F) → (⟨S_, .f32⟩ : BufTy).Contents (Elt F)),
    StableHlo.binary main_v68 main_v69 main_v70 (addf : (⟨S_, .f32⟩ : BufTy).Contents (Elt F) → (⟨S_, .f32⟩ : BufTy).Contents (Elt F) → (⟨S_, .f32⟩ : BufTy).Contents (Elt F)) ]

/-- @main's 122 operations, in order. -/
abbrev ops : List (HloOp τ sig (Elt F)) := (opsA ++ opsB) ++ (opsC ++ (opsD ++ opsE))

set_option maxRecDepth 8192 in
/-- The first window is its sixty operations: both sides are one chain of steps. -/
theorem part0_eq (c : Dev nD) : main_part0 (F := F) c = seq (opsA ++ opsB) := rfl

set_option maxRecDepth 8192 in
/-- The second window likewise, the three functions' bodies unfolded at the call and the records at their fields. -/
theorem part1_eq (c : Dev nD) : main_part1 (F := F) c = seq (opsC ++ (opsD ++ opsE)) := rfl

/-- @main is that straight line: one window after the other is the concatenation run as one. -/
theorem main_eq (c : Dev nD) : main (F := F) c = seq ops := by
  rw [ops, seq_append, ← part0_eq c, ← part1_eq c]; rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., unary_bufs_sub .., binary_bufs_sub .., binary_bufs_sub .., binary_bufs_sub .., unary_bufs_sub .., binary_bufs_sub .., nullary_bufs_sub .., binary_bufs_sub .., nullary_bufs_sub .., binary_bufs_sub .., nullary_bufs_sub .., binary_bufs_sub ..⟩

theorem opsB_sub : (opsB : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub ..⟩

theorem opsC_sub : (opsC : List (HloOp τ sig (Elt F))).Forall fun op => op.bufs ⊆ tcRefs τ sig :=
  ⟨nullary_bufs_sub .., unary_bufs_sub .., binary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., binary_bufs_sub .., unary_bufs_sub .., binary_bufs_sub .., nullary_bufs_sub .., binary_bufs_sub .., nullary_bufs_sub ..⟩

theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩

theorem opsE_sub : (opsE : List (HloOp τ sig (Elt F))).Forall fun op => op.bufs ⊆ tcRefs τ sig :=
  ⟨nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with (h | h) | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h]

theorem opsA_fresh : (opsA : List (HloOp τ sig (Elt F))).Forall fun op => op.fresh = ∅ := by
  simp only [List.Forall]; repeat' constructor

theorem opsB_fresh : (opsB : List (HloOp τ sig (Elt F))).Forall fun op => op.fresh = ∅ := by
  simp only [List.Forall]; repeat' constructor

theorem opsC_fresh : (opsC : List (HloOp τ sig (Elt F))).Forall fun op => op.fresh = ∅ := by
  simp only [List.Forall]; repeat' constructor

theorem opsD_fresh : (opsD : List (HloOp τ sig (Elt F))).Forall fun op => op.fresh = ∅ := by
  simp only [List.Forall]; repeat' constructor

theorem opsE_fresh : (opsE : List (HloOp τ sig (Elt F))).Forall fun op => op.fresh = ∅ := by
  simp only [List.Forall]; repeat' constructor

/-- Every operation determines what it writes: none allocates. -/
theorem ops_fresh : ∀ op ∈ (ops : List (HloOp τ sig (Elt F))), op.fresh = ∅ := fun op h => by
  simp only [ops, List.mem_append] at h
  rcases h with (h | h) | h | h | h
  exacts [List.forall_iff_forall_mem.mp opsA_fresh op h, List.forall_iff_forall_mem.mp opsB_fresh op h,
    List.forall_iff_forall_mem.mp opsC_fresh op h, List.forall_iff_forall_mem.mp opsD_fresh op h,
    List.forall_iff_forall_mem.mp opsE_fresh op h]

/-- From any memory with zero counters: every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What each list leaves alone -/

/-- The references opsA's operations write, in order. -/
abbrev opsA_W : List (Ref sig .tc) := [main_v0, main_cst, main_v1, main_v2, main_cst_0, main_v3, main_v4, main_v5, main_v6, main_v7, main_v8, main_v9, main_cst_1, main_v10, main_v11, main_v12, main_cst_2, main_v13, main_cst_3, main_v14, main_cst_4, main_v15, main_v16, main_cst_5, main_v17, main_cst_6, main_v18, main_cst_7, main_v19, main_v20, main_v21, main_cst_8, main_v22, main_cst_9, main_v23, main_cst_10, main_v24, main_v25, main_v26, main_v27, main_v28, main_v29, main_cst_11, main_v30, main_cst_12, main_v31, main_cst_13, main_v32]
theorem opsA_writes : (opsA : List (HloOp τ sig (Elt F))).Forall fun op => op.writes ⊆ (opsA_W.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A reference opsA does not write keeps its contents. -/
theorem opsA_keep (V : Valuation τ sig (Elt F)) (r : Ref sig .tc) (h : r ∉ opsA_W) :
    after opsA V (Proc.devRef .tc r) = V (Proc.devRef .tc r) :=
  after_of_writes_sub opsA V opsA_writes h

/-- The references opsB's operations write, in order. -/
abbrev opsB_W : List (Ref sig .tc) := [main_v33, main_cst_14, main_v34, main_v35, main_cst_15, main_v36, main_v37, main_v38, main_v39, main_v40, main_v41, main_v42]
theorem opsB_writes : (opsB : List (HloOp τ sig (Elt F))).Forall fun op => op.writes ⊆ (opsB_W.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_⟩ <;> exact List.mem_map_of_mem (by decide)
/-- A reference opsB does not write keeps its contents. -/
theorem opsB_keep (V : Valuation τ sig (Elt F)) (r : Ref sig .tc) (h : r ∉ opsB_W) :
    after opsB V (Proc.devRef .tc r) = V (Proc.devRef .tc r) :=
  after_of_writes_sub opsB V opsB_writes h

/-- The references opsC's operations write, in order. -/
abbrev opsC_W : List (Ref sig .tc) := [main_cst_16, main_v43, main_v44, main_v45, main_v46, main_v47, main_c, main_v48, main_v49, main_v50, main_v51, main_v52, main_cst_17, main_v53, main_v54, main_v55, main_v56, main_cst_18, main_v57, main_c_19]
theorem opsC_writes : (opsC : List (HloOp τ sig (Elt F))).Forall fun op => op.writes ⊆ (opsC_W.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_⟩ <;> exact List.mem_map_of_mem (by decide)
/-- A reference opsC does not write keeps its contents. -/
theorem opsC_keep (V : Valuation τ sig (Elt F)) (r : Ref sig .tc) (h : r ∉ opsC_W) :
    after opsC V (Proc.devRef .tc r) = V (Proc.devRef .tc r) :=
  after_of_writes_sub opsC V opsC_writes h

/-- The references opsD's operations write, in order. -/
abbrev opsD_W : List (Ref sig .tc) := [main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_cst_3, main_call0_call0_v12, main_call0_call0_cst_4, main_call0_call0_call0_v0, main_call0_call0_call0_v1, main_call0_v0, main_v58]
theorem opsD_writes : (opsD : List (HloOp τ sig (Elt F))).Forall fun op => op.writes ⊆ (opsD_W.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩ <;> exact List.mem_map_of_mem (by decide)
/-- A reference opsD does not write keeps its contents. -/
theorem opsD_keep (V : Valuation τ sig (Elt F)) (r : Ref sig .tc) (h : r ∉ opsD_W) :
    after opsD V (Proc.devRef .tc r) = V (Proc.devRef .tc r) :=
  after_of_writes_sub opsD V opsD_writes h

/-- The references opsE's operations write, in order. -/
abbrev opsE_W : List (Ref sig .tc) := [main_cst_20, main_v59, main_cst_21, main_v60, main_v61, main_v62, main_cst_22, main_v63, main_cst_23, main_v64, main_cst_24, main_v65, main_v66, main_cst_25, main_v67, main_v68, main_cst_26, main_v69, main_v70]
theorem opsE_writes : (opsE : List (HloOp τ sig (Elt F))).Forall fun op => op.writes ⊆ (opsE_W.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_⟩ <;> exact List.mem_map_of_mem (by decide)
/-- A reference opsE does not write keeps its contents. -/
theorem opsE_keep (V : Valuation τ sig (Elt F)) (r : Ref sig .tc) (h : r ∉ opsE_W) :
    after opsE V (Proc.devRef .tc r) = V (Proc.devRef .tc r) :=
  after_of_writes_sub opsE V opsE_writes h

/-- The fold over a concatenation is the folds in turn. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

end Line

/-! ## The fold, list by list

Each list's fold read at the few buffers later lists consume, over ANY contents before it; the scalar arithmetic in
four named pieces, which together are the loss `tailFn` by unfolding. -/

section Fold

open Cert.ReferenceIdeal.Facts₀

/-- The chamfer term: the batch mean of the sum of the two directions' row means of nearest squared distances. -/
def chamfer (d0 d1 : FVec F S4x4096 .f32) : FVec F S_ .f32 :=
  Host.divf
    (Host.reduceAdd
      (addf
        (Host.divf (Host.reduceAdd d0 (constant (F := F) S_ .f32 0x00000000#32) reducesTo_S4x4096_S4_d1 h_S_)
          (broadcastInDim S4 ![] bcast_S_S4 (constant (F := F) S_ .f32 0x45800000#32)))
        (Host.divf (Host.reduceAdd d1 (constant (F := F) S_ .f32 0x00000000#32) reducesTo_S4x4096_S4_d1 h_S_)
          (broadcastInDim S4 ![] bcast_S_S4 (constant (F := F) S_ .f32 0x45800000#32))))
      (constant (F := F) S_ .f32 0x00000000#32) reducesTo_S4_S_d0 h_S_)
    (constant (F := F) S_ .f32 0x40800000#32)

/-- The KL term: −½ times the mean of 1 + logvar − mu² − exp logvar. -/
def klTerm (a4 a5 : FVec F S4x512 .f32) : FVec F S_ .f32 :=
  mulf (constant (F := F) S_ .f32 0xBF000000#32)
    (Host.divf
      (Host.reduceAdd
        (subf (subf (addf (broadcastInDim S4x512 ![] bcast_S_S4x512 (constant (F := F) S_ .f32 0x3F800000#32)) a5) (mulf a4 a4))
          (Host.exp a5))
        (constant (F := F) S_ .f32 0x00000000#32) reducesTo_S4x512_S_d0_1 h_S_)
      (constant (F := F) S_ .f32 0x45000000#32))

/-- Each row's standard deviation with `c` degrees of freedom removed: the square root of the sum of squared
    deviations from the row mean over 4096 − c, or of NaN where that divisor is not positive. -/
def rowStd (d2 : FVec F S4x4096 .f32) (c : IVec S_ 32) : FVec F S4 .f32 :=
  let k5 : FVec F S4x4096 .f32 := subf d2 (broadcastInDim S4x4096 ![0, 1] bcast_S4x1_S4x4096_0_1
    (Host.divf (broadcastInDim S4x1 ![0] bcast_S4_S4x1_0 (Host.reduceAdd d2 (constant (F := F) S_ .f32 0x00000000#32) reducesTo_S4x4096_S4_d1 h_S_))
      (broadcastInDim S4x1 ![] bcast_S_S4x1 (constant (F := F) S_ .f32 0x45800000#32))))
  let k8 : FVec F S_ .f32 := subf (constant (F := F) S_ .f32 0x45800000#32) (sitofp (F := F) .f32 c)
  Host.sqrt
    (select (broadcastInDim S4 ![] bcast_S_S4 (cmpf .ogt k8 (constant (F := F) S_ .f32 0x00000000#32)))
      (Host.divf (Host.reduceAdd (mulf k5 k5) (constant (F := F) S_ .f32 0x00000000#32) reducesTo_S4x4096_S4_d1 h_S_) (broadcastInDim S4 ![] bcast_S_S4 k8))
      (broadcastInDim S4 ![] bcast_S_S4 (id (constant (F := F) S_ .f32 0x7FC00000#32))))

/-- The weighted sum: chamfer + 10⁻³ · KL + 10⁻¹ · (batch mean of the row deviations) + 5·10⁻² · (mean squared sizing error). -/
def weighted (ch kl : FVec F S_ .f32) (sd : FVec F S4 .f32) (a1 a3 : FVec F S4x4096 .f32) : FVec F S_ .f32 :=
  addf
    (addf (addf ch (mulf (constant (F := F) S_ .f32 0x3A83126F#32) kl))
      (mulf (constant (F := F) S_ .f32 0x3DCCCCCD#32)
        (Host.divf (Host.reduceAdd sd (constant (F := F) S_ .f32 0x00000000#32) reducesTo_S4_S_d0 h_S_) (constant (F := F) S_ .f32 0x40800000#32))))
    (mulf (constant (F := F) S_ .f32 0x3D4CCCCD#32)
      (Host.divf (Host.reduceAdd (mulf (subf a1 a3) (subf a1 a3)) (constant (F := F) S_ .f32 0x00000000#32) reducesTo_S4x4096_S_d0_1 h_S_)
        (constant (F := F) S_ .f32 0x46800000#32)))

attribute [local irreducible] Host.reduce Host.reduceAdd

set_option maxRecDepth 8192 in
/-- After the first list the chamfer term stands in `main_v23`: the two minima of the one distance array, then the means. -/
theorem opsA_v23 (W : Valuation τ sig (Elt F)) :
    after opsA W (main_v23 : DevRef τ sig)
      = chamfer (stage13 (W (main_arg0 : DevRef τ sig)) (W (main_arg2 : DevRef τ sig))) (stage17 (W (main_arg0 : DevRef τ sig)) (W (main_arg2 : DevRef τ sig))) := by
  after_results_simp
  rfl

set_option maxRecDepth 8192 in
/-- … and the KL term in `main_v32`. -/
theorem opsA_v32 (W : Valuation τ sig (Elt F)) :
    after opsA W (main_v32 : DevRef τ sig) = klTerm (W (main_arg4 : DevRef τ sig)) (W (main_arg5 : DevRef τ sig)) := by
  after_results_simp
  rfl

set_option maxRecDepth 8192 in
/-- The second and third lists compute the first cloud's distances to itself a second time (both norm arrays
    separately), add the scaled identity and take the minimum: `stage57`. -/
theorem opsBC_v57 (W : Valuation τ sig (Elt F)) :
    after opsC (after opsB W) (main_v57 : DevRef τ sig) = stage57 (W (main_arg0 : DevRef τ sig)) := by
  after_results_simp
  rfl

set_option maxRecDepth 8192 in
theorem opsBC_c19 (W : Valuation τ sig (Elt F)) :
    after opsC (after opsB W) (main_c_19 : DevRef τ sig) = constantI S_ 32 1#32 := by
  after_results_simp

set_option maxRecDepth 8192 in
/-- The call's operations leave the rows' standard deviation in `main_v58`: the typed references' transports are the
    identity at these literal references. -/
theorem opsD_v58 (W : Valuation τ sig (Elt F)) :
    after opsD W (main_v58 : DevRef τ sig) = rowStd (W (main_v57 : DevRef τ sig)) (W (main_c_19 : DevRef τ sig)) := by
  after_results_simp
  rfl

set_option maxRecDepth 8192 in
/-- The last list is the weighted sum of what the earlier ones left. -/
theorem opsE_v70 (W : Valuation τ sig (Elt F)) :
    after opsE W (main_v70 : DevRef τ sig)
      = weighted (W (main_v23 : DevRef τ sig)) (W (main_v32 : DevRef τ sig)) (W (main_v58 : DevRef τ sig)) (W (main_arg1 : DevRef τ sig)) (W (main_arg3 : DevRef τ sig)) := by
  after_results_simp
  rfl

end Fold

/-! ## The whole line -/

section Whole

attribute [local irreducible] Host.reduce Host.reduceAdd

/-- The fold over the line is the five lists' folds in turn. -/
theorem after_ops (V : Valuation τ sig (Elt F)) :
    after ops V = after opsE (after opsD (after opsC (after opsB (after opsA V)))) := by
  rw [ops, after_app, after_app, after_app, after_app]

/-- The fold at the result buffer is the loss of the three stages: the last list's weighted sum over the deviation the
    call leaves, the chamfer and KL terms the first list leaves (no later list writes them) and the two sizing
    arguments (no list writes them); the four pieces are `tailFn`'s own lines, so the two agree by unfolding. -/
theorem out_eq (V : Valuation τ sig (Elt F)) :
    after ops V (main_v70 : DevRef τ sig)
      = Cert.KernelIdeal.Hand.tailFn (stage13 (V (main_arg0 : DevRef τ sig)) (V (main_arg2 : DevRef τ sig))) (stage17 (V (main_arg0 : DevRef τ sig)) (V (main_arg2 : DevRef τ sig)))
          (stage57 (V (main_arg0 : DevRef τ sig))) (V (main_arg1 : DevRef τ sig)) (V (main_arg3 : DevRef τ sig)) (V (main_arg4 : DevRef τ sig)) (V (main_arg5 : DevRef τ sig)) := by
  rw [after_ops, opsE_v70, opsD_v58, opsBC_v57, opsBC_c19, opsA_keep _ main_arg0 (by decide),
    opsD_keep _ main_v23 (by decide), opsC_keep _ main_v23 (by decide), opsB_keep _ main_v23 (by decide), opsA_v23,
    opsD_keep _ main_v32 (by decide), opsC_keep _ main_v32 (by decide), opsB_keep _ main_v32 (by decide), opsA_v32,
    opsD_keep _ main_arg1 (by decide), opsC_keep _ main_arg1 (by decide), opsB_keep _ main_arg1 (by decide), opsA_keep _ main_arg1 (by decide),
    opsD_keep _ main_arg3 (by decide), opsC_keep _ main_arg3 (by decide), opsB_keep _ main_arg3 (by decide), opsA_keep _ main_arg3 (by decide)]
  rfl

/-- A reference no list writes ends as it began. -/
theorem keep (V : Valuation τ sig (Elt F)) (r : Ref sig .tc) (hA : r ∉ opsA_W) (hB : r ∉ opsB_W) (hC : r ∉ opsC_W)
    (hD : r ∉ opsD_W) (hE : r ∉ opsE_W) : after ops V (Proc.devRef .tc r) = V (Proc.devRef .tc r) := by
  rw [after_ops, opsE_keep _ r hE, opsD_keep _ r hD, opsC_keep _ r hC, opsB_keep _ r hB, opsA_keep _ r hA]

end Whole

/-- Every weakly fair execution of the reference terminates; its result buffer ends at the loss of the three
    nearest-neighbour stages of the launch arrays, and its argument arrays end as launched. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
          = Cert.KernelIdeal.Hand.tailFn
              (stage13 (m ((c.tc : Thread nD τ).loc main_arg0)) (m ((c.tc : Thread nD τ).loc main_arg2)))
              (stage17 (m ((c.tc : Thread nD τ).loc main_arg0)) (m ((c.tc : Thread nD τ).loc main_arg2)))
              (stage57 (m ((c.tc : Thread nD τ).loc main_arg0)))
              (m ((c.tc : Thread nD τ).loc main_arg1)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (run_main m ρ)
  exact ⟨(h c main_v70).trans (out_eq _), (h c main_arg0).trans (keep _ main_arg0 (by decide) (by decide) (by decide) (by decide) (by decide)),
    (h c main_arg1).trans (keep _ main_arg1 (by decide) (by decide) (by decide) (by decide) (by decide)),
    (h c main_arg2).trans (keep _ main_arg2 (by decide) (by decide) (by decide) (by decide) (by decide)),
    (h c main_arg3).trans (keep _ main_arg3 (by decide) (by decide) (by decide) (by decide) (by decide)),
    (h c main_arg4).trans (keep _ main_arg4 (by decide) (by decide) (by decide) (by decide) (by decide)),
    (h c main_arg5).trans (keep _ main_arg5 (by decide) (by decide) (by decide) (by decide) (by decide))⟩

end Cert.ReferenceIdeal.Hand

end
-- ==== Proof.Ref.Stages.lean ====
/-
  The reference's three nearest-neighbour arrays, read index by index over the extended reals.

  The squared-distance array at (b, n, m) is |x_n|² + |y_m|² − 2·⟨x_n, y_m⟩: the two squared norms are three-term sums
  from 0 broadcast along a row and along a column, the inner product is the contraction over the coordinate axis, and
  the factor 2 is a broadcast scalar (`dist_apply`). A minimum along one axis of that array from +∞ is the fold of
  min over that axis's 4096 coordinates (`minLast`, `minMid`). The identity matrix is the comparison of the two
  coordinates' 32-bit words, which for coordinates below 4096 is 1 exactly on the diagonal; read as a number it is 1
  or 0, and 1·10⁶ = 10⁶, 0·10⁶ = 0 (`eye_apply`).
-/
import proofs.«172589_j55319178772943_1_alg».proof.Proof.Ref.StageDefs
import proofs.«172589_j55319178772943_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.Hand

open Idealize.ShloMosaic Idealize.ShloMosaic.TcCoe Idealize.ShloMosaic.ValueIdx
open Idealize.SL Idealize.SL.Sem
open Cert.ReferenceIdeal Cert.ReferenceIdeal.Facts₀

/-! ## The reduced index with a coordinate inserted -/

private theorem red3 : S4x4096x3.Reduces [2] S4x4096 := by decide
private theorem redD2 : S4x4096x4096.Reduces [2] S4x4096 := by decide
private theorem redD1 : S4x4096x4096.Reduces [1] S4x4096 := by decide

/-- Over (b, n), coordinate d on the last axis of a point cloud: (b, n, d). -/
private theorem lift3 (b : Fin 4) (n : Fin 4096) (d : Fin 3) : red3.lift (ix2 b n) d = ix3 b n d := by
  funext c; apply Fin.ext
  match c with
  | ⟨0, _⟩ => rfl
  | ⟨1, _⟩ => rfl
  | ⟨2, _⟩ => rfl

/-- Over (b, n), coordinate m on the last axis of the distance array: (b, n, m). -/
private theorem liftD2 (b : Fin 4) (n m : Fin 4096) : redD2.lift (ix2 b n) m = ix3 b n m := by
  funext c; apply Fin.ext
  match c with
  | ⟨0, _⟩ => rfl
  | ⟨1, _⟩ => rfl
  | ⟨2, _⟩ => rfl

/-- Over (b, m), coordinate k on the middle axis of the distance array: (b, k, m). -/
private theorem liftD1 (b : Fin 4) (m k : Fin 4096) : redD1.lift (ix2 b m) k = ix3 b k m := by
  funext c; apply Fin.ext
  match c with
  | ⟨0, _⟩ => rfl
  | ⟨1, _⟩ => rfl
  | ⟨2, _⟩ => rfl

/-! ## The squared distances -/

/-- The sum of squares along the coordinate axis from 0 is |x_n|². -/
private theorem sq_apply (x : FVec Ideal S4x4096x3 .f32) (b : Fin 4) (n : Fin 4096) :
    Host.reduceAdd (mulf x x) (constant (F := Ideal) S_ .f32 0x00000000#32) reducesTo_S4x4096x3_S4x4096_d2 h_S_ (ix2 b n)
      = Cert.Spec.sqn x b n := by
  rw [hostReduceAdd_apply, Ideal.hostReduceAdd_single _ red3, constant_apply, Ideal.ofBits_zero_f32, zero_add]
  unfold Cert.Spec.sqn
  refine Finset.sum_congr rfl fun (d : Fin 3) _ => ?_
  rw [lift3, mulf_apply]

/-- A [4, 4096] array spread along rows, [4, 4096] → [4, 4096, 1] → [4, 4096, 4096], reads (b, n) at (b, n, m). -/
private theorem bcRow (v : FVec Ideal S4x4096 .f32) (b : Fin 4) (n m : Fin 4096) :
    broadcastInDim S4x4096x4096 ![0, 1, 2] bcast_S4x4096x1_S4x4096x4096_0_1_2
      (broadcastInDim S4x4096x1 ![0, 1] bcast_S4x4096_S4x4096x1_0_1 v) (ix3 b n m) = v (ix2 b n) := by
  refine (broadcastInDim_apply _ _ _ _ (ix3 b n (0 : Fin 1)) (fun a => ?_)).trans
    (broadcastInDim_apply _ _ _ _ (ix2 b n) (fun a => ?_))
  · match a with
    | ⟨0, _⟩ => rfl
    | ⟨1, _⟩ => rfl
    | ⟨2, _⟩ => rfl
  · match a with
    | ⟨0, _⟩ => rfl
    | ⟨1, _⟩ => rfl

/-- A [4, 4096] array spread along columns, [4, 4096] → [4, 1, 4096] → [4, 4096, 4096], reads (b, m) at (b, n, m). -/
private theorem bcCol (v : FVec Ideal S4x4096 .f32) (b : Fin 4) (n m : Fin 4096) :
    broadcastInDim S4x4096x4096 ![0, 1, 2] bcast_S4x1x4096_S4x4096x4096_0_1_2
      (broadcastInDim S4x1x4096 ![0, 2] bcast_S4x4096_S4x1x4096_0_2 v) (ix3 b n m) = v (ix2 b m) := by
  refine (broadcastInDim_apply _ _ _ _ (ix3 b (0 : Fin 1) m) (fun a => ?_)).trans
    (broadcastInDim_apply _ _ _ _ (ix2 b m) (fun a => ?_))
  · match a with
    | ⟨0, _⟩ => rfl
    | ⟨1, _⟩ => rfl
    | ⟨2, _⟩ => rfl
  · match a with
    | ⟨0, _⟩ => rfl
    | ⟨1, _⟩ => rfl

/-- The scalar 2 spread over the distance array. -/
private theorem bcTwo (i : S4x4096x4096.Idx) :
    broadcastInDim S4x4096x4096 ![] bcast_S_S4x4096x4096 (constant (F := Ideal) S_ .f32 0x40000000#32) i = Cert.Spec.two :=
  broadcastInDim_scalar_apply _ _ _

/-- The batched contraction over the coordinate axis at (b, n, m) is ⟨x_n, y_m⟩. -/
private theorem dot_apply (x y : FVec Ideal S4x4096x3 .f32) (b : Fin 4) (n m : Fin 4096) :
    Host.dotGeneral dot_S4x4096x3_S4x4096x3_S4x4096x4096_2_2_1_1_0_0 none x y (ix3 b n m) = Cert.Spec.dotp x y b n m := by
  show FloatOps.dotGeneral _ none _ x y (ix3 b n m) = _
  rw [Ideal.dotGeneral_apply,
    ← Equiv.sum_comp (contrEquiv1 dot_S4x4096x3_S4x4096x3_S4x4096x4096_2_2_1_1_0_0 3 rfl rfl).symm]
  unfold Cert.Spec.dotp
  refine Finset.sum_congr rfl fun d _ => ?_
  have c3 := contrEquiv1_symm_val dot_S4x4096x3_S4x4096x3_S4x4096x4096_2_2_1_1_0_0 3 rfl rfl d
  have l3 : dot_S4x4096x3_S4x4096x3_S4x4096x4096_2_2_1_1_0_0.lhsIdx (ix3 b n m)
      ((contrEquiv1 dot_S4x4096x3_S4x4096x3_S4x4096x4096_2_2_1_1_0_0 3 rfl rfl).symm d) = ix3 b n d := by
    funext ax; apply Fin.ext
    match ax with
    | ⟨0, _⟩ => simp [DotDims.lhsIdx, dot_S4x4096x3_S4x4096x3_S4x4096x4096_2_2_1_1_0_0]; rfl
    | ⟨1, _⟩ => simp [DotDims.lhsIdx, dot_S4x4096x3_S4x4096x3_S4x4096x4096_2_2_1_1_0_0]; rfl
    | ⟨2, _⟩ => simp [DotDims.lhsIdx, dot_S4x4096x3_S4x4096x3_S4x4096x4096_2_2_1_1_0_0]; exact c3
  have r3 : dot_S4x4096x3_S4x4096x3_S4x4096x4096_2_2_1_1_0_0.rhsIdx (ix3 b n m)
      ((contrEquiv1 dot_S4x4096x3_S4x4096x3_S4x4096x4096_2_2_1_1_0_0 3 rfl rfl).symm d) = ix3 b m d := by
    funext ax; apply Fin.ext
    match ax with
    | ⟨0, _⟩ => simp [DotDims.rhsIdx, dot_S4x4096x3_S4x4096x3_S4x4096x4096_2_2_1_1_0_0]; rfl
    | ⟨1, _⟩ => simp [DotDims.rhsIdx, dot_S4x4096x3_S4x4096x3_S4x4096x4096_2_2_1_1_0_0]; rfl
    | ⟨2, _⟩ => simp [DotDims.rhsIdx, dot_S4x4096x3_S4x4096x3_S4x4096x4096_2_2_1_1_0_0]; exact c3
  rw [l3, r3]

/-- The squared-distance array at (b, n, m) is |x_n|² + |y_m|² − 2·⟨x_n, y_m⟩. -/
theorem dist_apply (x y : FVec Ideal S4x4096x3 .f32) (b : Fin 4) (n m : Fin 4096) :
    dist (F := Ideal) x y (ix3 b n m) = Cert.Spec.pd x y b n m := by
  unfold dist
  dsimp only
  rw [subf_apply, addf_apply, mulf_apply, bcRow, bcCol, bcTwo, sq_apply, sq_apply, dot_apply]
  rfl

/-- Sums and products commute: the squared distance with the clouds exchanged. -/
private theorem pd_comm (x y : Cert.Spec.Pts.Idx → EReal) (b : Fin 4) (n m : Fin 4096) :
    Cert.Spec.pd x y b n m = Cert.Spec.pd y x b m n := by
  unfold Cert.Spec.pd Cert.Spec.dotp
  rw [add_comm (Cert.Spec.sqn x b n), Finset.sum_congr rfl fun d _ => mul_comm (x (ix3 b n d)) (y (ix3 b m d))]

/-! ## The minima -/

/-- The minimum along the last axis at (b, n): the fold of min from +∞ over m. -/
private theorem minLast (v : FVec Ideal S4x4096x4096 .f32) (b : Fin 4) (n : Fin 4096) :
    Host.reduce FloatOps.minimumf v (constant (F := Ideal) S_ .f32 0x7F800000#32) reducesTo_S4x4096x4096_S4x4096_d2 h_S_ (ix2 b n)
      = (Finset.univ : Finset (Fin 4096)).fold min Cert.Spec.top (fun m => v (ix3 b n m)) := by
  refine (Host.reduce_eq_fold_single FloatOps.minimumf v _ reducesTo_S4x4096x4096_S4x4096_d2 redD2 h_S_ (ix2 b n)).trans ?_
  have e : v ∘ redD2.lift (ix2 b n) = fun m : Fin 4096 => v (ix3 b n m) := funext fun m => congrArg v (liftD2 b n m)
  rw [e]
  rfl

/-- The minimum along the middle axis at (b, m): the fold of min from +∞ over n. -/
private theorem minMid (v : FVec Ideal S4x4096x4096 .f32) (b : Fin 4) (m : Fin 4096) :
    Host.reduce FloatOps.minimumf v (constant (F := Ideal) S_ .f32 0x7F800000#32) reducesTo_S4x4096x4096_S4x4096_d1 h_S_ (ix2 b m)
      = (Finset.univ : Finset (Fin 4096)).fold min Cert.Spec.top (fun n => v (ix3 b n m)) := by
  refine (Host.reduce_eq_fold_single FloatOps.minimumf v _ reducesTo_S4x4096x4096_S4x4096_d1 redD1 h_S_ (ix2 b m)).trans ?_
  have e : v ∘ redD1.lift (ix2 b m) = fun n : Fin 4096 => v (ix3 b n m) := funext fun n => congrArg v (liftD1 b m n)
  rw [e]
  rfl

/-! ## 10⁶ times the identity -/

/-- The one-bit comparison of the words of two coordinates below 4096 is 1 exactly on the diagonal: the row
    coordinate's word plus the zero word is itself, and words of numbers below 2³² are equal only if the numbers are. -/
private theorem cmp_apply (n m : Fin 4096) :
    cmpi .eq (addi (iotaInDim S4096x4096 32 0) (broadcastInDim S4096x4096 ![] bcast_S_S4096x4096 (constantI S_ 32 0#32)))
      (iotaInDim S4096x4096 32 1) (ix2 n m) = if n.val = m.val then 1#1 else 0#1 := by
  show IntOp.cmpi .eq (IntOp.addi (BitVec.ofNat 32 n.val) 0#32) (BitVec.ofNat 32 m.val) = _
  unfold IntOp.cmpi IntOp.addi
  rw [BitVec.add_zero]
  by_cases h : n.val = m.val
  · rw [if_pos h, h]; simp
  · rw [if_neg h]
    have hne : BitVec.ofNat 32 n.val ≠ BitVec.ofNat 32 m.val := by
      intro e
      have e' := congrArg BitVec.toNat e
      rw [BitVec.toNat_ofNat, BitVec.toNat_ofNat, Nat.mod_eq_of_lt (by have := n.isLt; omega),
        Nat.mod_eq_of_lt (by have := m.isLt; omega)] at e'
      exact h e'
    rw [beq_eq_false_iff_ne.mpr hne]; rfl

/-- 10⁶ times the identity at (b, n, m): 1·10⁶ on the diagonal, 0·10⁶ = 0 off it. -/
private theorem eye_apply (b : Fin 4) (n m : Fin 4096) :
    eyeBig (F := Ideal) (ix3 b n m) = if n.val = m.val then Cert.Spec.big else Cert.Spec.zero := by
  unfold eyeBig
  dsimp only
  refine (broadcastInDim_apply _ _ _ _ (ix3 (0 : Fin 1) n m) (fun a => ?_)).trans ?_
  · match a with
    | ⟨0, _⟩ => rfl
    | ⟨1, _⟩ => rfl
    | ⟨2, _⟩ => rfl
  rw [mulf_apply, broadcastInDim_scalar_apply, constant_apply]
  refine (congrArg (· * Ideal.ofBits .f32 0x49742400#32)
    (broadcastInDim_apply _ _ _ _ (ix2 n m) (fun a => ?_))).trans ?_
  · match a with
    | ⟨0, _⟩ => rfl
    | ⟨1, _⟩ => rfl
  show ((((cmpi .eq (addi (iotaInDim S4096x4096 32 0) (broadcastInDim S4096x4096 ![] bcast_S_S4096x4096 (constantI S_ 32 0#32)))
      (iotaInDim S4096x4096 32 1) (ix2 n m)).toNat : ℝ) : EReal)) * Cert.Spec.big = _
  rw [cmp_apply]
  by_cases h : n.val = m.val
  · rw [if_pos h, if_pos h]
    show (((1 : ℕ) : ℝ) : EReal) * Cert.Spec.big = _
    rw [Nat.cast_one, EReal.coe_one, one_mul]
  · rw [if_neg h, if_neg h]
    show (((0 : ℕ) : ℝ) : EReal) * Cert.Spec.big = _
    rw [Nat.cast_zero, EReal.coe_zero, zero_mul]
    exact Ideal.ofBits_zero_f32.symm

/-! ## The three arrays -/

/-- The minimum along the last axis: for each row of `x` the nearest row of `y`. -/
theorem stage13_eq (x y : FVec Ideal S4x4096x3 .f32) : stage13 (F := Ideal) x y = Cert.Spec.nearest x y := by
  funext i
  obtain ⟨b, n, rfl⟩ : ∃ (b : Fin 4) (n : Fin 4096), i = ix2 b n := ⟨i 0, i 1, eq_ix2 i⟩
  rw [Cert.Spec.nearest_ix2]
  unfold stage13 Cert.Spec.nearestAt
  rw [minLast]
  exact Finset.fold_congr fun m _ => dist_apply x y b n m

/-- The minimum along the middle axis: for each row of `y` the nearest row of `x`; sums and products commute, so
    it is the nearest-neighbour array with the clouds exchanged. -/
theorem stage17_eq (x y : FVec Ideal S4x4096x3 .f32) : stage17 (F := Ideal) x y = Cert.Spec.nearest y x := by
  funext i
  obtain ⟨b, m, rfl⟩ : ∃ (b : Fin 4) (m : Fin 4096), i = ix2 b m := ⟨i 0, i 1, eq_ix2 i⟩
  rw [Cert.Spec.nearest_ix2]
  unfold stage17 Cert.Spec.nearestAt
  rw [minMid]
  exact Finset.fold_congr fun n _ => (dist_apply x y b n m).trans (pd_comm x y b n m)

/-- Within one cloud, 10⁶ times the identity added: 1·10⁶ on the diagonal, 0·10⁶ = 0 off it. -/
theorem stage57_eq (x : FVec Ideal S4x4096x3 .f32) : stage57 (F := Ideal) x = Cert.Spec.nearestSelf x := by
  funext i
  obtain ⟨b, n, rfl⟩ : ∃ (b : Fin 4) (n : Fin 4096), i = ix2 b n := ⟨i 0, i 1, eq_ix2 i⟩
  rw [Cert.Spec.nearestSelf_ix2]
  unfold stage57 Cert.Spec.nearestSelfAt
  rw [minLast]
  exact Finset.fold_congr fun m _ => by rw [addf_apply, dist_apply, eye_apply]

end Cert.ReferenceIdeal.Hand

end
-- ==== Proof.lean ====
/-
  The certificate of a mesh-generation loss: two chamfer directions and a density term, each a nearest-neighbour
  search over 4 × 4096 points in three dimensions, plus a KL term and a sizing error, summed with weights.

  The kernel runs the three searches as three pipelined regions (rows in blocks of 128 against the whole other
  cloud; the third against the same cloud with 10⁶ added on the diagonal) and the scalar arithmetic on the host; the
  reference materialises the 4 × 4096 × 4096 distance arrays and reduces them. Over the extended reals both compute,
  for every row, the minimum over the other cloud's rows of |x|² + |y|² − 2·⟨x, y⟩ — the kernel's change of format
  before its matrix product is the identity there, a block-wise minimum is the minimum, the reference's minimum
  along the middle axis is the other direction's search because sums and products commute, and 1·10⁶, 0·10⁶ on the
  identity matrix are the kernel's selected 10⁶, 0 — and then apply the same scalar arithmetic to the three arrays.

  Frames: each program terminates and leaves its six argument arrays as launched. The idealization rewrote no
  operation, so `preserves` has nothing to state.
-/
import proofs.«172589_j55319178772943_1_alg».proof.Defs
import proofs.«172589_j55319178772943_1_alg».proof.Proof.Gen.Kernel
import proofs.«172589_j55319178772943_1_alg».proof.Proof.Gen.KernelIdeal
import proofs.«172589_j55319178772943_1_alg».proof.Proof.Gen.ReferenceIdeal
import proofs.«172589_j55319178772943_1_alg».proof.Proof.Gen.Pre_finite_inputs
import proofs.«172589_j55319178772943_1_alg».proof.Proof.K.FrameRun
import proofs.«172589_j55319178772943_1_alg».proof.Proof.KI.FrameRun
import proofs.«172589_j55319178772943_1_alg».proof.Proof.KI.Value
import proofs.«172589_j55319178772943_1_alg».proof.Proof.Ref.Run
import proofs.«172589_j55319178772943_1_alg».proof.Proof.Ref.Stages

noncomputable section

namespace Cert.Proof

open Idealize.ShloMosaic Idealize.SL.Sem

/-- The word-level kernel terminates and leaves its arguments as launched. -/
theorem frame_k : Cert.frame_Kernel := fun m ρ _ => Cert.Kernel.Hand.frame_run (F := Bits) m ρ

/-- So does its idealization. -/
theorem frame_ki : Cert.frame_KernelIdeal := fun m ρ _ => Cert.KernelIdeal.Hand.frame_run (F := Ideal) m ρ

/-- And the reference: its run, the result dropped. -/
theorem frame_ri : Cert.frame_ReferenceIdeal := fun m ρ _ =>
  (θ_run Cert.ReferenceIdeal.defs _ _).mono (fun _ h c => (h c).2) (Cert.ReferenceIdeal.Hand.run_out (F := Ideal) m ρ)

/-- From memories agreeing on the arguments both programs end at the same loss: the reference's three stages are the
    three nearest-neighbour arrays the kernel's regions leave, and the scalar arithmetic after them is one function. -/
theorem algebraic : Cert.algebraic_KernelIdeal_ReferenceIdeal := by
  intro m ρ m' ρ' _ hagree
  refine ⟨fun c => Cert.KernelIdeal.Hand.lossOf m c, Cert.KernelIdeal.Hand.value_run m ρ, ?_⟩
  refine (θ_run Cert.ReferenceIdeal.defs _ _).mono (fun _ h c => ⟨(h c).1.trans ?_, (h c).2⟩)
    (Cert.ReferenceIdeal.Hand.run_out (F := Ideal) m' ρ')
  rw [Cert.ReferenceIdeal.Hand.stage13_eq, Cert.ReferenceIdeal.Hand.stage17_eq, Cert.ReferenceIdeal.Hand.stage57_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
